-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S50000 : Shape := ⟨1, ![50000]⟩
abbrev S64x32 : Shape := ⟨2, ![64, 32]⟩
abbrev S384x128 : Shape := ⟨2, ![384, 128]⟩
abbrev S128 : Shape := ⟨1, ![128]⟩
abbrev S160x2 : Shape := ⟨2, ![160, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S160x2 : S_.BroadcastsInDim S160x2 (![] : Fin 0 → Fin S160x2.rank)
  reducesTo_S160x2_S_d0_1 : S160x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S2 .f32) (main_v33 : IVec S_ 1) : IVec S_ 1 :=
  let main_v34 : FVec F S2 .f32 := Host.absf main_arg10
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg7 : FVec F S384x128 .f32) (main_arg8 : FVec F S128 .f32) (main_arg9 : FVec F S160x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg7
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S160x2 .f32 := Host.absf main_arg9
  let main_cst_10 : FVec F S_ .f32 := constant S_ .f32 0x7F800000#32
  let main_v30 : FVec F S160x2 .f32 := broadcastInDim S160x2 ![] bcast_S_S160x2 main_cst_10
  let main_v31 : IVec S160x2 1 := cmpf .olt main_v29 main_v30
  let main_c_11 : IVec S_ 1 := constantI S_ 1 1#1
  let main_v32 : IVec S_ 1 := (fun x v => Host.reduce IntOp.andi x v reducesTo_S160x2_S_d0_1 h_S_) main_v31 main_c_11
  let main_v33 : IVec S_ 1 := andi main_v28 main_v32
  fn_part2 (F := F) main_arg10 main_v33

def fn {F : FTy → Type} [FloatOps F] (main_arg0 : FVec F S50000x128 .f32) (main_arg1 : IVec S600000 32) (main_arg2 : IVec S600000 32) (main_arg3 : IVec S50000 32) (main_arg4 : FVec F S64x32 .f32) (main_arg5 : FVec F S384x128 .f32) (main_arg6 : FVec F S128 .f32) (main_arg7 : FVec F S384x128 .f32) (main_arg8 : FVec F S128 .f32) (main_arg9 : FVec F S160x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x32 .f32 := Host.absf main_arg4
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S384x128 .f32 := Host.absf main_arg5
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_v13 main_v16
-- ==== Kernel.lean ====
abbrev S50000x128 : Shape := ⟨2, ![50000, 128]⟩
abbrev S600000 : Shape := ⟨1, ![600000]⟩
abbrev S50000 : Shape := ⟨1, ![50000]⟩
abbrev S64x32 : Shape := ⟨2, ![64, 32]⟩
abbrev S384x128 : Shape := ⟨2, ![384, 128]⟩
abbrev S128 : Shape := ⟨1, ![128]⟩
abbrev S160x2 : Shape := ⟨2, ![160, 2]⟩
abbrev S2 : Shape := ⟨1, ![2]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S50000x384 : Shape := ⟨2, ![50000, 384]⟩
abbrev S1x128 : Shape := ⟨2, ![1, 128]⟩
abbrev S2000x384 : Shape := ⟨2, ![2000, 384]⟩
abbrev S2000x128 : Shape := ⟨2, ![2000, 128]⟩
abbrev S64 : Shape := ⟨1, ![64]⟩
abbrev S1x64 : Shape := ⟨2, ![1, 64]⟩
abbrev S50000x64 : Shape := ⟨2, ![50000, 64]⟩
abbrev S64x1 : Shape := ⟨2, ![64, 1]⟩
abbrev S1x2 : Shape := ⟨2, ![1, 2]⟩
abbrev S64x2 : Shape := ⟨2, ![64, 2]⟩
abbrev S2000x64 : Shape := ⟨2, ![2000, 64]⟩
abbrev S64x128 : Shape := ⟨2, ![64, 128]⟩
abbrev S128x2 : Shape := ⟨2, ![128, 2]⟩
abbrev S32x2 : Shape := ⟨2, ![32, 2]⟩

abbrev nBuf : Space → Nat
  | .hbm => 118
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S50000, .i32⟩
  | .hbm, ⟨4, _⟩ => ⟨S64x32, .f32⟩
  | .hbm, ⟨5, _⟩ => ⟨S384x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S160x2, .f32⟩
  | .hbm, ⟨10, _⟩ => ⟨S2, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x384, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S_, .f32⟩
  | .hbm, ⟨94, _⟩ => ⟨S50000x128, .f32⟩
  | .hbm, ⟨95, _⟩ => ⟨S600000x1, .i32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x384, .f32⟩
  | .hbm, ⟨100, _⟩ => ⟨S1x128, .f32⟩
  | .hbm, ⟨101, _⟩ => ⟨S50000x128, .f32⟩
  | .hbm, ⟨102, _⟩ => ⟨S50000x1, .i32⟩
  | .hbm, ⟨103, _⟩ => ⟨S64, .i32⟩
  | .hbm, ⟨104, _⟩ => ⟨S1x64, .i32⟩
  | .hbm, ⟨105, _⟩ => ⟨S50000x64, .i32⟩
  | .hbm, ⟨106, _⟩ => ⟨S50000x64, .i32⟩
  | .hbm, ⟨107, _⟩ => ⟨S50000x64, .i1⟩
  | .hbm, ⟨108, _⟩ => ⟨S50000x64, .f32⟩
  | .hbm, ⟨109, _⟩ => ⟨S_, .f32⟩
  | .hbm, ⟨110, _⟩ => ⟨S50000, .f32⟩
  | .hbm, ⟨111, _⟩ => ⟨S_, .f32⟩
  | .hbm, ⟨112, _⟩ => ⟨S64, .f32⟩
  | .hbm, ⟨113, _⟩ => ⟨S50000x1, .i32⟩
  | .hbm, ⟨114, _⟩ => ⟨S64, .f32⟩
  | .hbm, ⟨115, _⟩ => ⟨S64x1, .f32⟩
  | .hbm, ⟨116, _⟩ => ⟨S1x2, .f32⟩
  | .hbm, ⟨117, _⟩ => ⟨S64x2, .f32⟩
  | .local _ .vmem, ⟨0, _⟩ => ⟨S2000x384, .f32⟩
  | .local _ .vmem, ⟨1, _⟩ => ⟨S2000x384, .f32⟩
  | .local _ .vmem, ⟨2, _⟩ => ⟨S384x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x384, .f32⟩
  | .local _ .vmem, ⟨7, _⟩ => ⟨S2000x384, .f32⟩
  | .local _ .vmem, ⟨8, _⟩ => ⟨S384x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x64, .f32⟩
  | .local _ .vmem, ⟨13, _⟩ => ⟨S2000x64, .f32⟩
  | .local _ .vmem, ⟨14, _⟩ => ⟨S2000x128, .f32⟩
  | .local _ .vmem, ⟨15, _⟩ => ⟨S2000x128, .f32⟩
  | .local _ .vmem, ⟨16, _⟩ => ⟨S64x32, .f32⟩
  | .local _ .vmem, ⟨17, _⟩ => ⟨S64x1, .f32⟩
  | .local _ .vmem, ⟨18, _⟩ => ⟨S160x2, .f32⟩
  | .local _ .vmem, ⟨19, _⟩ => ⟨S1x2, .f32⟩
  | .local _ .vmem, ⟨20, _⟩ => ⟨S64x2, .f32⟩
  | .local _ .vmem, ⟨21, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v15 : BitVec 1 := Scalar.cmpi .eq arg0 c24_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S160x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  shapeCasts_S128_S1x128 : S128.ShapeCasts S1x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  bcast_S_S64 : S_.BroadcastsInDim S64 (![] : Fin 0 → Fin S64.rank)
  shapeCasts_S64_S64x1 : S64.ShapeCasts S64x1
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S2000x128_S2000x128 : S2000x128.ShapeCasts S2000x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S160x2_S160x2_0_0 : ∀ a, (![0, 0] : Fin 2 → Nat) a + S160x2.size a ≤ S160x2.size a
  h_S160x2 : 0 < S160x2.numel
  slices_S160x2_o0_0_S128x2 : S160x2.Slices ![0, 0] S128x2
  slices_S160x2_o128_0_S32x2 : S160x2.Slices ![128, 0] S32x2
  inb_S64x32_S64x32_0_0 : ∀ a, (![0, 0] : Fin 2 → Nat) a + S64x32.size a ≤ S64x32.size a
  h_S64x32 : 0 < S64x32.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x384_S384x128_S2000x128_1_0_0_1_n_n_wf : DotDims.WF S2000x384 S384x128 S2000x128 [1] [0] [0] [1] [] []
  scatter_S64_S50000x1_S50000_n_0_0_1_wf : ScatterDims.WF S64 S50000x1 S50000 [] [0] [0] 1
  dot_S2000x64_S2000x128_S64x128_0_0_1_1_n_n_wf : DotDims.WF S2000x64 S2000x128 S64x128 [0] [0] [1] [1] [] []
  dot_S64x128_S128x2_S64x2_1_0_0_1_n_n_wf : DotDims.WF S64x128 S128x2 S64x2 [1] [0] [0] [1] [] []
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S50000x384.size a
  hwx0_0 : ∀ i : grid0.Coords, EltTy.bits .f32 = 32 ∨ (Rect.block (s := S50000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S50000x384.size a
  hwx1_0 : ∀ i : grid1.Coords, EltTy.bits .f32 = 32 ∨ (Rect.block (s := S50000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S160x2.size a ≤ S160x2.size a
  hwx2_4 : ∀ i : grid2.Coords, EltTy.bits .f32 = 32 ∨ (Rect.block (s := S160x2) S160x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x2.size a ≤ S64x2.size a
  hwx2_6 : ∀ i : grid2.Coords, EltTy.bits .f32 = 32 ∨ (Rect.block (s := S64x2) S64x2.size (cc2_transform_6 i) (hinb2_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_v38) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v69) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v78) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S160x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v85) S64x2.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S50000x128 : Shape := ⟨2, ![50000, 128]⟩
abbrev S600000 : Shape := ⟨1, ![600000]⟩
abbrev S50000 : Shape := ⟨1, ![50000]⟩
abbrev S64x32 : Shape := ⟨2, ![64, 32]⟩
abbrev S384x128 : Shape := ⟨2, ![384, 128]⟩
abbrev S128 : Shape := ⟨1, ![128]⟩
abbrev S160x2 : Shape := ⟨2, ![160, 2]⟩
abbrev S2 : Shape := ⟨1, ![2]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S50000x384 : Shape := ⟨2, ![50000, 384]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x160 : Shape := ⟨2, ![64, 160]⟩
abbrev S64x2 : Shape := ⟨2, ![64, 2]⟩
abbrev S1x2 : Shape := ⟨2, ![1, 2]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000, .i32⟩
  | 4 => ⟨S64x32, .f32⟩
  | 5 => ⟨S384x128, .f32⟩
  | 6 => ⟨S128, .f32⟩
  | 7 => ⟨S384x128, .f32⟩
  | 8 => ⟨S128, .f32⟩
  | 9 => ⟨S160x2, .f32⟩
  | 10 => ⟨S2, .f32⟩
  | 11 => ⟨S_, .f32⟩
  | 12 => ⟨S600000, .f32⟩
  | 13 => ⟨S_, .f32⟩
  | 14 => ⟨S50000, .f32⟩
  | 15 => ⟨S600000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S_, .f32⟩
  | 22 => ⟨S50000, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S50000x128, .f32⟩
  | 29 => ⟨S50000x128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S_, .f32⟩
  | 57 => ⟨S50000x128, .f32⟩
  | 58 => ⟨S600000x1, .i32⟩
  | 59 => ⟨S50000x128, .f32⟩
  | 60 => ⟨S50000x128, .f32⟩
  | 61 => ⟨S50000x128, .f32⟩
  | 62 => ⟨S50000x384, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S50000x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S50000x128, .f32⟩
  | 86 => ⟨S50000x128, .f32⟩
  | 87 => ⟨S50000x128, .f32⟩
  | 88 => ⟨S50000x128, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S50000x128, .f32⟩
  | 103 => ⟨S50000x128, .f32⟩
  | 104 => ⟨S50000x384, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S64x128, .f32⟩
  | 111 => ⟨S50000x1, .i32⟩
  | 112 => ⟨S64x128, .f32⟩
  | 113 => ⟨S_, .f32⟩
  | 114 => ⟨S50000, .f32⟩
  | 115 => ⟨S_, .f32⟩
  | 116 => ⟨S64, .f32⟩
  | 117 => ⟨S50000x1, .i32⟩
  | 118 => ⟨S64, .f32⟩
  | 119 => ⟨S_, .f32⟩
  | 120 => ⟨S64, .f32⟩
  | 121 => ⟨S64, .f32⟩
  | 122 => ⟨S64x1, .f32⟩
  | 123 => ⟨S64x128, .f32⟩
  | 124 => ⟨S64x128, .f32⟩
  | 125 => ⟨S64x160, .f32⟩
  | 126 => ⟨S64x2, .f32⟩
  | 127 => ⟨S1x2, .f32⟩
  | _ => ⟨S50000x128, .f32⟩

abbrev hbmTy0_1 (i : Nat) : BufTy := match i % 128 with
  | 0 => ⟨S64x2, .f32⟩
  | 1 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x32_S64x160_d1 : Shape.Concatenates [S64x128, S64x32] S64x160 1
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x384_S384x128_S50000x128_1_0_0_1_n_n_wf : DotDims.WF S50000x384 S384x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x160_S160x2_S64x2_1_0_0_1_n_n_wf : DotDims.WF S64x160 S160x2 S64x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x160_S160x2_S64x2_1_0_0_1_n_n : DotDims S64x160 S160x2 S64x2 where
  lhsContracting := [1]
  rhsContracting := [0]
  lhsNonContracting := [0]
  rhsNonContracting := [1]
  lhsBatch := []
  rhsBatch := []
  wf := dot_S64x160_S160x2_S64x2_1_0_0_1_n_n_wf

class Facts : Prop extends Facts₀ where

variable [Facts]
-- ==== Proof.K.Reg0.lean ====
/- The class-A half of region 0 of @main (the dense layer with a rectifier: `max (x ⬝ W + b) 0` on one row tile), at a PARAMETER `V`: the TensorCore's buffer
   contents when the region is entered. Each window's block at a grid point is read off its array; the three input
   windows' staging buffers hold their blocks at every point (the row-tile window is fetched at every point, the
   weight and the bias windows only at the first, and an unfetched input's block index has not moved); the body
   reads the three input buffers whole, reads the output buffer (a value it never uses) and overwrites the output
   buffer whole with the payload of the three values read. So after the body the output buffer is that payload of
   the three input blocks, the inputs are as they were, and the pipeline's invariant passes through untouched. -/
import proofs.«405254_j42863773614471_1_alg».proof.Proof.Gen.Kernel.Launch
import proofs.«405254_j42863773614471_1_alg».proof.Proof.Gen.Kernel.Skeleton
import proofs.«405254_j42863773614471_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle whose extents run to the thousands is decided by recursion on the coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row tile, fetched at every point): its current staging buffer holds its block, for ANY proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one block, fetched at the first point only): at a later point nothing was fetched,
    the block index has not moved, and the body left the block in place; so the buffer holds the block there too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block, fetched at the first point only): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the rectangle of its own sizes at zero offsets -/

abbrev r0_0 : Rect S2000x384 := Rect.unit (s := S2000x384) ![0, 0] S2000x384.size inb_S2000x384_S2000x384_0_0
abbrev r0_1 : Rect S384x128 := Rect.unit (s := S384x128) ![0, 0] S384x128.size inb_S384x128_S384x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output window's buffer -/

/-- Window 3's staging buffer after the body, from the three input windows' blocks: its one store as a piece, the
    payload of the three loads. -/
def out0_3 (x0 : Vec F S2000x384 .f32) (x1 : Vec F S384x128 .f32) (x2 : Vec F S1x128 .f32) : Vec F S2000x128 .f32 :=
  View.canon [⟨r0_3, k0_pay1 (View.ld x0 r0_0) (View.ld x1 r0_1) (View.ld x2 r0_2)⟩]

/-- The one store is through the whole buffer, so it covers it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-- Whole-buffer loads read the buffers and one covering store leaves its payload: the output buffer after the body IS
    the payload of the three input buffers. -/
theorem out0_3_eq (x0 : Vec F S2000x384 .f32) (x1 : Vec F S384x128 .f32) (x2 : Vec F S1x128 .f32) :
    out0_3 x0 x1 x2 = k0_pay1 x0 x1 x2 := by
  have hz0 : (![0, 0] : Fin S2000x384.rank → Nat) = fun _ => 0 := funext fun a => by fin_cases a <;> rfl
  have hz1 : (![0, 0] : Fin S384x128.rank → Nat) = fun _ => 0 := funext fun a => by fin_cases a <;> rfl
  have hz2 : (![0, 0] : Fin S1x128.rank → Nat) = fun _ => 0 := funext fun a => by fin_cases a <;> rfl
  have hz3 : (![0, 0] : Fin S2000x128.rank → Nat) = fun _ => 0 := funext fun a => by fin_cases a <;> rfl
  unfold out0_3
  rw [View.canon_unit_zero hz3, View.ld_unit_zero hz0, View.ld_unit_zero hz1, View.ld_unit_zero hz2]

/-! ## The body's triple -/

set_option maxHeartbeats 1000000 in
/-- The kernel body on whole staging memrefs, the inputs' at contents `x0 x1 x2` and the output's at anything, runs to
    the continuation holding the inputs' as they were and the output's at `out0_3` of the inputs': the printed function
    is its skeleton of memory operations, which is run one operation at a time (three loads, a load of the output buffer
    whose value is unused, one store). -/
theorem sound_kernel0 (c : Dev nD) (E : Set ℕ) (i : grid0.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- The class-A half of region 1 of @main (the dense layer: `x ⬝ W + b` on one row tile), at a PARAMETER `V`: the TensorCore's buffer
   contents when the region is entered. Each window's block at a grid point is read off its array; the three input
   windows' staging buffers hold their blocks at every point (the row-tile window is fetched at every point, the
   weight and the bias windows only at the first, and an unfetched input's block index has not moved); the body
   reads the three input buffers whole, reads the output buffer (a value it never uses) and overwrites the output
   buffer whole with the payload of the three values read. So after the body the output buffer is that payload of
   the three input blocks, the inputs are as they were, and the pipeline's invariant passes through untouched. -/
import proofs.«405254_j42863773614471_1_alg».proof.Proof.Gen.Kernel.Launch
import proofs.«405254_j42863773614471_1_alg».proof.Proof.Gen.Kernel.Skeleton
import proofs.«405254_j42863773614471_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle whose extents run to the thousands is decided by recursion on the coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row tile, fetched at every point): its current staging buffer holds its block, for ANY proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weights, one block, fetched at the first point only): at a later point nothing was fetched,
    the block index has not moved, and the body left the block in place; so the buffer holds the block there too. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row, one block, fetched at the first point only): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole, through the rectangle of its own sizes at zero offsets -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the output window's buffer -/

/-- Window 3's staging buffer after the body, from the three input windows' blocks: its one store as a piece, the
    payload of the three loads. -/
def out1_3 (x0 : Vec F S2000x384 .f32) (x1 : Vec F S384x128 .f32) (x2 : Vec F S1x128 .f32) : Vec F S2000x128 .f32 :=
  View.canon [⟨r1_3, k1_pay1 (View.ld x0 r1_0) (View.ld x1 r1_1) (View.ld x2 r1_2)⟩]

/-- The one store is through the whole buffer, so it covers it. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-- Whole-buffer loads read the buffers and one covering store leaves its payload: the output buffer after the body IS
    the payload of the three input buffers. -/
theorem out1_3_eq (x0 : Vec F S2000x384 .f32) (x1 : Vec F S384x128 .f32) (x2 : Vec F S1x128 .f32) :
    out1_3 x0 x1 x2 = k1_pay1 x0 x1 x2 := by
  have hz0 : (![0, 0] : Fin S2000x384.rank → Nat) = fun _ => 0 := funext fun a => by fin_cases a <;> rfl
  have hz1 : (![0, 0] : Fin S384x128.rank → Nat) = fun _ => 0 := funext fun a => by fin_cases a <;> rfl
  have hz2 : (![0, 0] : Fin S1x128.rank → Nat) = fun _ => 0 := funext fun a => by fin_cases a <;> rfl
  have hz3 : (![0, 0] : Fin S2000x128.rank → Nat) = fun _ => 0 := funext fun a => by fin_cases a <;> rfl
  unfold out1_3
  rw [View.canon_unit_zero hz3, View.ld_unit_zero hz0, View.ld_unit_zero hz1, View.ld_unit_zero hz2]

/-! ## The body's triple -/

set_option maxHeartbeats 1000000 in
/-- The kernel body on whole staging memrefs, the inputs' at contents `x0 x1 x2` and the output's at anything, runs to
    the continuation holding the inputs' as they were and the output's at `out1_3` of the inputs': the printed function
    is its skeleton of memory operations, which is run one operation at a time (three loads, a load of the output buffer
    whose value is unused, one store). -/
theorem sound_kernel1 (c : Dev nD) (E : Set ℕ) (i : grid1.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the three input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
/-
  The pooling-and-classification region (the third pallas call: a grid of 25 row tiles, a 64 x 128 accumulator
  carried from tile to tile), at the buffers' contents `V` when the region is entered: what the three runs of its
  body share. The windows' blocks; the body's two conditions on the grid coordinate in closed form (the first tile
  resets the accumulator, the last tile classifies); where the output window is idle and not written back; the
  staging memrefs and the accumulator as the body is called with them; and the region's invariant with the
  accumulator split off the other scoped buffers.
-/
import proofs.«405254_j42863773614471_1_alg».proof.Proof.Gen.Kernel.Launch
import proofs.«405254_j42863773614471_1_alg».proof.Proof.Gen.Kernel.Skeleton
import proofs.«405254_j42863773614471_1_alg».proof.Proof.Gen.Kernel.Points
import Idealize.ShloMosaic.Lib.Pipeline.FrameBody
import Idealize.ShloMosaic.Lib.Ring
import Idealize.ShloMosaic.Lib.Tactic

-- membership in a rectangle of the kernel's extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window not
    fetched at a point has not moved its block index since the point before), for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window not
    fetched at a point has not moved its block index since the point before), for any proof data whose array is
    `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window not
    fetched at a point has not moved its block index since the point before), for any proof data whose array is
    `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a window not
    fetched at a point has not moved its block index since the point before), for any proof data whose array is
    `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a window not
    fetched at a point has not moved its block index since the point before), for any proof data whose array is
    `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (a window not
    fetched at a point has not moved its block index since the point before), for any proof data whose array is
    `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (reset the accumulator), from the grid coordinate. -/
abbrev cond2_0 (i : grid2.Coords) : Prop := (Scalar.cmpi .ne (Scalar.extui (Scalar.cmpi .eq (BitVec.ofNat 32 (i 0).val) 0#32)) 0#32) = 1#1
/-- It holds at the first tile only — decided over the grid. -/
theorem hcond2_0 : ∀ t : Fin cfg2.N, cond2_0 (grid2.coords t) ↔ t.val % 25 = 0 :=
  (by decide +kernel : ∀ t : Fin grid2.N, cond2_0 (grid2.coords t) ↔ t.val % 25 = 0)

/-- The condition of the body's second `scf.if` (classify), from the grid coordinate. -/
abbrev cond2_1 (i : grid2.Coords) : Prop := k2_cond2 i = 1#1
/-- It holds at the last tile only — decided over the grid. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- At the first tile the output window is idle: the body stores nothing into it. -/
theorem idleAt2_6_A : ∀ t : Fin cfg2.N, cond2_0 (grid2.coords t) → ¬cond2_1 (grid2.coords t) → cfg2.idle 6 (grid2.coords t) = true := by decide +kernel
/-- At the first tile the pipeline does not write the output's block back. -/
theorem noFlush2_6_A : ∀ t : Fin cfg2.N, cond2_0 (grid2.coords t) → ¬cond2_1 (grid2.coords t) → (cfg2.win 6).flush t = false := by decide +kernel
/-- At the middle tiles the output window is idle: the body stores nothing into it. -/
theorem idleAt2_6_B : ∀ t : Fin cfg2.N, ¬cond2_0 (grid2.coords t) → ¬cond2_1 (grid2.coords t) → cfg2.idle 6 (grid2.coords t) = true := by decide +kernel
/-- At the middle tiles the pipeline does not write the output's block back. -/
theorem noFlush2_6_B : ∀ t : Fin cfg2.N, ¬cond2_0 (grid2.coords t) → ¬cond2_1 (grid2.coords t) → (cfg2.win 6).flush t = false := by decide +kernel
/-- At the last tile the output window is live: the body stores into it. -/
theorem liveAt2_6_C : ∀ t : Fin cfg2.N, ¬cond2_0 (grid2.coords t) → cond2_1 (grid2.coords t) → cfg2.idle 6 (grid2.coords t) = false := by decide +kernel

/-! ## The memrefs the body is called with -/

/-- The one staging buffer of the output window, through which its contents are stated. -/
abbrev VO2_6 : View sig .tc .vmem S64x2 .f32 := (Memref.whole cc2_stg6_0 : Memref sig .tc .vmem S64x2 .f32).view
/-- Each window's current staging memref at point `t`, spelled as the pipeline passes it, and its wholeness. -/
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S160x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x2 .f32 := win2_6.stage (cfg2.slots t 6)
abbrev hs2_6 (t : Fin cfg2.N) : (ms2_6 t).IsWhole := hstage2_6 ((cfg2.slots t 6).cast nbuf2_6)
/-- The accumulator: a whole scoped buffer of the kernel's own, passed beside the windows. -/
abbrev scM2_0 : Memref sig .tc .vmem S64x128 .f32 := Memref.whole cc2_scratch0
/-- The accumulator as a view: what it holds is stated through it. -/
abbrev VS2_0 : View sig .tc .vmem S64x128 .f32 := scM2_0.view

/-! ## The region's invariant, the accumulator split off -/

/-- The scoped buffers that are no staging buffer of this region, split at the accumulator: the accumulator whole at
    some contents, and every other such buffer (the other two regions' staging buffers) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers of the core, which the region never opens. -/
abbrev Rest2 (c : Dev nD) : sProp 𝕄 :=
  Pipeline.scopedRestBut (Ix := Unit) (Name := ℕ) (U := UR sig nD τ) (Lvl := ℕ) (Val := Elt F) spec2 c [cc2_scratch0]

/-- The region's invariant with the accumulator as a memref owned at some contents: what the body obligation hands
    the run and takes back. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA; rw [scopedRest2_split]; simp only [scM2_0, owns_whole]; try rfl

end Cert.Kernel.Hand

end
-- ==== Proof.K.Reg2RunA.lean ====
/-
  The pooling-and-classification body run at the first tile: the accumulator is reset to zero, then this tile's product is added; the output window is not stored into.
  The run is a pair of piece lists — what the body's stores leave in the output window's staging memref and in the
  accumulator, last store first — with the proof that, on whole memrefs holding the six input blocks,
  the body runs to a continuation holding the inputs as they were, the output's memref untouched and the accumulator with
  its pieces written.
-/
import proofs.«405254_j42863773614471_1_alg».proof.Proof.K.Reg2Runs

-- membership in a rectangle of the kernel's extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

-- (the run's proof term is large: the definition's epilogue walks it past the default budget)
set_option maxHeartbeats 1000000 in
/-- The pieces the body's stores leave (last first) at the first tile, with the body's triple there: each `scf.if` is decided by
    the case's hypotheses, and the pieces are what the symbolic run finds. -/
noncomputable def kernelRun2_A (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) :
    Σ' (L6 : List (View.Piece (Elt F) S64x2 .f32)), { LS0 : List (View.Piece (Elt F) S64x128 .f32) //
      ∀ (xi6 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_classify_kernel i arg1 harg1 arg2 harg2 arg3 harg3 arg4 harg4 arg5 harg5 arg6 harg6 arg7 harg7 arg8 harg8) K } := by
  refine ⟨[], ?_, fun xi6 E K => ?run⟩
  case run =>
    simp only [cc2__pool_classify_kernel_eq_skeleton]; unfold cc2__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Hand

end
-- ==== Proof.K.Reg2RunB.lean ====
/-
  The pooling-and-classification body run at a middle tile: this tile's product is added to the accumulator; the output window is not stored into.
  The run is a pair of piece lists — what the body's stores leave in the output window's staging memref and in the
  accumulator, last store first — with the proof that, on whole memrefs holding the six input blocks and the accumulator as the tile before left it,
  the body runs to a continuation holding the inputs as they were, the output's memref untouched and the accumulator with
  its pieces written.
-/
import proofs.«405254_j42863773614471_1_alg».proof.Proof.K.Reg2Runs

-- membership in a rectangle of the kernel's extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

-- (the run's proof term is large: the definition's epilogue walks it past the default budget)
set_option maxHeartbeats 1000000 in
/-- The pieces the body's stores leave (last first) at a middle tile, with the body's triple there: each `scf.if` is decided by
    the case's hypotheses, and the pieces are what the symbolic run finds. -/
noncomputable def kernelRun2_B (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    Σ' (L6 : List (View.Piece (Elt F) S64x2 .f32)), { LS0 : List (View.Piece (Elt F) S64x128 .f32) //
      ∀ (xi6 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_classify_kernel i arg1 harg1 arg2 harg2 arg3 harg3 arg4 harg4 arg5 harg5 arg6 harg6 arg7 harg7 arg8 harg8) K } := by
  refine ⟨[], ?_, fun xi6 E K => ?run⟩
  case run =>
    simp only [cc2__pool_classify_kernel_eq_skeleton]; unfold cc2__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Hand

end
-- ==== Proof.K.Reg2RunC.lean ====
/-
  The pooling-and-classification body run at the last tile: this tile's product is added to the accumulator, then the class scores are stored into the output window.
  The run is a pair of piece lists — what the body's stores leave in the output window's staging memref and in the
  accumulator, last store first — with the proof that, on whole memrefs holding the six input blocks and the accumulator as the tile before left it,
  the body runs to a continuation holding the inputs as they were, the output's memref and the accumulator with
  their pieces written.
-/
import proofs.«405254_j42863773614471_1_alg».proof.Proof.K.Reg2Runs

-- membership in a rectangle of the kernel's extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

-- (the run's proof term is large: the definition's epilogue walks it past the default budget)
set_option maxHeartbeats 1000000 in
/-- The pieces the body's stores leave (last first) at the last tile, with the body's triple there: each `scf.if` is decided by
    the case's hypotheses, and the pieces are what the symbolic run finds. -/
noncomputable def kernelRun2_C (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    Σ' (L6 : List (View.Piece (Elt F) S64x2 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__pool_classify_kernel i arg1 harg1 arg2 harg2 arg3 harg3 arg4 harg4 arg5 harg5 arg6 harg6 arg7 harg7 arg8 harg8) K } := by
  refine ⟨?_, ?_, fun E K => ?run⟩
  case run =>
    simp only [cc2__pool_classify_kernel_eq_skeleton]; unfold cc2__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Hand

end
-- ==== Proof.K.Reg2.lean ====
/-
  The pooling-and-classification region, at the buffers' contents `V` when it is entered: its proof data and body
  obligation, and what its accumulator and output hold tile by tile.
  The body has three cases over the 25 row tiles: the first tile resets the 64 x 128 accumulator and adds its
  product (one-hot tile transposed times feature tile), the middle tiles add theirs, and the last tile adds its own
  and then stores the class scores — the accumulator divided by the clamped counts times the first 128 rows of the
  classifier's weights, plus the second feature block times the remaining 32 rows, plus the bias — into the output
  window, which is idle at every other tile. `outsAt2` follows the pair (output buffer, accumulator) through the
  tiles; the three closing lemmas say what that pair is in terms of the body's payloads.
-/
import proofs.«405254_j42863773614471_1_alg».proof.Proof.K.Reg2RunA
import proofs.«405254_j42863773614471_1_alg».proof.Proof.K.Reg2RunB
import proofs.«405254_j42863773614471_1_alg».proof.Proof.K.Reg2RunC
import Idealize.ShloMosaic.Lib.Pipeline.Value

-- membership in a rectangle of the kernel's extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-- At the first tile the body stores nothing into the output window (idle there and not written back): no pieces — a
    placeholder (junk read back) that nothing consults. -/
def out2_A_6 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) : Vec F S64x2 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- The pieces the first tile leaves in the accumulator tile it, so they cover it. -/
theorem scover2_A_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (y : S64x128.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S64x128.size (by sl_kernel_rfl) y

/-- What the first tile leaves in the accumulator: its pieces read back over junk. -/
def sout2_A_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) : Vec F S64x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4 x5).2.1)

/-- At a middle tile the body stores nothing into the output window (idle there and not written back): no pieces — a
    placeholder (junk read back) that nothing consults. -/
def out2_B_6 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) : Vec F S64x2 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xs0).1)

/-- The pieces a middle tile leaves in the accumulator tile it, so they cover it. -/
theorem scover2_B_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) (y : S64x128.Idx) :
    ∃ pc ∈ (kernelRun2_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xs0).2.1 S64x128.size (by sl_kernel_rfl) y

/-- What a middle tile leaves in the accumulator: its pieces read back over junk. -/
def sout2_B_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) : Vec F S64x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 x5 xs0).2.1)

/-- The one store of the last tile into the output window tiles its block, so it covers it. -/
theorem cover2_C_6 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) (y : S64x2.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S64x2.size (by sl_kernel_rfl) y

/-- What the last tile leaves in the output window's staging buffer: its pieces read back over junk. -/
def out2_C_6 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) : Vec F S64x2 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

/-- The pieces the last tile leaves in the accumulator tile it, so they cover it. -/
theorem scover2_C_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) (y : S64x128.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S64x128.size (by sl_kernel_rfl) y

/-- What the last tile leaves in the accumulator: its pieces read back over junk. -/
def sout2_C_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) : Vec F S64x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 x5 xs0).2.1)

/-! ## What the output window and the accumulator hold after each tile -/

/-- The accumulation. What the output window's staging buffer and the accumulator hold after the body at position
    `n`: the case the closed forms select at `n`, run at the point's memrefs and input blocks, the accumulator at what
    this leaves at `n - 1`. An assignment of the conditions no point meets is no case. -/
def outsAt2 (c : Dev nD) : (n : ℕ) → n < cfg2.N → Vec F S64x2 .f32 × Vec F S64x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 25 = 0 then
      if h1 : (n + 1) % 25 = 24 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 25 = 24 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at the first tile: that case's contents. -/
theorem outsAt2_A (c : Dev nD) (t : Fin cfg2.N) (h0 : t.val % 25 = 0) (h1 : ¬t.val % 25 = 24) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a middle tile: that case's contents, over what the tile before left. -/
theorem outsAt2_B (c : Dev nD) (t : Fin cfg2.N) (h0 : ¬t.val % 25 = 0) (h1 : ¬t.val % 25 = 24) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last tile: that case's contents, over what the tile before left. -/
theorem outsAt2_C (c : Dev nD) (t : Fin cfg2.N) (h0 : ¬t.val % 25 = 0) (h1 : t.val % 25 = 24) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, tile by tile -/

/-- The region invariant before position `n`: before the first tile the launch's (every scoped buffer that is no
    staging buffer of this region at anything); afterwards the accumulator at what the tile before left in it, the
    other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After tile `n` (before tile `n + 1`): the accumulator at that tile's contents. -/
theorem PhiS2_succ (c : Dev nD) (n : ℕ) (hn : n < cfg2.N) :
    PhiS2 V c (n + 1) hn = iprop(iprop(owns (c : Thread nD τ) scM2_0 fullShare ((outsAt2 V c n hn).2) ∗ Rest2 (F := F) c) ∗ (∃ r, prngReg c r)) := rfl

/-- Before a tile that is not the first: the accumulator at what the tile before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which of the three cases the
    point is in, so that case's run applies; the invariant hands the body the accumulator at what the tile before
    left (at anything at the first tile) and takes it back at this tile's contents, the other scoped buffers and the
    generator register passing through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · have h1 : ¬t.val % 25 = 24 := by omega
    have hz : t.val = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
    rw [outsAt2_A V c t h0 h1]
    unfold sout2_A_0; (try dsimp only)
    rw [PhiS2_castSucc V c t, PhiS2_zero V c _ _ hz, PhiA2_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    by_cases h1 : t.val % 25 = 24
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any tile the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last tile. -/
theorem hout2 (c : Dev nD) : (dat2 V c).Φ (Fin.last cfg2.N) ⊢ Pipeline.ΦA spec2 c :=
  Phi_out2 V c _ (by rw [Fin.val_last]; have : cfg2.N = 25 := N_2; omega)

/-! ## What the found pieces are

Every load and store of the body goes through the whole of its memref (the unit rectangle at zero offsets), so a
load reads the contents and the last store leaves its payload: the accumulator after a tile is the tile's product
added to what it held, zero at the first tile, and the output after the last tile is the classifier of the
accumulator it has just left. -/

theorem hz : (![0, 0] : Fin 2 → Nat) = fun _ => 0 := funext fun a => by fin_cases a <;> rfl

/-- The first tile leaves in the accumulator its product added to the zero block the reset stored. -/
theorem sout2_A_0_eq (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) :
    sout2_A_0 c i arg1 harg1 arg2 harg2 arg3 harg3 arg4 harg4 arg5 harg5 arg6 harg6 arg7 harg7 arg8 harg8 hc0 hc1 x0 x1 x2 x3 x4 x5 = k2_pay2 x0 x1 (k2_pay1 (F := F)) := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2 x3 x4 x5)]
  unfold kernelRun2_A
  dsimp only
  sl_unfold_words
  rw [View.canon_cons_unit_zero (S := S64x128) hz, View.readCov_unit_zero (S := S64x128) _ hz]
  simp only [View.readAt_eq_ld, harg1.read_unread, harg2.read_unread, harg3.read_unread, harg4.read_unread, harg5.read_unread, harg6.read_unread, harg8.read_unread, View.ld_unit_zero (S := S2000x64) hz, View.ld_unit_zero (S := S2000x128) hz, View.ld_unit_zero (S := S64x32) hz, View.ld_unit_zero (S := S64x1) hz, View.ld_unit_zero (S := S160x2) hz, View.ld_unit_zero (S := S1x2) hz, View.ld_unit_zero (S := S64x128) hz, View.ld_unit_zero (S := S64x2) hz]

/-- A middle tile leaves in the accumulator its product added to what the accumulator held. -/
theorem sout2_B_0_eq (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    sout2_B_0 c i arg1 harg1 arg2 harg2 arg3 harg3 arg4 harg4 arg5 harg5 arg6 harg6 arg7 harg7 arg8 harg8 hc0 hc1 x0 x1 x2 x3 x4 x5 xs0 = k2_pay2 x0 x1 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 x3 x4 x5 xs0)]
  unfold kernelRun2_B
  dsimp only
  sl_unfold_words
  rw [View.canon_unit_zero (S := S64x128) hz]
  simp only [View.readAt_eq_ld, harg1.read_unread, harg2.read_unread, harg3.read_unread, harg4.read_unread, harg5.read_unread, harg6.read_unread, harg8.read_unread, View.ld_unit_zero (S := S2000x64) hz, View.ld_unit_zero (S := S2000x128) hz, View.ld_unit_zero (S := S64x32) hz, View.ld_unit_zero (S := S64x1) hz, View.ld_unit_zero (S := S160x2) hz, View.ld_unit_zero (S := S1x2) hz, View.ld_unit_zero (S := S64x128) hz, View.ld_unit_zero (S := S64x2) hz]

/-- The last tile leaves in the accumulator its product added to what the accumulator held. -/
theorem sout2_C_0_eq (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    sout2_C_0 c i arg1 harg1 arg2 harg2 arg3 harg3 arg4 harg4 arg5 harg5 arg6 harg6 arg7 harg7 arg8 harg8 hc0 hc1 x0 x1 x2 x3 x4 x5 xs0 = k2_pay2 x0 x1 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 x3 x4 x5 xs0)]
  unfold kernelRun2_C
  dsimp only
  sl_unfold_words
  rw [View.canon_unit_zero (S := S64x128) hz]
  simp only [View.readAt_eq_ld, harg1.read_unread, harg2.read_unread, harg3.read_unread, harg4.read_unread, harg5.read_unread, harg6.read_unread, harg8.read_unread, View.ld_unit_zero (S := S2000x64) hz, View.ld_unit_zero (S := S2000x128) hz, View.ld_unit_zero (S := S64x32) hz, View.ld_unit_zero (S := S64x1) hz, View.ld_unit_zero (S := S160x2) hz, View.ld_unit_zero (S := S1x2) hz, View.ld_unit_zero (S := S64x128) hz, View.ld_unit_zero (S := S64x2) hz]

/-- The last tile leaves in the output window the classifier of the accumulator it has just updated, the counts,
    the classifier's weights, the second feature block and the bias. -/
theorem out2_C_6_eq (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    out2_C_6 c i arg1 harg1 arg2 harg2 arg3 harg3 arg4 harg4 arg5 harg5 arg6 harg6 arg7 harg7 arg8 harg8 hc0 hc1 x0 x1 x2 x3 x4 x5 xs0 = k2_pay3 (k2_pay2 x0 x1 xs0) x3 x4 x2 x5 := by
  unfold out2_C_6
  rw [View.read_writes_eq_canon _ _ _ (cover2_C_6 c i arg1 harg1 arg2 harg2 arg3 harg3 arg4 harg4 arg5 harg5 arg6 harg6 arg7 harg7 arg8 harg8 hc0 hc1 x0 x1 x2 x3 x4 x5 xs0)]
  unfold kernelRun2_C
  dsimp only
  sl_unfold_words
  rw [View.canon_unit_zero (S := S64x2) hz]
  simp only [View.readCov_unit_zero (S := S64x128) _ hz, View.readAt_eq_ld, harg1.read_unread, harg2.read_unread, harg3.read_unread, harg4.read_unread, harg5.read_unread, harg6.read_unread, harg8.read_unread, View.ld_unit_zero (S := S2000x64) hz, View.ld_unit_zero (S := S2000x128) hz, View.ld_unit_zero (S := S64x32) hz, View.ld_unit_zero (S := S64x1) hz, View.ld_unit_zero (S := S160x2) hz, View.ld_unit_zero (S := S1x2) hz, View.ld_unit_zero (S := S64x128) hz, View.ld_unit_zero (S := S64x2) hz]

/-- The accumulator after the first tile. -/
theorem scratch_zero (c : Dev nD) (h : 0 < cfg2.N) : (outsAt2 V c 0 h).2 = k2_pay2 (iblk2 V c 0 ⟨0, h⟩) (iblk2 V c 1 ⟨0, h⟩) (k2_pay1 (F := F)) := by
  unfold outsAt2
  dsimp only
  exact sout2_A_0_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) scM2_0 (Memref.isWhole_whole _) _ _ (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)

/-- The accumulator after a later tile: the tile's product added to what the tile before left. -/
theorem scratch_succ (c : Dev nD) (n : ℕ) (h : n + 1 < cfg2.N) : (outsAt2 V c (n + 1) h).2 = k2_pay2 (iblk2 V c 0 ⟨n + 1, h⟩) (iblk2 V c 1 ⟨n + 1, h⟩) (outsAt2 V c n (Nat.lt_of_succ_lt h)).2 := by
  have hN : n + 1 < 25 := lt_of_lt_of_eq h (show cfg2.N = 25 from N_2)
  have h0 : ¬(n + 1) % 25 = 0 := by omega
  by_cases h1 : (n + 1) % 25 = 24
  · rw [outsAt2_C V c ⟨n + 1, h⟩ h0 h1]
    dsimp only
    exact sout2_C_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) scM2_0 (Memref.isWhole_whole _) _ _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) _
  · rw [outsAt2_B V c ⟨n + 1, h⟩ h0 h1]
    dsimp only
    exact sout2_B_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) scM2_0 (Memref.isWhole_whole _) _ _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) _

/-- The output window after the last tile: the classifier of the accumulator as that tile leaves it. -/
theorem out_last (c : Dev nD) (h : 24 < cfg2.N) : (outsAt2 V c 24 h).1 = k2_pay3 (outsAt2 V c 24 h).2 (iblk2 V c 3 ⟨24, h⟩) (iblk2 V c 4 ⟨24, h⟩) (iblk2 V c 2 ⟨24, h⟩) (iblk2 V c 5 ⟨24, h⟩) := by
  have h0 : ¬(⟨24, h⟩ : Fin cfg2.N).val % 25 = 0 := by show ¬(24 % 25 = 0); decide
  have h1 : (⟨24, h⟩ : Fin cfg2.N).val % 25 = 24 := by show 24 % 25 = 24; decide
  rw [outsAt2_C V c ⟨24, h⟩ h0 h1]
  dsimp only
  rw [sout2_C_0_eq c (grid2.coords ⟨24, h⟩) (ms2_0 ⟨24, h⟩) (hs2_0 ⟨24, h⟩) (ms2_1 ⟨24, h⟩) (hs2_1 ⟨24, h⟩) (ms2_2 ⟨24, h⟩) (hs2_2 ⟨24, h⟩) (ms2_3 ⟨24, h⟩) (hs2_3 ⟨24, h⟩) (ms2_4 ⟨24, h⟩) (hs2_4 ⟨24, h⟩) (ms2_5 ⟨24, h⟩) (hs2_5 ⟨24, h⟩) (ms2_6 ⟨24, h⟩) (hs2_6 ⟨24, h⟩) scM2_0 (Memref.isWhole_whole _) _ _ (iblk2 V c 0 ⟨24, h⟩) (iblk2 V c 1 ⟨24, h⟩) (iblk2 V c 2 ⟨24, h⟩) (iblk2 V c 3 ⟨24, h⟩) (iblk2 V c 4 ⟨24, h⟩) (iblk2 V c 5 ⟨24, h⟩) _]
  exact out2_C_6_eq c (grid2.coords ⟨24, h⟩) (ms2_0 ⟨24, h⟩) (hs2_0 ⟨24, h⟩) (ms2_1 ⟨24, h⟩) (hs2_1 ⟨24, h⟩) (ms2_2 ⟨24, h⟩) (hs2_2 ⟨24, h⟩) (ms2_3 ⟨24, h⟩) (hs2_3 ⟨24, h⟩) (ms2_4 ⟨24, h⟩) (hs2_4 ⟨24, h⟩) (ms2_5 ⟨24, h⟩) (hs2_5 ⟨24, h⟩) (ms2_6 ⟨24, h⟩) (hs2_6 ⟨24, h⟩) scM2_0 (Memref.isWhole_whole _) _ _ (iblk2 V c 0 ⟨24, h⟩) (iblk2 V c 1 ⟨24, h⟩) (iblk2 V c 2 ⟨24, h⟩) (iblk2 V c 3 ⟨24, h⟩) (iblk2 V c 4 ⟨24, h⟩) (iblk2 V c 5 ⟨24, h⟩) _

end Cert.Kernel.Hand

end
-- ==== Proof.K.Run.lean ====
/-
  THE RUN OF @main AND ITS FRAME, at any float family.

  @main is eight segments: three stretches of host operations, the first dense region, a stretch, the second dense
  region, a stretch, the pooling region. The contents of every unscoped buffer at each boundary are a fold from the
  launch memory: a host stretch applies its operations; a region replaces its windows' arrays by what its write-backs
  leave (an input array: what it held; the output array: the blocks written back) and leaves every other buffer alone.
  Each region is entered from "every unscoped buffer at the boundary's contents, the generator register at some state,
  nothing owed" and left at the same with the next boundary's contents; its own invariant takes the generator register
  and the scoped buffers in and gives them back (for the pooling region through the invariant that carries the
  accumulator between grid points). Hence every weakly fair execution terminates, nothing faults, every unscoped buffer
  ends at the last boundary's contents, and an argument array, which no host operation writes and no region writes
  back, holds its launch contents at every boundary.
-/
import proofs.«405254_j42863773614471_1_alg».proof.Proof.Gen.Kernel.Launch
import proofs.«405254_j42863773614471_1_alg».proof.Proof.Gen.Kernel.Skeleton
import proofs.«405254_j42863773614471_1_alg».proof.Proof.Gen.Kernel.Points
import proofs.«405254_j42863773614471_1_alg».proof.Proof.Gen.Kernel.Regions
import proofs.«405254_j42863773614471_1_alg».proof.Proof.K.Reg0
import proofs.«405254_j42863773614471_1_alg».proof.Proof.K.Reg1
import proofs.«405254_j42863773614471_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the inlined select. -/
abbrev W2 : Dev nD → Valuation τ sig (Elt F) := fun c => StableHlo.after hostOps0_1 (W1 m ρ c)
/-- After the first feature stack (region 0's entry). -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the second feature stack (region 1's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the membership table and the counts (region 2's entry). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- REGION 0 over the thread state: entered from every unscoped buffer at `W3`, left at `W4`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W7`, left at `W8`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h.trans (hin2 (V7 m ρ) c)
  hout c := by
    have h : (Pipeline.ΦA spec2 c : sProp 𝕄) ⊢ iprop((∃ r, prngReg c r) ∗ Pipeline.ownSems0 (fun k : PEmpty => (k.elim : SemLoc sig)) c
        ∗ Pipeline.scopedRest spec2 c) := by
      rw [Pipeline.ownSems0_none]; unfold Pipeline.ΦA
      iintro ⟨Hr, Hp⟩
      isplitl [Hp]; · iexact Hp
      isplitr; · iempintro
      iexact Hr
    exact (hout2 (V7 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The arguments hold their launch contents at every boundary -/

/-- `main_arg0` holds its launch contents at every boundary: no host operation writes it, and a region either does not touch it or stages it as an input. -/
theorem W3_main_arg0 (c : Dev nD) : W3 m ρ c (Proc.devRef .tc main_arg0) = m ((c : Thread nD τ).loc main_arg0) :=
  (StableHlo.after_of_writes_sub hostOps0_2 _ hostOps0_2_writes (r := main_arg0) (by decide)).trans <| (StableHlo.after_of_writes_sub hostOps0_1 _ hostOps0_1_writes (r := main_arg0) (by decide)).trans <| (StableHlo.after_of_writes_sub hostOps0 _ hostOps0_writes (r := main_arg0) (by decide)).trans rfl
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_writes_sub hostOps1 _ hostOps1_writes (r := main_arg0) (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (StableHlo.after_of_writes_sub hostOps2 _ hostOps2_writes (r := main_arg0) (by decide)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
/-- `main_arg1` holds its launch contents at every boundary: no host operation writes it, and a region either does not touch it or stages it as an input. -/
theorem W3_main_arg1 (c : Dev nD) : W3 m ρ c (Proc.devRef .tc main_arg1) = m ((c : Thread nD τ).loc main_arg1) :=
  (StableHlo.after_of_writes_sub hostOps0_2 _ hostOps0_2_writes (r := main_arg1) (by decide)).trans <| (StableHlo.after_of_writes_sub hostOps0_1 _ hostOps0_1_writes (r := main_arg1) (by decide)).trans <| (StableHlo.after_of_writes_sub hostOps0 _ hostOps0_writes (r := main_arg1) (by decide)).trans rfl
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_writes_sub hostOps1 _ hostOps1_writes (r := main_arg1) (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (StableHlo.after_of_writes_sub hostOps2 _ hostOps2_writes (r := main_arg1) (by decide)).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
/-- `main_arg2` holds its launch contents at every boundary: no host operation writes it, and a region either does not touch it or stages it as an input. -/
theorem W3_main_arg2 (c : Dev nD) : W3 m ρ c (Proc.devRef .tc main_arg2) = m ((c : Thread nD τ).loc main_arg2) :=
  (StableHlo.after_of_writes_sub hostOps0_2 _ hostOps0_2_writes (r := main_arg2) (by decide)).trans <| (StableHlo.after_of_writes_sub hostOps0_1 _ hostOps0_1_writes (r := main_arg2) (by decide)).trans <| (StableHlo.after_of_writes_sub hostOps0 _ hostOps0_writes (r := main_arg2) (by decide)).trans rfl
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_writes_sub hostOps1 _ hostOps1_writes (r := main_arg2) (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (StableHlo.after_of_writes_sub hostOps2 _ hostOps2_writes (r := main_arg2) (by decide)).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
/-- `main_arg3` holds its launch contents at every boundary: no host operation writes it, and a region either does not touch it or stages it as an input. -/
theorem W3_main_arg3 (c : Dev nD) : W3 m ρ c (Proc.devRef .tc main_arg3) = m ((c : Thread nD τ).loc main_arg3) :=
  (StableHlo.after_of_writes_sub hostOps0_2 _ hostOps0_2_writes (r := main_arg3) (by decide)).trans <| (StableHlo.after_of_writes_sub hostOps0_1 _ hostOps0_1_writes (r := main_arg3) (by decide)).trans <| (StableHlo.after_of_writes_sub hostOps0 _ hostOps0_writes (r := main_arg3) (by decide)).trans rfl
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_writes_sub hostOps1 _ hostOps1_writes (r := main_arg3) (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (StableHlo.after_of_writes_sub hostOps2 _ hostOps2_writes (r := main_arg3) (by decide)).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
/-- `main_arg4` holds its launch contents at every boundary: no host operation writes it, and a region either does not touch it or stages it as an input. -/
theorem W3_main_arg4 (c : Dev nD) : W3 m ρ c (Proc.devRef .tc main_arg4) = m ((c : Thread nD τ).loc main_arg4) :=
  (StableHlo.after_of_writes_sub hostOps0_2 _ hostOps0_2_writes (r := main_arg4) (by decide)).trans <| (StableHlo.after_of_writes_sub hostOps0_1 _ hostOps0_1_writes (r := main_arg4) (by decide)).trans <| (StableHlo.after_of_writes_sub hostOps0 _ hostOps0_writes (r := main_arg4) (by decide)).trans rfl
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_writes_sub hostOps1 _ hostOps1_writes (r := main_arg4) (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (StableHlo.after_of_writes_sub hostOps2 _ hostOps2_writes (r := main_arg4) (by decide)).trans (W6_main_arg4 m ρ c)
theorem W8_main_arg4 (c : Dev nD) : W8 m ρ c (Proc.devRef .tc main_arg4) = m ((c : Thread nD τ).loc main_arg4) :=
  ((W8_arr m ρ c 2).trans (((dat2 (V7 m ρ) c).arrAt_in 2 rfl _).trans (A_eq2 (V7 m ρ) c 2))).trans (W7_main_arg4 m ρ c)
/-- `main_arg5` holds its launch contents at every boundary: no host operation writes it, and a region either does not touch it or stages it as an input. -/
theorem W3_main_arg5 (c : Dev nD) : W3 m ρ c (Proc.devRef .tc main_arg5) = m ((c : Thread nD τ).loc main_arg5) :=
  (StableHlo.after_of_writes_sub hostOps0_2 _ hostOps0_2_writes (r := main_arg5) (by decide)).trans <| (StableHlo.after_of_writes_sub hostOps0_1 _ hostOps0_1_writes (r := main_arg5) (by decide)).trans <| (StableHlo.after_of_writes_sub hostOps0 _ hostOps0_writes (r := main_arg5) (by decide)).trans rfl
theorem W4_main_arg5 (c : Dev nD) : W4 m ρ c (Proc.devRef .tc main_arg5) = m ((c : Thread nD τ).loc main_arg5) :=
  ((W4_arr m ρ c 1).trans (((dat0 (V3 m ρ) c).arrAt_in 1 rfl _).trans (A_eq0 (V3 m ρ) c 1))).trans (W3_main_arg5 m ρ c)
theorem W5_main_arg5 (c : Dev nD) : W5 m ρ c (Proc.devRef .tc main_arg5) = m ((c : Thread nD τ).loc main_arg5) :=
  (StableHlo.after_of_writes_sub hostOps1 _ hostOps1_writes (r := main_arg5) (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (StableHlo.after_of_writes_sub hostOps2 _ hostOps2_writes (r := main_arg5) (by decide)).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
/-- `main_arg6` holds its launch contents at every boundary: no host operation writes it, and a region either does not touch it or stages it as an input. -/
theorem W3_main_arg6 (c : Dev nD) : W3 m ρ c (Proc.devRef .tc main_arg6) = m ((c : Thread nD τ).loc main_arg6) :=
  (StableHlo.after_of_writes_sub hostOps0_2 _ hostOps0_2_writes (r := main_arg6) (by decide)).trans <| (StableHlo.after_of_writes_sub hostOps0_1 _ hostOps0_1_writes (r := main_arg6) (by decide)).trans <| (StableHlo.after_of_writes_sub hostOps0 _ hostOps0_writes (r := main_arg6) (by decide)).trans rfl
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_writes_sub hostOps1 _ hostOps1_writes (r := main_arg6) (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (StableHlo.after_of_writes_sub hostOps2 _ hostOps2_writes (r := main_arg6) (by decide)).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
/-- `main_arg7` holds its launch contents at every boundary: no host operation writes it, and a region either does not touch it or stages it as an input. -/
theorem W3_main_arg7 (c : Dev nD) : W3 m ρ c (Proc.devRef .tc main_arg7) = m ((c : Thread nD τ).loc main_arg7) :=
  (StableHlo.after_of_writes_sub hostOps0_2 _ hostOps0_2_writes (r := main_arg7) (by decide)).trans <| (StableHlo.after_of_writes_sub hostOps0_1 _ hostOps0_1_writes (r := main_arg7) (by decide)).trans <| (StableHlo.after_of_writes_sub hostOps0 _ hostOps0_writes (r := main_arg7) (by decide)).trans rfl
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_writes_sub hostOps1 _ hostOps1_writes (r := main_arg7) (by decide)).trans (W4_main_arg7 m ρ c)
theorem W6_main_arg7 (c : Dev nD) : W6 m ρ c (Proc.devRef .tc main_arg7) = m ((c : Thread nD τ).loc main_arg7) :=
  ((W6_arr m ρ c 1).trans (((dat1 (V5 m ρ) c).arrAt_in 1 rfl _).trans (A_eq1 (V5 m ρ) c 1))).trans (W5_main_arg7 m ρ c)
theorem W7_main_arg7 (c : Dev nD) : W7 m ρ c (Proc.devRef .tc main_arg7) = m ((c : Thread nD τ).loc main_arg7) :=
  (StableHlo.after_of_writes_sub hostOps2 _ hostOps2_writes (r := main_arg7) (by decide)).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
/-- `main_arg8` holds its launch contents at every boundary: no host operation writes it, and a region either does not touch it or stages it as an input. -/
theorem W3_main_arg8 (c : Dev nD) : W3 m ρ c (Proc.devRef .tc main_arg8) = m ((c : Thread nD τ).loc main_arg8) :=
  (StableHlo.after_of_writes_sub hostOps0_2 _ hostOps0_2_writes (r := main_arg8) (by decide)).trans <| (StableHlo.after_of_writes_sub hostOps0_1 _ hostOps0_1_writes (r := main_arg8) (by decide)).trans <| (StableHlo.after_of_writes_sub hostOps0 _ hostOps0_writes (r := main_arg8) (by decide)).trans rfl
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (StableHlo.after_of_writes_sub hostOps1 _ hostOps1_writes (r := main_arg8) (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (StableHlo.after_of_writes_sub hostOps2 _ hostOps2_writes (r := main_arg8) (by decide)).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
/-- `main_arg9` holds its launch contents at every boundary: no host operation writes it, and a region either does not touch it or stages it as an input. -/
theorem W3_main_arg9 (c : Dev nD) : W3 m ρ c (Proc.devRef .tc main_arg9) = m ((c : Thread nD τ).loc main_arg9) :=
  (StableHlo.after_of_writes_sub hostOps0_2 _ hostOps0_2_writes (r := main_arg9) (by decide)).trans <| (StableHlo.after_of_writes_sub hostOps0_1 _ hostOps0_1_writes (r := main_arg9) (by decide)).trans <| (StableHlo.after_of_writes_sub hostOps0 _ hostOps0_writes (r := main_arg9) (by decide)).trans rfl
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (StableHlo.after_of_writes_sub hostOps1 _ hostOps1_writes (r := main_arg9) (by decide)).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W7_main_arg9 (c : Dev nD) : W7 m ρ c (Proc.devRef .tc main_arg9) = m ((c : Thread nD τ).loc main_arg9) :=
  (StableHlo.after_of_writes_sub hostOps2 _ hostOps2_writes (r := main_arg9) (by decide)).trans (W6_main_arg9 m ρ c)
theorem W8_main_arg9 (c : Dev nD) : W8 m ρ c (Proc.devRef .tc main_arg9) = m ((c : Thread nD τ).loc main_arg9) :=
  ((W8_arr m ρ c 4).trans (((dat2 (V7 m ρ) c).arrAt_in 4 rfl _).trans (A_eq2 (V7 m ρ) c 4))).trans (W7_main_arg9 m ρ c)
/-- `main_arg10` holds its launch contents at every boundary: no host operation writes it, and a region either does not touch it or stages it as an input. -/
theorem W3_main_arg10 (c : Dev nD) : W3 m ρ c (Proc.devRef .tc main_arg10) = m ((c : Thread nD τ).loc main_arg10) :=
  (StableHlo.after_of_writes_sub hostOps0_2 _ hostOps0_2_writes (r := main_arg10) (by decide)).trans <| (StableHlo.after_of_writes_sub hostOps0_1 _ hostOps0_1_writes (r := main_arg10) (by decide)).trans <| (StableHlo.after_of_writes_sub hostOps0 _ hostOps0_writes (r := main_arg10) (by decide)).trans rfl
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg10 (c : Dev nD) : W5 m ρ c (Proc.devRef .tc main_arg10) = m ((c : Thread nD τ).loc main_arg10) :=
  (StableHlo.after_of_writes_sub hostOps1 _ hostOps1_writes (r := main_arg10) (by decide)).trans (W4_main_arg10 m ρ c)
theorem W6_main_arg10 (c : Dev nD) : W6 m ρ c (Proc.devRef .tc main_arg10) = m ((c : Thread nD τ).loc main_arg10) :=
  (W6_of_ne m ρ c main_arg10 (by decide)).trans (W5_main_arg10 m ρ c)
theorem W7_main_arg10 (c : Dev nD) : W7 m ρ c (Proc.devRef .tc main_arg10) = m ((c : Thread nD τ).loc main_arg10) :=
  (StableHlo.after_of_writes_sub hostOps2 _ hostOps2_writes (r := main_arg10) (by decide)).trans (W6_main_arg10 m ρ c)
theorem W8_main_arg10 (c : Dev nD) : W8 m ρ c (Proc.devRef .tc main_arg10) = m ((c : Thread nD τ).loc main_arg10) :=
  (W8_of_ne m ρ c main_arg10 (by decide)).trans (W7_main_arg10 m ρ c)

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c)⟩) (run_all m ρ)

end Cert.Kernel.Hand

end
-- ==== Proof.KI.Reg0.lean ====
/- The class-A half of region 0 of @main (the dense layer with a rectifier: `max (x ⬝ W + b) 0` on one row tile), at a PARAMETER `V`: the TensorCore's buffer
   contents when the region is entered. Each window's block at a grid point is read off its array; the three input
   windows' staging buffers hold their blocks at every point (the row-tile window is fetched at every point, the
   weight and the bias windows only at the first, and an unfetched input's block index has not moved); the body
   reads the three input buffers whole, reads the output buffer (a value it never uses) and overwrites the output
   buffer whole with the payload of the three values read. So after the body the output buffer is that payload of
   the three input blocks, the inputs are as they were, and the pipeline's invariant passes through untouched. -/
import proofs.«405254_j42863773614471_1_alg».proof.Proof.Gen.KernelIdeal.Launch
import proofs.«405254_j42863773614471_1_alg».proof.Proof.Gen.KernelIdeal.Skeleton
import proofs.«405254_j42863773614471_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle whose extents run to the thousands is decided by recursion on the coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row tile, fetched at every point): its current staging buffer holds its block, for ANY proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one block, fetched at the first point only): at a later point nothing was fetched,
    the block index has not moved, and the body left the block in place; so the buffer holds the block there too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block, fetched at the first point only): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the rectangle of its own sizes at zero offsets -/

abbrev r0_0 : Rect S2000x384 := Rect.unit (s := S2000x384) ![0, 0] S2000x384.size inb_S2000x384_S2000x384_0_0
abbrev r0_1 : Rect S384x128 := Rect.unit (s := S384x128) ![0, 0] S384x128.size inb_S384x128_S384x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output window's buffer -/

/-- Window 3's staging buffer after the body, from the three input windows' blocks: its one store as a piece, the
    payload of the three loads. -/
def out0_3 (x0 : Vec F S2000x384 .f32) (x1 : Vec F S384x128 .f32) (x2 : Vec F S1x128 .f32) : Vec F S2000x128 .f32 :=
  View.canon [⟨r0_3, k0_pay1 (View.ld x0 r0_0) (View.ld x1 r0_1) (View.ld x2 r0_2)⟩]

/-- The one store is through the whole buffer, so it covers it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-- Whole-buffer loads read the buffers and one covering store leaves its payload: the output buffer after the body IS
    the payload of the three input buffers. -/
theorem out0_3_eq (x0 : Vec F S2000x384 .f32) (x1 : Vec F S384x128 .f32) (x2 : Vec F S1x128 .f32) :
    out0_3 x0 x1 x2 = k0_pay1 x0 x1 x2 := by
  have hz0 : (![0, 0] : Fin S2000x384.rank → Nat) = fun _ => 0 := funext fun a => by fin_cases a <;> rfl
  have hz1 : (![0, 0] : Fin S384x128.rank → Nat) = fun _ => 0 := funext fun a => by fin_cases a <;> rfl
  have hz2 : (![0, 0] : Fin S1x128.rank → Nat) = fun _ => 0 := funext fun a => by fin_cases a <;> rfl
  have hz3 : (![0, 0] : Fin S2000x128.rank → Nat) = fun _ => 0 := funext fun a => by fin_cases a <;> rfl
  unfold out0_3
  rw [View.canon_unit_zero hz3, View.ld_unit_zero hz0, View.ld_unit_zero hz1, View.ld_unit_zero hz2]

/-! ## The body's triple -/

set_option maxHeartbeats 1000000 in
/-- The kernel body on whole staging memrefs, the inputs' at contents `x0 x1 x2` and the output's at anything, runs to
    the continuation holding the inputs' as they were and the output's at `out0_3` of the inputs': the printed function
    is its skeleton of memory operations, which is run one operation at a time (three loads, a load of the output buffer
    whose value is unused, one store). -/
theorem sound_kernel0 (c : Dev nD) (E : Set ℕ) (i : grid0.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- The class-A half of region 1 of @main (the dense layer: `x ⬝ W + b` on one row tile), at a PARAMETER `V`: the TensorCore's buffer
   contents when the region is entered. Each window's block at a grid point is read off its array; the three input
   windows' staging buffers hold their blocks at every point (the row-tile window is fetched at every point, the
   weight and the bias windows only at the first, and an unfetched input's block index has not moved); the body
   reads the three input buffers whole, reads the output buffer (a value it never uses) and overwrites the output
   buffer whole with the payload of the three values read. So after the body the output buffer is that payload of
   the three input blocks, the inputs are as they were, and the pipeline's invariant passes through untouched. -/
import proofs.«405254_j42863773614471_1_alg».proof.Proof.Gen.KernelIdeal.Launch
import proofs.«405254_j42863773614471_1_alg».proof.Proof.Gen.KernelIdeal.Skeleton
import proofs.«405254_j42863773614471_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle whose extents run to the thousands is decided by recursion on the coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row tile, fetched at every point): its current staging buffer holds its block, for ANY proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weights, one block, fetched at the first point only): at a later point nothing was fetched,
    the block index has not moved, and the body left the block in place; so the buffer holds the block there too. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row, one block, fetched at the first point only): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole, through the rectangle of its own sizes at zero offsets -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the output window's buffer -/

/-- Window 3's staging buffer after the body, from the three input windows' blocks: its one store as a piece, the
    payload of the three loads. -/
def out1_3 (x0 : Vec F S2000x384 .f32) (x1 : Vec F S384x128 .f32) (x2 : Vec F S1x128 .f32) : Vec F S2000x128 .f32 :=
  View.canon [⟨r1_3, k1_pay1 (View.ld x0 r1_0) (View.ld x1 r1_1) (View.ld x2 r1_2)⟩]

/-- The one store is through the whole buffer, so it covers it. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-- Whole-buffer loads read the buffers and one covering store leaves its payload: the output buffer after the body IS
    the payload of the three input buffers. -/
theorem out1_3_eq (x0 : Vec F S2000x384 .f32) (x1 : Vec F S384x128 .f32) (x2 : Vec F S1x128 .f32) :
    out1_3 x0 x1 x2 = k1_pay1 x0 x1 x2 := by
  have hz0 : (![0, 0] : Fin S2000x384.rank → Nat) = fun _ => 0 := funext fun a => by fin_cases a <;> rfl
  have hz1 : (![0, 0] : Fin S384x128.rank → Nat) = fun _ => 0 := funext fun a => by fin_cases a <;> rfl
  have hz2 : (![0, 0] : Fin S1x128.rank → Nat) = fun _ => 0 := funext fun a => by fin_cases a <;> rfl
  have hz3 : (![0, 0] : Fin S2000x128.rank → Nat) = fun _ => 0 := funext fun a => by fin_cases a <;> rfl
  unfold out1_3
  rw [View.canon_unit_zero hz3, View.ld_unit_zero hz0, View.ld_unit_zero hz1, View.ld_unit_zero hz2]

/-! ## The body's triple -/

set_option maxHeartbeats 1000000 in
/-- The kernel body on whole staging memrefs, the inputs' at contents `x0 x1 x2` and the output's at anything, runs to
    the continuation holding the inputs' as they were and the output's at `out1_3` of the inputs': the printed function
    is its skeleton of memory operations, which is run one operation at a time (three loads, a load of the output buffer
    whose value is unused, one store). -/
theorem sound_kernel1 (c : Dev nD) (E : Set ℕ) (i : grid1.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the three input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
/-
  The pooling-and-classification region (the third pallas call: a grid of 25 row tiles, a 64 x 128 accumulator
  carried from tile to tile), at the buffers' contents `V` when the region is entered: what the three runs of its
  body share. The windows' blocks; the body's two conditions on the grid coordinate in closed form (the first tile
  resets the accumulator, the last tile classifies); where the output window is idle and not written back; the
  staging memrefs and the accumulator as the body is called with them; and the region's invariant with the
  accumulator split off the other scoped buffers.
-/
import proofs.«405254_j42863773614471_1_alg».proof.Proof.Gen.KernelIdeal.Launch
import proofs.«405254_j42863773614471_1_alg».proof.Proof.Gen.KernelIdeal.Skeleton
import proofs.«405254_j42863773614471_1_alg».proof.Proof.Gen.KernelIdeal.Points
import Idealize.ShloMosaic.Lib.Pipeline.FrameBody
import Idealize.ShloMosaic.Lib.Ring
import Idealize.ShloMosaic.Lib.Tactic

-- membership in a rectangle of the kernel's extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window not
    fetched at a point has not moved its block index since the point before), for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window not
    fetched at a point has not moved its block index since the point before), for any proof data whose array is
    `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window not
    fetched at a point has not moved its block index since the point before), for any proof data whose array is
    `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a window not
    fetched at a point has not moved its block index since the point before), for any proof data whose array is
    `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a window not
    fetched at a point has not moved its block index since the point before), for any proof data whose array is
    `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (a window not
    fetched at a point has not moved its block index since the point before), for any proof data whose array is
    `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (reset the accumulator), from the grid coordinate. -/
abbrev cond2_0 (i : grid2.Coords) : Prop := (Scalar.cmpi .ne (Scalar.extui (Scalar.cmpi .eq (BitVec.ofNat 32 (i 0).val) 0#32)) 0#32) = 1#1
/-- It holds at the first tile only — decided over the grid. -/
theorem hcond2_0 : ∀ t : Fin cfg2.N, cond2_0 (grid2.coords t) ↔ t.val % 25 = 0 :=
  (by decide +kernel : ∀ t : Fin grid2.N, cond2_0 (grid2.coords t) ↔ t.val % 25 = 0)

/-- The condition of the body's second `scf.if` (classify), from the grid coordinate. -/
abbrev cond2_1 (i : grid2.Coords) : Prop := k2_cond2 i = 1#1
/-- It holds at the last tile only — decided over the grid. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- At the first tile the output window is idle: the body stores nothing into it. -/
theorem idleAt2_6_A : ∀ t : Fin cfg2.N, cond2_0 (grid2.coords t) → ¬cond2_1 (grid2.coords t) → cfg2.idle 6 (grid2.coords t) = true := by decide +kernel
/-- At the first tile the pipeline does not write the output's block back. -/
theorem noFlush2_6_A : ∀ t : Fin cfg2.N, cond2_0 (grid2.coords t) → ¬cond2_1 (grid2.coords t) → (cfg2.win 6).flush t = false := by decide +kernel
/-- At the middle tiles the output window is idle: the body stores nothing into it. -/
theorem idleAt2_6_B : ∀ t : Fin cfg2.N, ¬cond2_0 (grid2.coords t) → ¬cond2_1 (grid2.coords t) → cfg2.idle 6 (grid2.coords t) = true := by decide +kernel
/-- At the middle tiles the pipeline does not write the output's block back. -/
theorem noFlush2_6_B : ∀ t : Fin cfg2.N, ¬cond2_0 (grid2.coords t) → ¬cond2_1 (grid2.coords t) → (cfg2.win 6).flush t = false := by decide +kernel
/-- At the last tile the output window is live: the body stores into it. -/
theorem liveAt2_6_C : ∀ t : Fin cfg2.N, ¬cond2_0 (grid2.coords t) → cond2_1 (grid2.coords t) → cfg2.idle 6 (grid2.coords t) = false := by decide +kernel

/-! ## The memrefs the body is called with -/

/-- The one staging buffer of the output window, through which its contents are stated. -/
abbrev VO2_6 : View sig .tc .vmem S64x2 .f32 := (Memref.whole cc2_stg6_0 : Memref sig .tc .vmem S64x2 .f32).view
/-- Each window's current staging memref at point `t`, spelled as the pipeline passes it, and its wholeness. -/
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S160x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x2 .f32 := win2_6.stage (cfg2.slots t 6)
abbrev hs2_6 (t : Fin cfg2.N) : (ms2_6 t).IsWhole := hstage2_6 ((cfg2.slots t 6).cast nbuf2_6)
/-- The accumulator: a whole scoped buffer of the kernel's own, passed beside the windows. -/
abbrev scM2_0 : Memref sig .tc .vmem S64x128 .f32 := Memref.whole cc2_scratch0
/-- The accumulator as a view: what it holds is stated through it. -/
abbrev VS2_0 : View sig .tc .vmem S64x128 .f32 := scM2_0.view

/-! ## The region's invariant, the accumulator split off -/

/-- The scoped buffers that are no staging buffer of this region, split at the accumulator: the accumulator whole at
    some contents, and every other such buffer (the other two regions' staging buffers) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers of the core, which the region never opens. -/
abbrev Rest2 (c : Dev nD) : sProp 𝕄 :=
  Pipeline.scopedRestBut (Ix := Unit) (Name := ℕ) (U := UR sig nD τ) (Lvl := ℕ) (Val := Elt F) spec2 c [cc2_scratch0]

/-- The region's invariant with the accumulator as a memref owned at some contents: what the body obligation hands
    the run and takes back. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA; rw [scopedRest2_split]; simp only [scM2_0, owns_whole]; try rfl

end Cert.KernelIdeal.Hand

end
-- ==== Proof.KI.Reg2RunA.lean ====
/-
  The pooling-and-classification body run at the first tile: the accumulator is reset to zero, then this tile's product is added; the output window is not stored into.
  The run is a pair of piece lists — what the body's stores leave in the output window's staging memref and in the
  accumulator, last store first — with the proof that, on whole memrefs holding the six input blocks,
  the body runs to a continuation holding the inputs as they were, the output's memref untouched and the accumulator with
  its pieces written.
-/
import proofs.«405254_j42863773614471_1_alg».proof.Proof.KI.Reg2Runs

-- membership in a rectangle of the kernel's extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

-- (the run's proof term is large: the definition's epilogue walks it past the default budget)
set_option maxHeartbeats 1000000 in
/-- The pieces the body's stores leave (last first) at the first tile, with the body's triple there: each `scf.if` is decided by
    the case's hypotheses, and the pieces are what the symbolic run finds. -/
noncomputable def kernelRun2_A (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) :
    Σ' (L6 : List (View.Piece (Elt F) S64x2 .f32)), { LS0 : List (View.Piece (Elt F) S64x128 .f32) //
      ∀ (xi6 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_classify_kernel i arg1 harg1 arg2 harg2 arg3 harg3 arg4 harg4 arg5 harg5 arg6 harg6 arg7 harg7 arg8 harg8) K } := by
  refine ⟨[], ?_, fun xi6 E K => ?run⟩
  case run =>
    simp only [cc2__pool_classify_kernel_eq_skeleton]; unfold cc2__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Hand

end
-- ==== Proof.KI.Reg2RunB.lean ====
/-
  The pooling-and-classification body run at a middle tile: this tile's product is added to the accumulator; the output window is not stored into.
  The run is a pair of piece lists — what the body's stores leave in the output window's staging memref and in the
  accumulator, last store first — with the proof that, on whole memrefs holding the six input blocks and the accumulator as the tile before left it,
  the body runs to a continuation holding the inputs as they were, the output's memref untouched and the accumulator with
  its pieces written.
-/
import proofs.«405254_j42863773614471_1_alg».proof.Proof.KI.Reg2Runs

-- membership in a rectangle of the kernel's extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

-- (the run's proof term is large: the definition's epilogue walks it past the default budget)
set_option maxHeartbeats 1000000 in
/-- The pieces the body's stores leave (last first) at a middle tile, with the body's triple there: each `scf.if` is decided by
    the case's hypotheses, and the pieces are what the symbolic run finds. -/
noncomputable def kernelRun2_B (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    Σ' (L6 : List (View.Piece (Elt F) S64x2 .f32)), { LS0 : List (View.Piece (Elt F) S64x128 .f32) //
      ∀ (xi6 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_classify_kernel i arg1 harg1 arg2 harg2 arg3 harg3 arg4 harg4 arg5 harg5 arg6 harg6 arg7 harg7 arg8 harg8) K } := by
  refine ⟨[], ?_, fun xi6 E K => ?run⟩
  case run =>
    simp only [cc2__pool_classify_kernel_eq_skeleton]; unfold cc2__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Hand

end
-- ==== Proof.KI.Reg2RunC.lean ====
/-
  The pooling-and-classification body run at the last tile: this tile's product is added to the accumulator, then the class scores are stored into the output window.
  The run is a pair of piece lists — what the body's stores leave in the output window's staging memref and in the
  accumulator, last store first — with the proof that, on whole memrefs holding the six input blocks and the accumulator as the tile before left it,
  the body runs to a continuation holding the inputs as they were, the output's memref and the accumulator with
  their pieces written.
-/
import proofs.«405254_j42863773614471_1_alg».proof.Proof.KI.Reg2Runs

-- membership in a rectangle of the kernel's extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

-- (the run's proof term is large: the definition's epilogue walks it past the default budget)
set_option maxHeartbeats 1000000 in
/-- The pieces the body's stores leave (last first) at the last tile, with the body's triple there: each `scf.if` is decided by
    the case's hypotheses, and the pieces are what the symbolic run finds. -/
noncomputable def kernelRun2_C (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    Σ' (L6 : List (View.Piece (Elt F) S64x2 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__pool_classify_kernel i arg1 harg1 arg2 harg2 arg3 harg3 arg4 harg4 arg5 harg5 arg6 harg6 arg7 harg7 arg8 harg8) K } := by
  refine ⟨?_, ?_, fun E K => ?run⟩
  case run =>
    simp only [cc2__pool_classify_kernel_eq_skeleton]; unfold cc2__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Hand

end
-- ==== Proof.KI.Reg2.lean ====
/-
  The pooling-and-classification region, at the buffers' contents `V` when it is entered: its proof data and body
  obligation, and what its accumulator and output hold tile by tile.
  The body has three cases over the 25 row tiles: the first tile resets the 64 x 128 accumulator and adds its
  product (one-hot tile transposed times feature tile), the middle tiles add theirs, and the last tile adds its own
  and then stores the class scores — the accumulator divided by the clamped counts times the first 128 rows of the
  classifier's weights, plus the second feature block times the remaining 32 rows, plus the bias — into the output
  window, which is idle at every other tile. `outsAt2` follows the pair (output buffer, accumulator) through the
  tiles; the three closing lemmas say what that pair is in terms of the body's payloads.
-/
import proofs.«405254_j42863773614471_1_alg».proof.Proof.KI.Reg2RunA
import proofs.«405254_j42863773614471_1_alg».proof.Proof.KI.Reg2RunB
import proofs.«405254_j42863773614471_1_alg».proof.Proof.KI.Reg2RunC
import Idealize.ShloMosaic.Lib.Pipeline.Value

-- membership in a rectangle of the kernel's extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-- At the first tile the body stores nothing into the output window (idle there and not written back): no pieces — a
    placeholder (junk read back) that nothing consults. -/
def out2_A_6 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) : Vec F S64x2 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- The pieces the first tile leaves in the accumulator tile it, so they cover it. -/
theorem scover2_A_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (y : S64x128.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S64x128.size (by sl_kernel_rfl) y

/-- What the first tile leaves in the accumulator: its pieces read back over junk. -/
def sout2_A_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) : Vec F S64x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4 x5).2.1)

/-- At a middle tile the body stores nothing into the output window (idle there and not written back): no pieces — a
    placeholder (junk read back) that nothing consults. -/
def out2_B_6 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) : Vec F S64x2 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xs0).1)

/-- The pieces a middle tile leaves in the accumulator tile it, so they cover it. -/
theorem scover2_B_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) (y : S64x128.Idx) :
    ∃ pc ∈ (kernelRun2_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xs0).2.1 S64x128.size (by sl_kernel_rfl) y

/-- What a middle tile leaves in the accumulator: its pieces read back over junk. -/
def sout2_B_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) : Vec F S64x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 x5 xs0).2.1)

/-- The one store of the last tile into the output window tiles its block, so it covers it. -/
theorem cover2_C_6 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) (y : S64x2.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S64x2.size (by sl_kernel_rfl) y

/-- What the last tile leaves in the output window's staging buffer: its pieces read back over junk. -/
def out2_C_6 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) : Vec F S64x2 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

/-- The pieces the last tile leaves in the accumulator tile it, so they cover it. -/
theorem scover2_C_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) (y : S64x128.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S64x128.size (by sl_kernel_rfl) y

/-- What the last tile leaves in the accumulator: its pieces read back over junk. -/
def sout2_C_0 (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) : Vec F S64x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 x5 xs0).2.1)

/-! ## What the output window and the accumulator hold after each tile -/

/-- The accumulation. What the output window's staging buffer and the accumulator hold after the body at position
    `n`: the case the closed forms select at `n`, run at the point's memrefs and input blocks, the accumulator at what
    this leaves at `n - 1`. An assignment of the conditions no point meets is no case. -/
def outsAt2 (c : Dev nD) : (n : ℕ) → n < cfg2.N → Vec F S64x2 .f32 × Vec F S64x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 25 = 0 then
      if h1 : (n + 1) % 25 = 24 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 25 = 24 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at the first tile: that case's contents. -/
theorem outsAt2_A (c : Dev nD) (t : Fin cfg2.N) (h0 : t.val % 25 = 0) (h1 : ¬t.val % 25 = 24) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a middle tile: that case's contents, over what the tile before left. -/
theorem outsAt2_B (c : Dev nD) (t : Fin cfg2.N) (h0 : ¬t.val % 25 = 0) (h1 : ¬t.val % 25 = 24) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last tile: that case's contents, over what the tile before left. -/
theorem outsAt2_C (c : Dev nD) (t : Fin cfg2.N) (h0 : ¬t.val % 25 = 0) (h1 : t.val % 25 = 24) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, tile by tile -/

/-- The region invariant before position `n`: before the first tile the launch's (every scoped buffer that is no
    staging buffer of this region at anything); afterwards the accumulator at what the tile before left in it, the
    other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After tile `n` (before tile `n + 1`): the accumulator at that tile's contents. -/
theorem PhiS2_succ (c : Dev nD) (n : ℕ) (hn : n < cfg2.N) :
    PhiS2 V c (n + 1) hn = iprop(iprop(owns (c : Thread nD τ) scM2_0 fullShare ((outsAt2 V c n hn).2) ∗ Rest2 (F := F) c) ∗ (∃ r, prngReg c r)) := rfl

/-- Before a tile that is not the first: the accumulator at what the tile before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which of the three cases the
    point is in, so that case's run applies; the invariant hands the body the accumulator at what the tile before
    left (at anything at the first tile) and takes it back at this tile's contents, the other scoped buffers and the
    generator register passing through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · have h1 : ¬t.val % 25 = 24 := by omega
    have hz : t.val = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
    rw [outsAt2_A V c t h0 h1]
    unfold sout2_A_0; (try dsimp only)
    rw [PhiS2_castSucc V c t, PhiS2_zero V c _ _ hz, PhiA2_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    by_cases h1 : t.val % 25 = 24
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any tile the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last tile. -/
theorem hout2 (c : Dev nD) : (dat2 V c).Φ (Fin.last cfg2.N) ⊢ Pipeline.ΦA spec2 c :=
  Phi_out2 V c _ (by rw [Fin.val_last]; have : cfg2.N = 25 := N_2; omega)

/-! ## What the found pieces are

Every load and store of the body goes through the whole of its memref (the unit rectangle at zero offsets), so a
load reads the contents and the last store leaves its payload: the accumulator after a tile is the tile's product
added to what it held, zero at the first tile, and the output after the last tile is the classifier of the
accumulator it has just left. -/

theorem hz : (![0, 0] : Fin 2 → Nat) = fun _ => 0 := funext fun a => by fin_cases a <;> rfl

/-- The first tile leaves in the accumulator its product added to the zero block the reset stored. -/
theorem sout2_A_0_eq (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) :
    sout2_A_0 c i arg1 harg1 arg2 harg2 arg3 harg3 arg4 harg4 arg5 harg5 arg6 harg6 arg7 harg7 arg8 harg8 hc0 hc1 x0 x1 x2 x3 x4 x5 = k2_pay2 x0 x1 (k2_pay1 (F := F)) := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2 x3 x4 x5)]
  unfold kernelRun2_A
  dsimp only
  sl_unfold_words
  rw [View.canon_cons_unit_zero (S := S64x128) hz, View.readCov_unit_zero (S := S64x128) _ hz]
  simp only [View.readAt_eq_ld, harg1.read_unread, harg2.read_unread, harg3.read_unread, harg4.read_unread, harg5.read_unread, harg6.read_unread, harg8.read_unread, View.ld_unit_zero (S := S2000x64) hz, View.ld_unit_zero (S := S2000x128) hz, View.ld_unit_zero (S := S64x32) hz, View.ld_unit_zero (S := S64x1) hz, View.ld_unit_zero (S := S160x2) hz, View.ld_unit_zero (S := S1x2) hz, View.ld_unit_zero (S := S64x128) hz, View.ld_unit_zero (S := S64x2) hz]

/-- A middle tile leaves in the accumulator its product added to what the accumulator held. -/
theorem sout2_B_0_eq (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : ¬cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    sout2_B_0 c i arg1 harg1 arg2 harg2 arg3 harg3 arg4 harg4 arg5 harg5 arg6 harg6 arg7 harg7 arg8 harg8 hc0 hc1 x0 x1 x2 x3 x4 x5 xs0 = k2_pay2 x0 x1 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 x3 x4 x5 xs0)]
  unfold kernelRun2_B
  dsimp only
  sl_unfold_words
  rw [View.canon_unit_zero (S := S64x128) hz]
  simp only [View.readAt_eq_ld, harg1.read_unread, harg2.read_unread, harg3.read_unread, harg4.read_unread, harg5.read_unread, harg6.read_unread, harg8.read_unread, View.ld_unit_zero (S := S2000x64) hz, View.ld_unit_zero (S := S2000x128) hz, View.ld_unit_zero (S := S64x32) hz, View.ld_unit_zero (S := S64x1) hz, View.ld_unit_zero (S := S160x2) hz, View.ld_unit_zero (S := S1x2) hz, View.ld_unit_zero (S := S64x128) hz, View.ld_unit_zero (S := S64x2) hz]

/-- The last tile leaves in the accumulator its product added to what the accumulator held. -/
theorem sout2_C_0_eq (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    sout2_C_0 c i arg1 harg1 arg2 harg2 arg3 harg3 arg4 harg4 arg5 harg5 arg6 harg6 arg7 harg7 arg8 harg8 hc0 hc1 x0 x1 x2 x3 x4 x5 xs0 = k2_pay2 x0 x1 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 x3 x4 x5 xs0)]
  unfold kernelRun2_C
  dsimp only
  sl_unfold_words
  rw [View.canon_unit_zero (S := S64x128) hz]
  simp only [View.readAt_eq_ld, harg1.read_unread, harg2.read_unread, harg3.read_unread, harg4.read_unread, harg5.read_unread, harg6.read_unread, harg8.read_unread, View.ld_unit_zero (S := S2000x64) hz, View.ld_unit_zero (S := S2000x128) hz, View.ld_unit_zero (S := S64x32) hz, View.ld_unit_zero (S := S64x1) hz, View.ld_unit_zero (S := S160x2) hz, View.ld_unit_zero (S := S1x2) hz, View.ld_unit_zero (S := S64x128) hz, View.ld_unit_zero (S := S64x2) hz]

/-- The last tile leaves in the output window the classifier of the accumulator it has just updated, the counts,
    the classifier's weights, the second feature block and the bias. -/
theorem out2_C_6_eq (c : Dev nD) (i : grid2.Coords) (arg1 : Memref sig .tc .vmem S2000x64 .f32) (harg1 : arg1.IsWhole) (arg2 : Memref sig .tc .vmem S2000x128 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S160x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x128 .f32) (harg8 : arg8.IsWhole) (hc0 : ¬cond2_0 i) (hc1 : cond2_1 i)
    (x0 : Vec F S2000x64 .f32) (x1 : Vec F S2000x128 .f32) (x2 : Vec F S64x32 .f32) (x3 : Vec F S64x1 .f32) (x4 : Vec F S160x2 .f32) (x5 : Vec F S1x2 .f32) (xs0 : Vec F S64x128 .f32) :
    out2_C_6 c i arg1 harg1 arg2 harg2 arg3 harg3 arg4 harg4 arg5 harg5 arg6 harg6 arg7 harg7 arg8 harg8 hc0 hc1 x0 x1 x2 x3 x4 x5 xs0 = k2_pay3 (k2_pay2 x0 x1 xs0) x3 x4 x2 x5 := by
  unfold out2_C_6
  rw [View.read_writes_eq_canon _ _ _ (cover2_C_6 c i arg1 harg1 arg2 harg2 arg3 harg3 arg4 harg4 arg5 harg5 arg6 harg6 arg7 harg7 arg8 harg8 hc0 hc1 x0 x1 x2 x3 x4 x5 xs0)]
  unfold kernelRun2_C
  dsimp only
  sl_unfold_words
  rw [View.canon_unit_zero (S := S64x2) hz]
  simp only [View.readCov_unit_zero (S := S64x128) _ hz, View.readAt_eq_ld, harg1.read_unread, harg2.read_unread, harg3.read_unread, harg4.read_unread, harg5.read_unread, harg6.read_unread, harg8.read_unread, View.ld_unit_zero (S := S2000x64) hz, View.ld_unit_zero (S := S2000x128) hz, View.ld_unit_zero (S := S64x32) hz, View.ld_unit_zero (S := S64x1) hz, View.ld_unit_zero (S := S160x2) hz, View.ld_unit_zero (S := S1x2) hz, View.ld_unit_zero (S := S64x128) hz, View.ld_unit_zero (S := S64x2) hz]

/-- The accumulator after the first tile. -/
theorem scratch_zero (c : Dev nD) (h : 0 < cfg2.N) : (outsAt2 V c 0 h).2 = k2_pay2 (iblk2 V c 0 ⟨0, h⟩) (iblk2 V c 1 ⟨0, h⟩) (k2_pay1 (F := F)) := by
  unfold outsAt2
  dsimp only
  exact sout2_A_0_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) scM2_0 (Memref.isWhole_whole _) _ _ (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)

/-- The accumulator after a later tile: the tile's product added to what the tile before left. -/
theorem scratch_succ (c : Dev nD) (n : ℕ) (h : n + 1 < cfg2.N) : (outsAt2 V c (n + 1) h).2 = k2_pay2 (iblk2 V c 0 ⟨n + 1, h⟩) (iblk2 V c 1 ⟨n + 1, h⟩) (outsAt2 V c n (Nat.lt_of_succ_lt h)).2 := by
  have hN : n + 1 < 25 := lt_of_lt_of_eq h (show cfg2.N = 25 from N_2)
  have h0 : ¬(n + 1) % 25 = 0 := by omega
  by_cases h1 : (n + 1) % 25 = 24
  · rw [outsAt2_C V c ⟨n + 1, h⟩ h0 h1]
    dsimp only
    exact sout2_C_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) scM2_0 (Memref.isWhole_whole _) _ _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) _
  · rw [outsAt2_B V c ⟨n + 1, h⟩ h0 h1]
    dsimp only
    exact sout2_B_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) scM2_0 (Memref.isWhole_whole _) _ _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) _

/-- The output window after the last tile: the classifier of the accumulator as that tile leaves it. -/
theorem out_last (c : Dev nD) (h : 24 < cfg2.N) : (outsAt2 V c 24 h).1 = k2_pay3 (outsAt2 V c 24 h).2 (iblk2 V c 3 ⟨24, h⟩) (iblk2 V c 4 ⟨24, h⟩) (iblk2 V c 2 ⟨24, h⟩) (iblk2 V c 5 ⟨24, h⟩) := by
  have h0 : ¬(⟨24, h⟩ : Fin cfg2.N).val % 25 = 0 := by show ¬(24 % 25 = 0); decide
  have h1 : (⟨24, h⟩ : Fin cfg2.N).val % 25 = 24 := by show 24 % 25 = 24; decide
  rw [outsAt2_C V c ⟨24, h⟩ h0 h1]
  dsimp only
  rw [sout2_C_0_eq c (grid2.coords ⟨24, h⟩) (ms2_0 ⟨24, h⟩) (hs2_0 ⟨24, h⟩) (ms2_1 ⟨24, h⟩) (hs2_1 ⟨24, h⟩) (ms2_2 ⟨24, h⟩) (hs2_2 ⟨24, h⟩) (ms2_3 ⟨24, h⟩) (hs2_3 ⟨24, h⟩) (ms2_4 ⟨24, h⟩) (hs2_4 ⟨24, h⟩) (ms2_5 ⟨24, h⟩) (hs2_5 ⟨24, h⟩) (ms2_6 ⟨24, h⟩) (hs2_6 ⟨24, h⟩) scM2_0 (Memref.isWhole_whole _) _ _ (iblk2 V c 0 ⟨24, h⟩) (iblk2 V c 1 ⟨24, h⟩) (iblk2 V c 2 ⟨24, h⟩) (iblk2 V c 3 ⟨24, h⟩) (iblk2 V c 4 ⟨24, h⟩) (iblk2 V c 5 ⟨24, h⟩) _]
  exact out2_C_6_eq c (grid2.coords ⟨24, h⟩) (ms2_0 ⟨24, h⟩) (hs2_0 ⟨24, h⟩) (ms2_1 ⟨24, h⟩) (hs2_1 ⟨24, h⟩) (ms2_2 ⟨24, h⟩) (hs2_2 ⟨24, h⟩) (ms2_3 ⟨24, h⟩) (hs2_3 ⟨24, h⟩) (ms2_4 ⟨24, h⟩) (hs2_4 ⟨24, h⟩) (ms2_5 ⟨24, h⟩) (hs2_5 ⟨24, h⟩) (ms2_6 ⟨24, h⟩) (hs2_6 ⟨24, h⟩) scM2_0 (Memref.isWhole_whole _) _ _ (iblk2 V c 0 ⟨24, h⟩) (iblk2 V c 1 ⟨24, h⟩) (iblk2 V c 2 ⟨24, h⟩) (iblk2 V c 3 ⟨24, h⟩) (iblk2 V c 4 ⟨24, h⟩) (iblk2 V c 5 ⟨24, h⟩) _

end Cert.KernelIdeal.Hand

end
-- ==== Proof.KI.Run.lean ====
/-
  THE RUN OF @main AND ITS FRAME, at any float family.

  @main is eight segments: three stretches of host operations, the first dense region, a stretch, the second dense
  region, a stretch, the pooling region. The contents of every unscoped buffer at each boundary are a fold from the
  launch memory: a host stretch applies its operations; a region replaces its windows' arrays by what its write-backs
  leave (an input array: what it held; the output array: the blocks written back) and leaves every other buffer alone.
  Each region is entered from "every unscoped buffer at the boundary's contents, the generator register at some state,
  nothing owed" and left at the same with the next boundary's contents; its own invariant takes the generator register
  and the scoped buffers in and gives them back (for the pooling region through the invariant that carries the
  accumulator between grid points). Hence every weakly fair execution terminates, nothing faults, every unscoped buffer
  ends at the last boundary's contents, and an argument array, which no host operation writes and no region writes
  back, holds its launch contents at every boundary.
-/
import proofs.«405254_j42863773614471_1_alg».proof.Proof.Gen.KernelIdeal.Launch
import proofs.«405254_j42863773614471_1_alg».proof.Proof.Gen.KernelIdeal.Skeleton
import proofs.«405254_j42863773614471_1_alg».proof.Proof.Gen.KernelIdeal.Points
import proofs.«405254_j42863773614471_1_alg».proof.Proof.Gen.KernelIdeal.Regions
import proofs.«405254_j42863773614471_1_alg».proof.Proof.KI.Reg0
import proofs.«405254_j42863773614471_1_alg».proof.Proof.KI.Reg1
import proofs.«405254_j42863773614471_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the inlined select. -/
abbrev W2 : Dev nD → Valuation τ sig (Elt F) := fun c => StableHlo.after hostOps0_1 (W1 m ρ c)
/-- After the first feature stack (region 0's entry). -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the second feature stack (region 1's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the membership table and the counts (region 2's entry). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- REGION 0 over the thread state: entered from every unscoped buffer at `W3`, left at `W4`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W7`, left at `W8`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h.trans (hin2 (V7 m ρ) c)
  hout c := by
    have h : (Pipeline.ΦA spec2 c : sProp 𝕄) ⊢ iprop((∃ r, prngReg c r) ∗ Pipeline.ownSems0 (fun k : PEmpty => (k.elim : SemLoc sig)) c
        ∗ Pipeline.scopedRest spec2 c) := by
      rw [Pipeline.ownSems0_none]; unfold Pipeline.ΦA
      iintro ⟨Hr, Hp⟩
      isplitl [Hp]; · iexact Hp
      isplitr; · iempintro
      iexact Hr
    exact (hout2 (V7 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The arguments hold their launch contents at every boundary -/

/-- `main_arg0` holds its launch contents at every boundary: no host operation writes it, and a region either does not touch it or stages it as an input. -/
theorem W3_main_arg0 (c : Dev nD) : W3 m ρ c (Proc.devRef .tc main_arg0) = m ((c : Thread nD τ).loc main_arg0) :=
  (StableHlo.after_of_writes_sub hostOps0_2 _ hostOps0_2_writes (r := main_arg0) (by decide)).trans <| (StableHlo.after_of_writes_sub hostOps0_1 _ hostOps0_1_writes (r := main_arg0) (by decide)).trans <| (StableHlo.after_of_writes_sub hostOps0 _ hostOps0_writes (r := main_arg0) (by decide)).trans rfl
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_writes_sub hostOps1 _ hostOps1_writes (r := main_arg0) (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (StableHlo.after_of_writes_sub hostOps2 _ hostOps2_writes (r := main_arg0) (by decide)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
/-- `main_arg1` holds its launch contents at every boundary: no host operation writes it, and a region either does not touch it or stages it as an input. -/
theorem W3_main_arg1 (c : Dev nD) : W3 m ρ c (Proc.devRef .tc main_arg1) = m ((c : Thread nD τ).loc main_arg1) :=
  (StableHlo.after_of_writes_sub hostOps0_2 _ hostOps0_2_writes (r := main_arg1) (by decide)).trans <| (StableHlo.after_of_writes_sub hostOps0_1 _ hostOps0_1_writes (r := main_arg1) (by decide)).trans <| (StableHlo.after_of_writes_sub hostOps0 _ hostOps0_writes (r := main_arg1) (by decide)).trans rfl
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_writes_sub hostOps1 _ hostOps1_writes (r := main_arg1) (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (StableHlo.after_of_writes_sub hostOps2 _ hostOps2_writes (r := main_arg1) (by decide)).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
/-- `main_arg2` holds its launch contents at every boundary: no host operation writes it, and a region either does not touch it or stages it as an input. -/
theorem W3_main_arg2 (c : Dev nD) : W3 m ρ c (Proc.devRef .tc main_arg2) = m ((c : Thread nD τ).loc main_arg2) :=
  (StableHlo.after_of_writes_sub hostOps0_2 _ hostOps0_2_writes (r := main_arg2) (by decide)).trans <| (StableHlo.after_of_writes_sub hostOps0_1 _ hostOps0_1_writes (r := main_arg2) (by decide)).trans <| (StableHlo.after_of_writes_sub hostOps0 _ hostOps0_writes (r := main_arg2) (by decide)).trans rfl
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_writes_sub hostOps1 _ hostOps1_writes (r := main_arg2) (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (StableHlo.after_of_writes_sub hostOps2 _ hostOps2_writes (r := main_arg2) (by decide)).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
/-- `main_arg3` holds its launch contents at every boundary: no host operation writes it, and a region either does not touch it or stages it as an input. -/
theorem W3_main_arg3 (c : Dev nD) : W3 m ρ c (Proc.devRef .tc main_arg3) = m ((c : Thread nD τ).loc main_arg3) :=
  (StableHlo.after_of_writes_sub hostOps0_2 _ hostOps0_2_writes (r := main_arg3) (by decide)).trans <| (StableHlo.after_of_writes_sub hostOps0_1 _ hostOps0_1_writes (r := main_arg3) (by decide)).trans <| (StableHlo.after_of_writes_sub hostOps0 _ hostOps0_writes (r := main_arg3) (by decide)).trans rfl
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_writes_sub hostOps1 _ hostOps1_writes (r := main_arg3) (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (StableHlo.after_of_writes_sub hostOps2 _ hostOps2_writes (r := main_arg3) (by decide)).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
/-- `main_arg4` holds its launch contents at every boundary: no host operation writes it, and a region either does not touch it or stages it as an input. -/
theorem W3_main_arg4 (c : Dev nD) : W3 m ρ c (Proc.devRef .tc main_arg4) = m ((c : Thread nD τ).loc main_arg4) :=
  (StableHlo.after_of_writes_sub hostOps0_2 _ hostOps0_2_writes (r := main_arg4) (by decide)).trans <| (StableHlo.after_of_writes_sub hostOps0_1 _ hostOps0_1_writes (r := main_arg4) (by decide)).trans <| (StableHlo.after_of_writes_sub hostOps0 _ hostOps0_writes (r := main_arg4) (by decide)).trans rfl
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_writes_sub hostOps1 _ hostOps1_writes (r := main_arg4) (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (StableHlo.after_of_writes_sub hostOps2 _ hostOps2_writes (r := main_arg4) (by decide)).trans (W6_main_arg4 m ρ c)
theorem W8_main_arg4 (c : Dev nD) : W8 m ρ c (Proc.devRef .tc main_arg4) = m ((c : Thread nD τ).loc main_arg4) :=
  ((W8_arr m ρ c 2).trans (((dat2 (V7 m ρ) c).arrAt_in 2 rfl _).trans (A_eq2 (V7 m ρ) c 2))).trans (W7_main_arg4 m ρ c)
/-- `main_arg5` holds its launch contents at every boundary: no host operation writes it, and a region either does not touch it or stages it as an input. -/
theorem W3_main_arg5 (c : Dev nD) : W3 m ρ c (Proc.devRef .tc main_arg5) = m ((c : Thread nD τ).loc main_arg5) :=
  (StableHlo.after_of_writes_sub hostOps0_2 _ hostOps0_2_writes (r := main_arg5) (by decide)).trans <| (StableHlo.after_of_writes_sub hostOps0_1 _ hostOps0_1_writes (r := main_arg5) (by decide)).trans <| (StableHlo.after_of_writes_sub hostOps0 _ hostOps0_writes (r := main_arg5) (by decide)).trans rfl
theorem W4_main_arg5 (c : Dev nD) : W4 m ρ c (Proc.devRef .tc main_arg5) = m ((c : Thread nD τ).loc main_arg5) :=
  ((W4_arr m ρ c 1).trans (((dat0 (V3 m ρ) c).arrAt_in 1 rfl _).trans (A_eq0 (V3 m ρ) c 1))).trans (W3_main_arg5 m ρ c)
theorem W5_main_arg5 (c : Dev nD) : W5 m ρ c (Proc.devRef .tc main_arg5) = m ((c : Thread nD τ).loc main_arg5) :=
  (StableHlo.after_of_writes_sub hostOps1 _ hostOps1_writes (r := main_arg5) (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (StableHlo.after_of_writes_sub hostOps2 _ hostOps2_writes (r := main_arg5) (by decide)).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
/-- `main_arg6` holds its launch contents at every boundary: no host operation writes it, and a region either does not touch it or stages it as an input. -/
theorem W3_main_arg6 (c : Dev nD) : W3 m ρ c (Proc.devRef .tc main_arg6) = m ((c : Thread nD τ).loc main_arg6) :=
  (StableHlo.after_of_writes_sub hostOps0_2 _ hostOps0_2_writes (r := main_arg6) (by decide)).trans <| (StableHlo.after_of_writes_sub hostOps0_1 _ hostOps0_1_writes (r := main_arg6) (by decide)).trans <| (StableHlo.after_of_writes_sub hostOps0 _ hostOps0_writes (r := main_arg6) (by decide)).trans rfl
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_writes_sub hostOps1 _ hostOps1_writes (r := main_arg6) (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (StableHlo.after_of_writes_sub hostOps2 _ hostOps2_writes (r := main_arg6) (by decide)).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
/-- `main_arg7` holds its launch contents at every boundary: no host operation writes it, and a region either does not touch it or stages it as an input. -/
theorem W3_main_arg7 (c : Dev nD) : W3 m ρ c (Proc.devRef .tc main_arg7) = m ((c : Thread nD τ).loc main_arg7) :=
  (StableHlo.after_of_writes_sub hostOps0_2 _ hostOps0_2_writes (r := main_arg7) (by decide)).trans <| (StableHlo.after_of_writes_sub hostOps0_1 _ hostOps0_1_writes (r := main_arg7) (by decide)).trans <| (StableHlo.after_of_writes_sub hostOps0 _ hostOps0_writes (r := main_arg7) (by decide)).trans rfl
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_writes_sub hostOps1 _ hostOps1_writes (r := main_arg7) (by decide)).trans (W4_main_arg7 m ρ c)
theorem W6_main_arg7 (c : Dev nD) : W6 m ρ c (Proc.devRef .tc main_arg7) = m ((c : Thread nD τ).loc main_arg7) :=
  ((W6_arr m ρ c 1).trans (((dat1 (V5 m ρ) c).arrAt_in 1 rfl _).trans (A_eq1 (V5 m ρ) c 1))).trans (W5_main_arg7 m ρ c)
theorem W7_main_arg7 (c : Dev nD) : W7 m ρ c (Proc.devRef .tc main_arg7) = m ((c : Thread nD τ).loc main_arg7) :=
  (StableHlo.after_of_writes_sub hostOps2 _ hostOps2_writes (r := main_arg7) (by decide)).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
/-- `main_arg8` holds its launch contents at every boundary: no host operation writes it, and a region either does not touch it or stages it as an input. -/
theorem W3_main_arg8 (c : Dev nD) : W3 m ρ c (Proc.devRef .tc main_arg8) = m ((c : Thread nD τ).loc main_arg8) :=
  (StableHlo.after_of_writes_sub hostOps0_2 _ hostOps0_2_writes (r := main_arg8) (by decide)).trans <| (StableHlo.after_of_writes_sub hostOps0_1 _ hostOps0_1_writes (r := main_arg8) (by decide)).trans <| (StableHlo.after_of_writes_sub hostOps0 _ hostOps0_writes (r := main_arg8) (by decide)).trans rfl
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (StableHlo.after_of_writes_sub hostOps1 _ hostOps1_writes (r := main_arg8) (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (StableHlo.after_of_writes_sub hostOps2 _ hostOps2_writes (r := main_arg8) (by decide)).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
/-- `main_arg9` holds its launch contents at every boundary: no host operation writes it, and a region either does not touch it or stages it as an input. -/
theorem W3_main_arg9 (c : Dev nD) : W3 m ρ c (Proc.devRef .tc main_arg9) = m ((c : Thread nD τ).loc main_arg9) :=
  (StableHlo.after_of_writes_sub hostOps0_2 _ hostOps0_2_writes (r := main_arg9) (by decide)).trans <| (StableHlo.after_of_writes_sub hostOps0_1 _ hostOps0_1_writes (r := main_arg9) (by decide)).trans <| (StableHlo.after_of_writes_sub hostOps0 _ hostOps0_writes (r := main_arg9) (by decide)).trans rfl
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (StableHlo.after_of_writes_sub hostOps1 _ hostOps1_writes (r := main_arg9) (by decide)).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W7_main_arg9 (c : Dev nD) : W7 m ρ c (Proc.devRef .tc main_arg9) = m ((c : Thread nD τ).loc main_arg9) :=
  (StableHlo.after_of_writes_sub hostOps2 _ hostOps2_writes (r := main_arg9) (by decide)).trans (W6_main_arg9 m ρ c)
theorem W8_main_arg9 (c : Dev nD) : W8 m ρ c (Proc.devRef .tc main_arg9) = m ((c : Thread nD τ).loc main_arg9) :=
  ((W8_arr m ρ c 4).trans (((dat2 (V7 m ρ) c).arrAt_in 4 rfl _).trans (A_eq2 (V7 m ρ) c 4))).trans (W7_main_arg9 m ρ c)
/-- `main_arg10` holds its launch contents at every boundary: no host operation writes it, and a region either does not touch it or stages it as an input. -/
theorem W3_main_arg10 (c : Dev nD) : W3 m ρ c (Proc.devRef .tc main_arg10) = m ((c : Thread nD τ).loc main_arg10) :=
  (StableHlo.after_of_writes_sub hostOps0_2 _ hostOps0_2_writes (r := main_arg10) (by decide)).trans <| (StableHlo.after_of_writes_sub hostOps0_1 _ hostOps0_1_writes (r := main_arg10) (by decide)).trans <| (StableHlo.after_of_writes_sub hostOps0 _ hostOps0_writes (r := main_arg10) (by decide)).trans rfl
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg10 (c : Dev nD) : W5 m ρ c (Proc.devRef .tc main_arg10) = m ((c : Thread nD τ).loc main_arg10) :=
  (StableHlo.after_of_writes_sub hostOps1 _ hostOps1_writes (r := main_arg10) (by decide)).trans (W4_main_arg10 m ρ c)
theorem W6_main_arg10 (c : Dev nD) : W6 m ρ c (Proc.devRef .tc main_arg10) = m ((c : Thread nD τ).loc main_arg10) :=
  (W6_of_ne m ρ c main_arg10 (by decide)).trans (W5_main_arg10 m ρ c)
theorem W7_main_arg10 (c : Dev nD) : W7 m ρ c (Proc.devRef .tc main_arg10) = m ((c : Thread nD τ).loc main_arg10) :=
  (StableHlo.after_of_writes_sub hostOps2 _ hostOps2_writes (r := main_arg10) (by decide)).trans (W6_main_arg10 m ρ c)
theorem W8_main_arg10 (c : Dev nD) : W8 m ρ c (Proc.devRef .tc main_arg10) = m ((c : Thread nD τ).loc main_arg10) :=
  (W8_of_ne m ρ c main_arg10 (by decide)).trans (W7_main_arg10 m ρ c)

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c)⟩) (run_all m ρ)

end Cert.KernelIdeal.Hand

end
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.LibNary3.lean ====
/-
  A general lemma about the host-operation builders: the result of an operation over a LITERAL family of THREE operand
  references (a three-piece concatenate), with each operand's contents read at its own reference, so that a fold of
  operation results goes on rewriting the operands' contents. The library states the same for four references.
-/
import Idealize.ShloMosaic.Lib.StableHlo.Run

namespace Idealize.ShloMosaic.StableHlo

open Idealize.ShloMosaic Idealize.SL.Sem

variable {τ : Topo} {sig : RefSig} {Val : EltTy → Type}

/-- The result of an operation over three literal operand references: its function applied to the three operands' contents. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a single simplification pass over a fold uses. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.KI.Chain.lean ====
/-
  The host side of the kernel program as functions of what the buffers hold. Between its three kernel regions the
  program computes, operation by operation: the symmetric normalisation of a graph given by its edges' sources and
  targets (the in-degree of each node, floored at one, to the power -1/2, as a column); two steps of the normalised
  neighbourhood sum of a feature matrix, laid beside the features themselves; the one-hot matrix of the nodes' graph
  numbers and the number of nodes of each graph; a bias as a one-row matrix. Each function below is the composition
  the program prints for one of these values, operation for operation, over the contents of the buffers it starts
  from. The facts the operations cite (shape relations) are the printed program's stated side conditions.
-/
import proofs.«405254_j42863773614471_1_alg».proof.KernelIdeal

noncomputable section

namespace Cert.KernelIdeal.Hand

open Idealize.ShloMosaic Idealize.ShloMosaic.TcCoe Idealize.SL.Sem
open Cert.KernelIdeal Cert.KernelIdeal.Facts₀

/-- What a buffer of 32-bit floats of shape `s` holds. -/
abbrev CF (F : FTy → Type) (s : Shape) : Type := (⟨s, .f32⟩ : BufTy).Contents (Elt F)
/-- What a buffer of 32-bit integers of shape `s` holds. -/
abbrev CI (F : FTy → Type) (s : Shape) : Type := (⟨s, .i32⟩ : BufTy).Contents (Elt F)
/-- What a buffer of truth values of shape `s` holds. -/
abbrev CB (F : FTy → Type) (s : Shape) : Type := (⟨s, .i1⟩ : BufTy).Contents (Elt F)

variable {F : FTy → Type} [FloatOps F] [Facts₀]

/-! ## The normalising column -/

/-- The in-degree: a one for every edge, summed at the edge's target, from zero. -/
def degIn (dst : CI F S600000) : CF F S50000 :=
  (fun x i u => Host.scatterAdd scatter_S50000_S600000x1_S600000_n_0_0_1 x i u : CF F S50000 → CI F S600000x1 → CF F S600000 → CF F S50000)
    ((broadcastInDim S50000 ![] bcast_S_S50000 : CF F S_ → CF F S50000) (constant S_ .f32 0x00000000#32))
    ((broadcastInDim S600000x1 ![0] bcast_S600000_S600000x1_0 : CI F S600000 → CI F S600000x1) dst)
    ((broadcastInDim S600000 ![] bcast_S_S600000 : CF F S_ → CF F S600000) (constant S_ .f32 0x3F800000#32))

/-- The in-degree floored at one: where it is below one, one. -/
def degFloor (dst : CI F S600000) : CF F S50000 :=
  (select : CB F S50000 → CF F S50000 → CF F S50000 → CF F S50000)
    ((cmpf .olt : CF F S50000 → CF F S50000 → CB F S50000) (degIn dst)
      ((broadcastInDim S50000 ![] bcast_S_S50000 : CF F S_ → CF F S50000) (constant S_ .f32 0x3F800000#32)))
    ((broadcastInDim S50000 ![] bcast_S_S50000 : CF F S_ → CF F S50000) ((id : CF F S_ → CF F S_) (constant S_ .f32 0x3F800000#32)))
    (degIn dst)

/-- The normalising column: the floored in-degree to the power -1/2, one entry a row. -/
def normCol (dst : CI F S600000) : CF F S50000x1 :=
  (Host.powf : CF F S50000x1 → CF F S50000x1 → CF F S50000x1)
    ((broadcastInDim S50000x1 ![0] bcast_S50000_S50000x1_0 : CF F S50000 → CF F S50000x1) (degFloor dst))
    ((broadcastInDim S50000x1 ![] bcast_S_S50000x1 : CF F S_ → CF F S50000x1) (constant S_ .f32 0xBF000000#32))

/-! ## The neighbourhood sums -/

/-- The normalising column spread along the 128 features. -/
def normMat (n : CF F S50000x1) : CF F S50000x128 :=
  (broadcastInDim S50000x128 ![0, 1] bcast_S50000x1_S50000x128_0_1 : CF F S50000x1 → CF F S50000x128) n

/-- The edges' sources as gather indices: a negative one counted from the end, one index a row. -/
def wrapIdx (src : CI F S600000) : CI F S600000x1 :=
  (broadcastInDim S600000x1 ![0] bcast_S600000_S600000x1_0 : CI F S600000 → CI F S600000x1)
    ((select : CB F S600000 → CI F S600000 → CI F S600000 → CI F S600000)
      ((cmpi .slt : CI F S600000 → CI F S600000 → CB F S600000) src
        ((broadcastInDim S600000 ![] bcast_S_S600000 : CI F S_ → CI F S600000) (constantI S_ 32 0#32)))
      ((addi : CI F S600000 → CI F S600000 → CI F S600000) src
        ((broadcastInDim S600000 ![] bcast_S_S600000 : CI F S_ → CI F S600000) (constantI S_ 32 50000#32)))
      src)

/-- One neighbourhood sum: the rows of `h` at the edges' sources, summed at the edges' targets from zero, each row then
    scaled by the normalising column. -/
def aggN (n : CF F S50000x1) (src dst : CI F S600000) (h : CF F S50000x128) : CF F S50000x128 :=
  (mulf : CF F S50000x128 → CF F S50000x128 → CF F S50000x128)
    ((fun x i u => Host.scatterAdd scatter_S50000x128_S600000x1_S600000x128_1_0_0_1 x i u : CF F S50000x128 → CI F S600000x1 → CF F S600000x128 → CF F S50000x128)
      ((broadcastInDim S50000x128 ![] bcast_S_S50000x128 : CF F S_ → CF F S50000x128) (constant S_ .f32 0x00000000#32))
      ((broadcastInDim S600000x1 ![0] bcast_S600000_S600000x1_0 : CI F S600000 → CI F S600000x1) dst)
      ((fun x i => Host.gather gather_S50000x128_S600000x1_S600000x128_1_0_n_n_0_1_1128 x i : CF F S50000x128 → CI F S600000x1 → CF F S600000x128)
        h (wrapIdx src)))
    (normMat n)

/-- The features beside their first and second normalised neighbourhood sums: `x`, then `A x`, then `A (A x)`, where
    `A h` scales the rows of `h` by the normalising column, sums them along the edges and scales the result again. -/
def featsN (n : CF F S50000x1) (src dst : CI F S600000) (x : CF F S50000x128) : CF F S50000x384 :=
  concatenate S50000x384 1
    [⟨S50000x128, x⟩,
     ⟨S50000x128, aggN n src dst ((mulf : CF F S50000x128 → CF F S50000x128 → CF F S50000x128) x (normMat n))⟩,
     ⟨S50000x128, aggN n src dst ((mulf : CF F S50000x128 → CF F S50000x128 → CF F S50000x128)
        (aggN n src dst ((mulf : CF F S50000x128 → CF F S50000x128 → CF F S50000x128) x (normMat n))) (normMat n))⟩]
    concatenates_S50000x128_S50000x128_S50000x128_S50000x384_d1

/-! ## The pooling matrix, the graphs' sizes, the biases as rows -/

/-- The one-hot matrix of the nodes' graph numbers: entry (node, graph) is one where the node's number is the graph's. -/
def onehot (gid : CI F S50000) : CF F S50000x64 :=
  (uitofp .f32 : CB F S50000x64 → CF F S50000x64)
    ((cmpi .eq : CI F S50000x64 → CI F S50000x64 → CB F S50000x64)
      ((broadcastInDim S50000x64 ![0, 1] bcast_S50000x1_S50000x64_0_1 : CI F S50000x1 → CI F S50000x64)
        ((broadcastInDim S50000x1 ![0] bcast_S50000_S50000x1_0 : CI F S50000 → CI F S50000x1) gid))
      ((broadcastInDim S50000x64 ![0, 1] bcast_S1x64_S50000x64_0_1 : CI F S1x64 → CI F S50000x64)
        ((broadcastInDim S1x64 ![1] bcast_S64_S1x64_1 : CI F S64 → CI F S1x64) (iotaInDim S64 32 0))))

/-- The number of nodes of each graph, as a column: a one for every node, summed at the node's graph number, from zero. -/
def cntCol (gid : CI F S50000) : CF F S64x1 :=
  fun i => shapeCast S64x1
    ((fun x i u => Host.scatterAdd scatter_S64_S50000x1_S50000_n_0_0_1 x i u : CF F S64 → CI F S50000x1 → CF F S50000 → CF F S64)
      ((broadcastInDim S64 ![] bcast_S_S64 : CF F S_ → CF F S64) (constant S_ .f32 0x00000000#32))
      ((broadcastInDim S50000x1 ![0] bcast_S50000_S50000x1_0 : CI F S50000 → CI F S50000x1) gid)
      ((broadcastInDim S50000 ![] bcast_S_S50000 : CF F S_ → CF F S50000) (constant S_ .f32 0x3F800000#32)))
    shapeCasts_S64_S64x1 i

/-- A vector of 128 entries as a matrix of one row. -/
def rowOf128 (b : CF F S128) : CF F S1x128 := fun i => shapeCast S1x128 b shapeCasts_S128_S1x128 i

/-- A vector of 2 entries as a matrix of one row. -/
def rowOf2 (b : CF F S2) : CF F S1x2 := fun i => shapeCast S1x2 b shapeCasts_S2_S1x2 i

end Cert.KernelIdeal.Hand
-- ==== Proof.KI.HostVals.lean ====
/-
  What the kernel program's host stretches leave in the buffers its three regions read. Each stretch is a line of
  operations in static single assignment, so a buffer's final contents are its operation's function of its operands'
  final contents; read stage by stage from the line's inputs, the buffers a region reads hold the compositions named
  in the chain of host values: the normalising column, the features beside their two normalised neighbourhood sums,
  the one-hot pooling matrix, the graphs' sizes, and the biases as rows. The three stretches before the first region
  are read as one line, the fold over a concatenation being the folds one after the other.
-/
import proofs.«405254_j42863773614471_1_alg».proof.Proof.Gen.KernelIdeal.Launch
import proofs.«405254_j42863773614471_1_alg».proof.Proof.LibSsa
import proofs.«405254_j42863773614471_1_alg».proof.Proof.LibNary3
import proofs.«405254_j42863773614471_1_alg».proof.Proof.KI.Chain

set_option maxRecDepth 4096

noncomputable section

namespace Cert.KernelIdeal.Hand

open Idealize.ShloMosaic Idealize.ShloMosaic.TcCoe Idealize.SL.Sem
open Idealize.ShloMosaic.StableHlo
open Cert.KernelIdeal Cert.KernelIdeal.Gen

variable {F : FTy → Type} [FloatOps F]

/-- Three literal operands: the result, written by the `k`-th operation and by none after it, ends at the function of
    what the three operands end at, each operand written by no operation from the `k`-th on. -/
theorem ssa_nary3 {τ : Topo} {sig : RefSig} {Val : EltTy → Type} {ops : List (HloOp τ sig Val)} {W : List (Ref sig .tc)}
    (hW : WritesAre ops W) (F0 : Valuation τ sig Val) (k : ℕ) {x a b y : Ref sig .tc}
    {f : ((j : Fin 3) → ((![x, a, b] : Fin 3 → Ref sig .tc) j).ty.Contents Val) → y.ty.Contents Val} {hxs hy}
    (hk : ops[k]? = some (nary ![x, a, b] y f hxs hy)) (hx' : x ∉ W.drop k) (ha' : a ∉ W.drop k) (hb' : b ∉ W.drop k)
    (hy' : y ∉ W.drop (k + 1)) :
    after ops F0 (Proc.devRef .tc y)
      = f (Fin.cons (after ops F0 (Proc.devRef .tc x)) (Fin.cons (after ops F0 (Proc.devRef .tc a))
          (Fin.cons (after ops F0 (Proc.devRef .tc b)) (fun i => i.elim0)))) := by
  rw [after_eq_result hW F0 k hk hy', after_eq_take hW F0 k hx', after_eq_take hW F0 k ha', after_eq_take hW F0 k hb']
  exact nary3_result f hxs hy _

/-! ## Before the first region -/

/-- The three stretches before the first region, as one line. -/
abbrev opsA : List (HloOp τ sig (Elt F)) := hostOps0 ++ hostOps0_1 ++ hostOps0_2
/-- The references its operations write, in order. -/
abbrev WA : List (Ref sig .tc) :=
  [main_cst, main_v0, main_cst_0, main_v1, main_v2, main_v3, main_cst_1, main_v4, main_v5, main_cst_2, main_call0_v0, main_call0_v1, main_v6, main_v7, main_cst_3, main_v8, main_v9, main_v10, main_v11, main_c, main_v12, main_v13, main_c_4, main_v14, main_v15, main_v16, main_v17, main_v18, main_cst_5, main_v19, main_v20, main_v21, main_v22, main_v23, main_v24, main_v25, main_c_6, main_v26, main_v27, main_c_7, main_v28, main_v29, main_v30, main_v31, main_v32, main_cst_8, main_v33, main_v34, main_v35, main_v36, main_v37, main_v38, main_v39]
/-- Every operation of the line writes the one reference listed for it. -/
theorem writesA : WritesAre (opsA (F := F)) WA :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))
/-- The folds over the three stretches one after the other are the fold over the one line. -/
theorem afterA (X : Valuation τ sig (Elt F)) :
    after hostOps0_2 (after hostOps0_1 (after hostOps0 X)) = after (opsA (F := F)) X := by
  rw [after_append, after_append]

/-- After the stretches before the first region, `main_v3` holds the in-degree. -/
theorem A_v3 (X : Valuation τ sig (Elt F)) :
    after (opsA (F := F)) X (Proc.devRef .tc main_v3) = degIn (X (Proc.devRef .tc main_arg2)) := by
  have hW := writesA (F := F)
  have k_main_arg2 := after_keep hW X (r := main_arg2) (by decide)
  have e_main_cst := ssa_nullary hW X 0 rfl (by decide)
  have e_main_v0 := ssa_unary hW X 1 rfl (by decide) (by decide)
  have e_main_cst_0 := ssa_nullary hW X 2 rfl (by decide)
  have e_main_v1 := ssa_unary hW X 3 rfl (by decide) (by decide)
  have e_main_v2 := ssa_unary hW X 4 rfl (by decide) (by decide)
  have e_main_v3 := ssa_ternary hW X 5 rfl (by decide) (by decide) (by decide) (by decide)
  rw [e_main_v3, e_main_v2, e_main_v1, e_main_cst_0, e_main_v0, e_main_cst, k_main_arg2]
  rfl

/-- `main_v6` holds the in-degree floored at one. -/
theorem A_v6 (X : Valuation τ sig (Elt F)) :
    after (opsA (F := F)) X (Proc.devRef .tc main_v6) = degFloor (X (Proc.devRef .tc main_arg2)) := by
  have hW := writesA (F := F)
  have e_main_cst_1 := ssa_nullary hW X 6 rfl (by decide)
  have e_main_v4 := ssa_unary hW X 7 rfl (by decide) (by decide)
  have e_main_v5 := ssa_binary hW X 8 rfl (by decide) (by decide) (by decide)
  have e_main_cst_2 := ssa_nullary hW X 9 rfl (by decide)
  have e_main_call0_v0 := ssa_unary hW X 10 rfl (by decide) (by decide)
  have e_main_call0_v1 := ssa_unary hW X 11 rfl (by decide) (by decide)
  have e_main_v6 := ssa_ternary hW X 12 rfl (by decide) (by decide) (by decide) (by decide)
  rw [e_main_v6, e_main_call0_v1, e_main_call0_v0, e_main_cst_2, e_main_v5, e_main_v4, e_main_cst_1, A_v3 X]
  rfl

/-- `main_v9` holds the normalising column. -/
theorem A_v9 (X : Valuation τ sig (Elt F)) :
    after (opsA (F := F)) X (Proc.devRef .tc main_v9) = normCol (X (Proc.devRef .tc main_arg2)) := by
  have hW := writesA (F := F)
  have e_main_v7 := ssa_unary hW X 13 rfl (by decide) (by decide)
  have e_main_cst_3 := ssa_nullary hW X 14 rfl (by decide)
  have e_main_v8 := ssa_unary hW X 15 rfl (by decide) (by decide)
  have e_main_v9 := ssa_binary hW X 16 rfl (by decide) (by decide) (by decide)
  rw [e_main_v9, e_main_v8, e_main_cst_3, e_main_v7, A_v6 X]
  rfl

/-- `main_v23` holds the first normalised neighbourhood sum of the features. -/
theorem A_v23 (X : Valuation τ sig (Elt F)) :
    after (opsA (F := F)) X (Proc.devRef .tc main_v23) = aggN (normCol (X (Proc.devRef .tc main_arg2))) (X (Proc.devRef .tc main_arg1)) (X (Proc.devRef .tc main_arg2)) (mulf (X (Proc.devRef .tc main_arg0)) (normMat (normCol (X (Proc.devRef .tc main_arg2))))) := by
  have hW := writesA (F := F)
  have k_main_arg2 := after_keep hW X (r := main_arg2) (by decide)
  have k_main_arg0 := after_keep hW X (r := main_arg0) (by decide)
  have k_main_arg1 := after_keep hW X (r := main_arg1) (by decide)
  have e_main_v10 := ssa_unary hW X 17 rfl (by decide) (by decide)
  have e_main_v11 := ssa_binary hW X 18 rfl (by decide) (by decide) (by decide)
  have e_main_c := ssa_nullary hW X 19 rfl (by decide)
  have e_main_v12 := ssa_unary hW X 20 rfl (by decide) (by decide)
  have e_main_v13 := ssa_binary hW X 21 rfl (by decide) (by decide) (by decide)
  have e_main_c_4 := ssa_nullary hW X 22 rfl (by decide)
  have e_main_v14 := ssa_unary hW X 23 rfl (by decide) (by decide)
  have e_main_v15 := ssa_binary hW X 24 rfl (by decide) (by decide) (by decide)
  have e_main_v16 := ssa_ternary hW X 25 rfl (by decide) (by decide) (by decide) (by decide)
  have e_main_v17 := ssa_unary hW X 26 rfl (by decide) (by decide)
  have e_main_v18 := ssa_binary hW X 27 rfl (by decide) (by decide) (by decide)
  have e_main_cst_5 := ssa_nullary hW X 28 rfl (by decide)
  have e_main_v19 := ssa_unary hW X 29 rfl (by decide) (by decide)
  have e_main_v20 := ssa_unary hW X 30 rfl (by decide) (by decide)
  have e_main_v21 := ssa_ternary hW X 31 rfl (by decide) (by decide) (by decide) (by decide)
  have e_main_v22 := ssa_unary hW X 32 rfl (by decide) (by decide)
  have e_main_v23 := ssa_binary hW X 33 rfl (by decide) (by decide) (by decide)
  rw [e_main_v23, e_main_v22, e_main_v21, e_main_v20, e_main_v19, e_main_cst_5, e_main_v18, e_main_v17, e_main_v16, e_main_v15, e_main_v14, e_main_c_4, e_main_v13, e_main_v12, e_main_c, e_main_v11, e_main_v10, A_v9 X, k_main_arg2, k_main_arg0, k_main_arg1]
  rfl

/-- `main_v37` holds the second normalised neighbourhood sum of the features. -/
theorem A_v37 (X : Valuation τ sig (Elt F)) :
    after (opsA (F := F)) X (Proc.devRef .tc main_v37) = aggN (normCol (X (Proc.devRef .tc main_arg2))) (X (Proc.devRef .tc main_arg1)) (X (Proc.devRef .tc main_arg2)) (mulf (aggN (normCol (X (Proc.devRef .tc main_arg2))) (X (Proc.devRef .tc main_arg1)) (X (Proc.devRef .tc main_arg2)) (mulf (X (Proc.devRef .tc main_arg0)) (normMat (normCol (X (Proc.devRef .tc main_arg2)))))) (normMat (normCol (X (Proc.devRef .tc main_arg2))))) := by
  have hW := writesA (F := F)
  have k_main_arg2 := after_keep hW X (r := main_arg2) (by decide)
  have k_main_arg1 := after_keep hW X (r := main_arg1) (by decide)
  have e_main_v24 := ssa_unary hW X 34 rfl (by decide) (by decide)
  have e_main_v25 := ssa_binary hW X 35 rfl (by decide) (by decide) (by decide)
  have e_main_c_6 := ssa_nullary hW X 36 rfl (by decide)
  have e_main_v26 := ssa_unary hW X 37 rfl (by decide) (by decide)
  have e_main_v27 := ssa_binary hW X 38 rfl (by decide) (by decide) (by decide)
  have e_main_c_7 := ssa_nullary hW X 39 rfl (by decide)
  have e_main_v28 := ssa_unary hW X 40 rfl (by decide) (by decide)
  have e_main_v29 := ssa_binary hW X 41 rfl (by decide) (by decide) (by decide)
  have e_main_v30 := ssa_ternary hW X 42 rfl (by decide) (by decide) (by decide) (by decide)
  have e_main_v31 := ssa_unary hW X 43 rfl (by decide) (by decide)
  have e_main_v32 := ssa_binary hW X 44 rfl (by decide) (by decide) (by decide)
  have e_main_cst_8 := ssa_nullary hW X 45 rfl (by decide)
  have e_main_v33 := ssa_unary hW X 46 rfl (by decide) (by decide)
  have e_main_v34 := ssa_unary hW X 47 rfl (by decide) (by decide)
  have e_main_v35 := ssa_ternary hW X 48 rfl (by decide) (by decide) (by decide) (by decide)
  have e_main_v36 := ssa_unary hW X 49 rfl (by decide) (by decide)
  have e_main_v37 := ssa_binary hW X 50 rfl (by decide) (by decide) (by decide)
  rw [e_main_v37, e_main_v36, e_main_v35, e_main_v34, e_main_v33, e_main_cst_8, e_main_v32, e_main_v31, e_main_v30, e_main_v29, e_main_v28, e_main_c_7, e_main_v27, e_main_v26, e_main_c_6, e_main_v25, e_main_v24, A_v23 X, A_v9 X, k_main_arg2, k_main_arg1]
  rfl

/-- `main_v38` holds the features beside their two neighbourhood sums. -/
theorem A_v38 (X : Valuation τ sig (Elt F)) :
    after (opsA (F := F)) X (Proc.devRef .tc main_v38) = featsN (normCol (X (Proc.devRef .tc main_arg2))) (X (Proc.devRef .tc main_arg1)) (X (Proc.devRef .tc main_arg2)) (X (Proc.devRef .tc main_arg0)) := by
  have hW := writesA (F := F)
  have k_main_arg0 := after_keep hW X (r := main_arg0) (by decide)
  have e_main_v38 := ssa_nary3 hW X 51 rfl (by decide) (by decide) (by decide) (by decide)
  rw [e_main_v38, A_v23 X, A_v37 X, k_main_arg0]
  rfl

/-- `main_v39` holds the first bias as a row. -/
theorem A_v39 (X : Valuation τ sig (Elt F)) :
    after (opsA (F := F)) X (Proc.devRef .tc main_v39) = rowOf128 (X (Proc.devRef .tc main_arg6)) := by
  have hW := writesA (F := F)
  have k_main_arg6 := after_keep hW X (r := main_arg6) (by decide)
  have e_main_v39 := ssa_reshape hW X 52 rfl (by decide) (by decide)
  rw [e_main_v39, k_main_arg6]
  rfl

/-! ## Between the first two regions -/

/-- The stretch between the first two regions. -/
abbrev opsB : List (HloOp τ sig (Elt F)) := hostOps1
/-- The references its operations write, in order. -/
abbrev WB : List (Ref sig .tc) :=
  [main_v41, main_v42, main_c_9, main_v43, main_v44, main_c_10, main_v45, main_v46, main_v47, main_v48, main_v49, main_cst_11, main_v50, main_v51, main_v52, main_v53, main_v54, main_v55, main_v56, main_c_12, main_v57, main_v58, main_c_13, main_v59, main_v60, main_v61, main_v62, main_v63, main_cst_14, main_v64, main_v65, main_v66, main_v67, main_v68, main_v69, main_v70]
/-- Every operation of the line writes the one reference listed for it. -/
theorem writesB : WritesAre (opsB (F := F)) WB :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))

/-- After the stretch between the first two regions, `main_v54` holds the first normalised neighbourhood sum of the first layer's output. -/
theorem B_v54 (X : Valuation τ sig (Elt F)) :
    after (opsB (F := F)) X (Proc.devRef .tc main_v54) = aggN (X (Proc.devRef .tc main_v9)) (X (Proc.devRef .tc main_arg1)) (X (Proc.devRef .tc main_arg2)) (mulf (X (Proc.devRef .tc main_v40)) (normMat (X (Proc.devRef .tc main_v9)))) := by
  have hW := writesB (F := F)
  have k_main_arg2 := after_keep hW X (r := main_arg2) (by decide)
  have k_main_v40 := after_keep hW X (r := main_v40) (by decide)
  have k_main_v9 := after_keep hW X (r := main_v9) (by decide)
  have k_main_arg1 := after_keep hW X (r := main_arg1) (by decide)
  have e_main_v41 := ssa_unary hW X 0 rfl (by decide) (by decide)
  have e_main_v42 := ssa_binary hW X 1 rfl (by decide) (by decide) (by decide)
  have e_main_c_9 := ssa_nullary hW X 2 rfl (by decide)
  have e_main_v43 := ssa_unary hW X 3 rfl (by decide) (by decide)
  have e_main_v44 := ssa_binary hW X 4 rfl (by decide) (by decide) (by decide)
  have e_main_c_10 := ssa_nullary hW X 5 rfl (by decide)
  have e_main_v45 := ssa_unary hW X 6 rfl (by decide) (by decide)
  have e_main_v46 := ssa_binary hW X 7 rfl (by decide) (by decide) (by decide)
  have e_main_v47 := ssa_ternary hW X 8 rfl (by decide) (by decide) (by decide) (by decide)
  have e_main_v48 := ssa_unary hW X 9 rfl (by decide) (by decide)
  have e_main_v49 := ssa_binary hW X 10 rfl (by decide) (by decide) (by decide)
  have e_main_cst_11 := ssa_nullary hW X 11 rfl (by decide)
  have e_main_v50 := ssa_unary hW X 12 rfl (by decide) (by decide)
  have e_main_v51 := ssa_unary hW X 13 rfl (by decide) (by decide)
  have e_main_v52 := ssa_ternary hW X 14 rfl (by decide) (by decide) (by decide) (by decide)
  have e_main_v53 := ssa_unary hW X 15 rfl (by decide) (by decide)
  have e_main_v54 := ssa_binary hW X 16 rfl (by decide) (by decide) (by decide)
  rw [e_main_v54, e_main_v53, e_main_v52, e_main_v51, e_main_v50, e_main_cst_11, e_main_v49, e_main_v48, e_main_v47, e_main_v46, e_main_v45, e_main_c_10, e_main_v44, e_main_v43, e_main_c_9, e_main_v42, e_main_v41, k_main_arg2, k_main_v40, k_main_v9, k_main_arg1]
  rfl

/-- `main_v68` holds its second normalised neighbourhood sum. -/
theorem B_v68 (X : Valuation τ sig (Elt F)) :
    after (opsB (F := F)) X (Proc.devRef .tc main_v68) = aggN (X (Proc.devRef .tc main_v9)) (X (Proc.devRef .tc main_arg1)) (X (Proc.devRef .tc main_arg2)) (mulf (aggN (X (Proc.devRef .tc main_v9)) (X (Proc.devRef .tc main_arg1)) (X (Proc.devRef .tc main_arg2)) (mulf (X (Proc.devRef .tc main_v40)) (normMat (X (Proc.devRef .tc main_v9))))) (normMat (X (Proc.devRef .tc main_v9)))) := by
  have hW := writesB (F := F)
  have k_main_arg2 := after_keep hW X (r := main_arg2) (by decide)
  have k_main_v9 := after_keep hW X (r := main_v9) (by decide)
  have k_main_arg1 := after_keep hW X (r := main_arg1) (by decide)
  have e_main_v55 := ssa_unary hW X 17 rfl (by decide) (by decide)
  have e_main_v56 := ssa_binary hW X 18 rfl (by decide) (by decide) (by decide)
  have e_main_c_12 := ssa_nullary hW X 19 rfl (by decide)
  have e_main_v57 := ssa_unary hW X 20 rfl (by decide) (by decide)
  have e_main_v58 := ssa_binary hW X 21 rfl (by decide) (by decide) (by decide)
  have e_main_c_13 := ssa_nullary hW X 22 rfl (by decide)
  have e_main_v59 := ssa_unary hW X 23 rfl (by decide) (by decide)
  have e_main_v60 := ssa_binary hW X 24 rfl (by decide) (by decide) (by decide)
  have e_main_v61 := ssa_ternary hW X 25 rfl (by decide) (by decide) (by decide) (by decide)
  have e_main_v62 := ssa_unary hW X 26 rfl (by decide) (by decide)
  have e_main_v63 := ssa_binary hW X 27 rfl (by decide) (by decide) (by decide)
  have e_main_cst_14 := ssa_nullary hW X 28 rfl (by decide)
  have e_main_v64 := ssa_unary hW X 29 rfl (by decide) (by decide)
  have e_main_v65 := ssa_unary hW X 30 rfl (by decide) (by decide)
  have e_main_v66 := ssa_ternary hW X 31 rfl (by decide) (by decide) (by decide) (by decide)
  have e_main_v67 := ssa_unary hW X 32 rfl (by decide) (by decide)
  have e_main_v68 := ssa_binary hW X 33 rfl (by decide) (by decide) (by decide)
  rw [e_main_v68, e_main_v67, e_main_v66, e_main_v65, e_main_v64, e_main_cst_14, e_main_v63, e_main_v62, e_main_v61, e_main_v60, e_main_v59, e_main_c_13, e_main_v58, e_main_v57, e_main_c_12, e_main_v56, e_main_v55, B_v54 X, k_main_arg2, k_main_v9, k_main_arg1]
  rfl

/-- `main_v69` holds the first layer's output beside its two neighbourhood sums. -/
theorem B_v69 (X : Valuation τ sig (Elt F)) :
    after (opsB (F := F)) X (Proc.devRef .tc main_v69) = featsN (X (Proc.devRef .tc main_v9)) (X (Proc.devRef .tc main_arg1)) (X (Proc.devRef .tc main_arg2)) (X (Proc.devRef .tc main_v40)) := by
  have hW := writesB (F := F)
  have k_main_v40 := after_keep hW X (r := main_v40) (by decide)
  have e_main_v69 := ssa_nary3 hW X 34 rfl (by decide) (by decide) (by decide) (by decide)
  rw [e_main_v69, B_v54 X, B_v68 X, k_main_v40]
  rfl

/-- `main_v70` holds the second bias as a row. -/
theorem B_v70 (X : Valuation τ sig (Elt F)) :
    after (opsB (F := F)) X (Proc.devRef .tc main_v70) = rowOf128 (X (Proc.devRef .tc main_arg8)) := by
  have hW := writesB (F := F)
  have k_main_arg8 := after_keep hW X (r := main_arg8) (by decide)
  have e_main_v70 := ssa_reshape hW X 35 rfl (by decide) (by decide)
  rw [e_main_v70, k_main_arg8]
  rfl

/-! ## Before the last region -/

/-- The stretch before the last region. -/
abbrev opsC : List (HloOp τ sig (Elt F)) := hostOps2
/-- The references its operations write, in order. -/
abbrev WC : List (Ref sig .tc) :=
  [main_v72, main_v73, main_v74, main_v75, main_v76, main_v77, main_v78, main_cst_15, main_v79, main_cst_16, main_v80, main_v81, main_v82, main_v83, main_v84]
/-- Every operation of the line writes the one reference listed for it. -/
theorem writesC : WritesAre (opsC (F := F)) WC :=
  .cons rfl (.cons rfl (.cons rfl (.cons rfl (.cons rfl (.cons rfl (.cons rfl (.cons rfl (.cons rfl (.cons rfl (.cons rfl (.cons rfl (.cons rfl (.cons rfl (.cons rfl (.nil)))))))))))))))

/-- After the stretch before the last region, `main_v78` holds the one-hot matrix of the graph numbers. -/
theorem C_v78 (X : Valuation τ sig (Elt F)) :
    after (opsC (F := F)) X (Proc.devRef .tc main_v78) = onehot (X (Proc.devRef .tc main_arg3)) := by
  have hW := writesC (F := F)
  have k_main_arg3 := after_keep hW X (r := main_arg3) (by decide)
  have e_main_v72 := ssa_unary hW X 0 rfl (by decide) (by decide)
  have e_main_v73 := ssa_nullary hW X 1 rfl (by decide)
  have e_main_v74 := ssa_unary hW X 2 rfl (by decide) (by decide)
  have e_main_v75 := ssa_unary hW X 3 rfl (by decide) (by decide)
  have e_main_v76 := ssa_unary hW X 4 rfl (by decide) (by decide)
  have e_main_v77 := ssa_binary hW X 5 rfl (by decide) (by decide) (by decide)
  have e_main_v78 := ssa_unary hW X 6 rfl (by decide) (by decide)
  rw [e_main_v78, e_main_v77, e_main_v76, e_main_v75, e_main_v74, e_main_v73, e_main_v72, k_main_arg3]
  rfl

/-- `main_v83` holds the graphs' sizes as a column. -/
theorem C_v83 (X : Valuation τ sig (Elt F)) :
    after (opsC (F := F)) X (Proc.devRef .tc main_v83) = cntCol (X (Proc.devRef .tc main_arg3)) := by
  have hW := writesC (F := F)
  have k_main_arg3 := after_keep hW X (r := main_arg3) (by decide)
  have e_main_cst_15 := ssa_nullary hW X 7 rfl (by decide)
  have e_main_v79 := ssa_unary hW X 8 rfl (by decide) (by decide)
  have e_main_cst_16 := ssa_nullary hW X 9 rfl (by decide)
  have e_main_v80 := ssa_unary hW X 10 rfl (by decide) (by decide)
  have e_main_v81 := ssa_unary hW X 11 rfl (by decide) (by decide)
  have e_main_v82 := ssa_ternary hW X 12 rfl (by decide) (by decide) (by decide) (by decide)
  have e_main_v83 := ssa_reshape hW X 13 rfl (by decide) (by decide)
  rw [e_main_v83, e_main_v82, e_main_v81, e_main_v80, e_main_cst_16, e_main_v79, e_main_cst_15, k_main_arg3]
  rfl

/-- `main_v84` holds the classifier's bias as a row. -/
theorem C_v84 (X : Valuation τ sig (Elt F)) :
    after (opsC (F := F)) X (Proc.devRef .tc main_v84) = rowOf2 (X (Proc.devRef .tc main_arg10)) := by
  have hW := writesC (F := F)
  have k_main_arg10 := after_keep hW X (r := main_arg10) (by decide)
  have e_main_v84 := ssa_reshape hW X 14 rfl (by decide) (by decide)
  rw [e_main_v84, k_main_arg10]
  rfl

/-! ## The statements the run uses -/

theorem hostA_v9 (X : Valuation τ sig (Elt F)) :
    after hostOps0_2 (after hostOps0_1 (after hostOps0 X)) (Proc.devRef .tc main_v9) = normCol (X (Proc.devRef .tc main_arg2)) :=
  (congrFun (afterA X) _).trans (A_v9 X)

theorem hostA_v38 (X : Valuation τ sig (Elt F)) :
    after hostOps0_2 (after hostOps0_1 (after hostOps0 X)) (Proc.devRef .tc main_v38)
      = featsN (normCol (X (Proc.devRef .tc main_arg2))) (X (Proc.devRef .tc main_arg1)) (X (Proc.devRef .tc main_arg2)) (X (Proc.devRef .tc main_arg0)) :=
  (congrFun (afterA X) _).trans (A_v38 X)

theorem hostA_v39 (X : Valuation τ sig (Elt F)) :
    after hostOps0_2 (after hostOps0_1 (after hostOps0 X)) (Proc.devRef .tc main_v39) = rowOf128 (X (Proc.devRef .tc main_arg6)) :=
  (congrFun (afterA X) _).trans (A_v39 X)

theorem hostB_v69 (X : Valuation τ sig (Elt F)) :
    after hostOps1 X (Proc.devRef .tc main_v69)
      = featsN (X (Proc.devRef .tc main_v9)) (X (Proc.devRef .tc main_arg1)) (X (Proc.devRef .tc main_arg2)) (X (Proc.devRef .tc main_v40)) := B_v69 X

theorem hostB_v70 (X : Valuation τ sig (Elt F)) :
    after hostOps1 X (Proc.devRef .tc main_v70) = rowOf128 (X (Proc.devRef .tc main_arg8)) := B_v70 X

theorem hostC_v78 (X : Valuation τ sig (Elt F)) :
    after hostOps2 X (Proc.devRef .tc main_v78) = onehot (X (Proc.devRef .tc main_arg3)) := C_v78 X

theorem hostC_v83 (X : Valuation τ sig (Elt F)) :
    after hostOps2 X (Proc.devRef .tc main_v83) = cntCol (X (Proc.devRef .tc main_arg3)) := C_v83 X

theorem hostC_v84 (X : Valuation τ sig (Elt F)) :
    after hostOps2 X (Proc.devRef .tc main_v84) = rowOf2 (X (Proc.devRef .tc main_arg10)) := C_v84 X

end Cert.KernelIdeal.Hand
-- ==== Proof.RefLink.lean ====
/-
  The reference's host stages and the kernel program's host functions are the same compositions. Both programs compute
  the normalising column of the graph and, from it, a feature matrix beside its first and second normalised
  neighbourhood sums; the two printed texts name their shapes and dimension records apart, with equal contents. Here the
  kernel side's functions (the normalising column, the spread column, the wrapped gather indices, one neighbourhood sum,
  the three blocks side by side) are identified, stage by stage, with the reference's stages, for any float values.
-/
import proofs.«405254_j42863773614471_1_alg».proof.Proof.RefRead
import proofs.«405254_j42863773614471_1_alg».proof.Proof.KI.Chain

noncomputable section

namespace Cert.KernelIdeal.Hand

open Idealize.ShloMosaic Idealize.ShloMosaic.TcCoe Idealize.SL.Sem
open Cert.ReferenceIdeal.ReadP

variable {F : FTy → Type} [FloatOps F] [Cert.KernelIdeal.Facts₀]

/-! ## The dimension records of the two printed programs agree -/

theorem scatter_deg_eq :
    Cert.ReferenceIdeal.scatter_S50000_S600000x1_S600000_n_0_0_1 = Cert.KernelIdeal.scatter_S50000_S600000x1_S600000_n_0_0_1 := rfl
theorem scatter_rows_eq :
    Cert.ReferenceIdeal.scatter_S50000x128_S600000x1_S600000x128_1_0_0_1 = Cert.KernelIdeal.scatter_S50000x128_S600000x1_S600000x128_1_0_0_1 := rfl
theorem gather_rows_eq :
    Cert.ReferenceIdeal.gather_S50000x128_S600000x1_S600000x128_1_0_n_n_0_1_1128 = Cert.KernelIdeal.gather_S50000x128_S600000x1_S600000x128_1_0_n_n_0_1_1128 := rfl

/-! ## The normalising column -/

/-- The in-degree is the reference's scatter of ones. -/
theorem degIn_eq (x2 : CI F S600000) : degIn x2 = val_main_v3 x2 := by
  unfold degIn val_main_v3 val_main_v1 val_main_v2 val_main_v0 val_main_cst_0 val_main_cst
  rw [scatter_deg_eq]

/-- The floored in-degree is the reference's selection. -/
theorem degFloor_eq (x2 : CI F S600000) : degFloor x2 = val_main_v6 x2 := by
  unfold degFloor val_main_v6 val_main_v5 val_main_v4 val_main_call0_v1 val_main_call0_v0 val_main_cst_2 val_main_cst_1
  rw [degIn_eq]

/-- The normalising column is the reference's power. -/
theorem normCol_eq (x2 : CI F S600000) : normCol x2 = val_main_v9 x2 := by
  unfold normCol val_main_v9 val_main_v7 val_main_v8 val_main_cst_3
  rw [degFloor_eq]

/-! ## One neighbourhood sum, at the reference's four uses -/

/-- The first sum, of the scaled features. -/
theorem agg_v23 (x0 : CF F S50000x128) (x1 x2 : CI F S600000) :
    aggN (normCol x2) x1 x2 (mulf x0 (normMat (normCol x2))) = val_main_v23 x0 x1 x2 := by
  unfold aggN normMat wrapIdx val_main_v23 val_main_v22 val_main_v21 val_main_v20 val_main_v19 val_main_cst_5 val_main_v18
    val_main_v17 val_main_v16 val_main_v15 val_main_v14 val_main_c_4 val_main_v13 val_main_v12 val_main_c val_main_v11 val_main_v10
  rw [normCol_eq, scatter_rows_eq, gather_rows_eq]

/-- The second sum, of the scaled first sum. -/
theorem agg_v37 (x0 : CF F S50000x128) (x1 x2 : CI F S600000) :
    aggN (normCol x2) x1 x2 (mulf (val_main_v23 x0 x1 x2) (normMat (normCol x2))) = val_main_v37 x0 x1 x2 := by
  unfold aggN normMat wrapIdx val_main_v37 val_main_v36 val_main_v35 val_main_v34 val_main_v33 val_main_cst_8 val_main_v32
    val_main_v31 val_main_v30 val_main_v29 val_main_v28 val_main_c_7 val_main_v27 val_main_v26 val_main_c_6 val_main_v25 val_main_v24
  rw [normCol_eq, scatter_rows_eq, gather_rows_eq]

/-- The first sum of the second layer, of the scaled first layer's output. -/
theorem agg_v57 (x0 : CF F S50000x128) (x1 x2 : CI F S600000) (x5 : CF F S384x128) (x6 : CF F S128) :
    aggN (normCol x2) x1 x2 (mulf (val_main_v43 x0 x1 x2 x5 x6) (normMat (normCol x2))) = val_main_v57 x0 x1 x2 x5 x6 := by
  unfold aggN normMat wrapIdx val_main_v57 val_main_v56 val_main_v55 val_main_v54 val_main_v53 val_main_cst_11 val_main_v52
    val_main_v51 val_main_v50 val_main_v49 val_main_v48 val_main_c_10 val_main_v47 val_main_v46 val_main_c_9 val_main_v45 val_main_v44
  generalize val_main_v43 x0 x1 x2 x5 x6 = h
  rw [normCol_eq, scatter_rows_eq, gather_rows_eq]

/-- The second sum of the second layer. -/
theorem agg_v71 (x0 : CF F S50000x128) (x1 x2 : CI F S600000) (x5 : CF F S384x128) (x6 : CF F S128) :
    aggN (normCol x2) x1 x2 (mulf (val_main_v57 x0 x1 x2 x5 x6) (normMat (normCol x2))) = val_main_v71 x0 x1 x2 x5 x6 := by
  unfold aggN normMat wrapIdx val_main_v71 val_main_v70 val_main_v69 val_main_v68 val_main_v67 val_main_cst_14 val_main_v66
    val_main_v65 val_main_v64 val_main_v63 val_main_v62 val_main_c_13 val_main_v61 val_main_v60 val_main_c_12 val_main_v59 val_main_v58
  generalize val_main_v57 x0 x1 x2 x5 x6 = h
  rw [normCol_eq, scatter_rows_eq, gather_rows_eq]

/-! ## The three blocks side by side -/

/-- The first layer's input: the features beside their two neighbourhood sums, as the reference joins them. -/
theorem link_v38 (x0 : CF F S50000x128) (x1 x2 : CI F S600000) :
    featsN (normCol x2) x1 x2 x0 = val_main_v38 x0 x1 x2 := by
  unfold featsN val_main_v38
  rw [agg_v23, agg_v37]

/-- The second layer's input: the first layer's output beside its two neighbourhood sums, as the reference joins them. -/
theorem link_v72 (x0 : CF F S50000x128) (x1 x2 : CI F S600000) (x5 : CF F S384x128) (x6 : CF F S128) :
    featsN (normCol x2) x1 x2 (val_main_v43 x0 x1 x2 x5 x6) = val_main_v72 x0 x1 x2 x5 x6 := by
  unfold featsN val_main_v72
  rw [agg_v57, agg_v71]

end Cert.KernelIdeal.Hand

end
-- ==== Proof.KI.DensePay.lean ====
import proofs.«405254_j42863773614471_1_alg».proof.Proof.Gen.KernelIdeal.Skeleton
import Idealize.ShloMosaic.Lib.Pipeline.Value
import Idealize.ShloMosaic.Lib.ValueIdx
import Idealize.ShloMosaic.PureOps.Ideal.Laws

/-!
# The two dense layers' arithmetic at one entry

Each dense layer multiplies a tile of 2000 rows of 384 features by a weight matrix of 384 × 128,
adds the bias row to every row of the product, and (first layer only) takes the maximum with zero.
Over the extended reals a change of float format is the identity and a product accumulated into a
zero matrix is the plain sum over the contracted axis, so the entry in row p and column q of the
result is  max (∑ k, x p k * w k q + b 0 q) 0  for the first layer and the same without the maximum
for the second.
-/

noncomputable section

namespace Cert.KernelIdeal.Hand

open Cert.KernelIdeal Cert.KernelIdeal.Gen Idealize.ShloMosaic Idealize.ShloMosaic.ValueIdx Idealize.SL.Sem

/-! ## The operand indices of the tile product -/

/-- The left operand's row is the output's row. -/
theorem lhs_dense_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
/-- The left operand's column is the contracted coordinate. -/
theorem lhs_dense_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
/-- The right operand's row is the contracted coordinate. -/
theorem rhs_dense_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
/-- The right operand's column is the output's column. -/
theorem rhs_dense_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The tile product into a zero matrix, at row p and column q: the sum over the 384 features. -/
theorem dense_matmul_apply (x : FVec Ideal S2000x384 .bf16) (w : FVec Ideal S384x128 .bf16) (p : Fin 2000) (q : Fin 128) :
    matmul dot_S2000x384_S384x128_S2000x128_1_0_0_1_n_n none x w (constant S2000x128 .f32 0x00000000#32) (ix2 p q)
      = ∑ k : Fin 384, x (ix2 p k) * w (ix2 k q) := by
  simp only [matmul]
  rw [Ideal.matmul_constant_zero_apply, ← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx (ix2 p q) ((ValueIdx.contrEquiv1 dot_S2000x384_S384x128_S2000x128_1_0_0_1_n_n 384 rfl rfl).symm k) = ix2 p k := funext fun a => Fin.ext (by
    match a with
    | ⟨0, _⟩ => exact lhs_dense_0 _ _
    | ⟨1, _⟩ => exact (lhs_dense_1 _ _).trans hk)
  have er : dot_S2000x384_S384x128_S2000x128_1_0_0_1_n_n.rhsIdx (ix2 p q) ((ValueIdx.contrEquiv1 dot_S2000x384_S384x128_S2000x128_1_0_0_1_n_n 384 rfl rfl).symm k) = ix2 k q := funext fun a => Fin.ext (by
    match a with
    | ⟨0, _⟩ => exact (rhs_dense_0 _ _).trans hk
    | ⟨1, _⟩ => exact rhs_dense_1 _ _)
  rw [el, er]

/-- The bias row spread over the tile's rows, at row p and column q: the bias of column q. -/
theorem dense_bias_apply (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The two layers at an entry -/

/-- First layer: the sum over the features plus the bias, cut below at zero. -/
theorem k0_pay1_apply (x : Vec Ideal S2000x384 .f32) (w : Vec Ideal S384x128 .f32) (b : Vec Ideal S1x128 .f32) (p : Fin 2000) (q : Fin 128) :
    (k0_pay1 (F := Ideal) x w b) (ix2 p q) = max ((∑ k : Fin 384, x (ix2 p k) * w (ix2 k q)) + b (ix2 0 q)) 0 := by
  unfold k0_pay1
  rw [shapeCast_self, shapeCast_self]
  refine (maximumf_apply _ _ _).trans ?_
  rw [addf_apply, dense_matmul_apply, dense_bias_apply, broadcast_apply]
  exact congrArg (max ((∑ k : Fin 384, x (ix2 p k) * w (ix2 k q)) + b (ix2 0 q))) Ideal.ofBits_zero_f32

/-- Second layer: the sum over the features plus the bias. -/
theorem k1_pay1_apply (x : Vec Ideal S2000x384 .f32) (w : Vec Ideal S384x128 .f32) (b : Vec Ideal S1x128 .f32) (p : Fin 2000) (q : Fin 128) :
    (k1_pay1 (F := Ideal) x w b) (ix2 p q) = (∑ k : Fin 384, x (ix2 p k) * w (ix2 k q)) + b (ix2 0 q) := by
  unfold k1_pay1
  rw [shapeCast_self, shapeCast_self]
  refine (addf_apply _ _ _).trans ?_
  rw [dense_matmul_apply, dense_bias_apply]
  rfl

end Cert.KernelIdeal.Hand
-- ==== Proof.KI.Val01.lean ====
/-
  The values of the two dense layers at the extended reals. Each of the two regions tiles its 50000 rows into 25 blocks
  of 2000 rows; at a grid point the body multiplies the tile of 384 features by the whole 384 × 128 weight matrix, adds
  the bias row (the first layer then cuts below at zero) and writes the tile of the result. Entry by entry that is the
  reference's dense layer: the sum over the 384 features of feature times weight, plus the bias of the column. A block's
  coordinate is its block index times its size plus the coordinate inside the block, the block index of a row tile at
  point t is (t, 0) and that of a whole-array window (0, 0), so row p of tile t is row 2000 t + p of the array; the 25
  tiles cover the result, row r lying in tile r / 2000. Hence after a region its result array is the reference's layer,
  given that the region found the reference's feature matrix, the weights and the bias row in its input arrays.
-/
import proofs.«405254_j42863773614471_1_alg».proof.Proof.KI.DensePay
import proofs.«405254_j42863773614471_1_alg».proof.Proof.KI.Chain
import proofs.«405254_j42863773614471_1_alg».proof.Proof.KI.Reg0
import proofs.«405254_j42863773614471_1_alg».proof.Proof.KI.Reg1
import proofs.«405254_j42863773614471_1_alg».proof.Proof.RefRead
import Idealize.ShloMosaic.Lib.Pipeline.Value
import Idealize.ShloMosaic.Lib.ValueIdx
import Idealize.ShloMosaic.PureOps.Ideal.Laws

-- membership in a rectangle of long extents: the elaborator's structural look recurses once per coordinate
set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Cert.ReferenceIdeal.ReadP

-- the TensorCore's buffer contents when a region is entered, at the extended reals
variable (V : (c : Dev nD) → (b : Ref sig .tc) → Buf (Elt Ideal) ((c : Thread nD τ).loc b))

/-- The bias as a matrix of one row, at column q: the bias's entry q (a reshape keeps the row-major position). -/
theorem rowOf128_apply (b : CF Ideal S128) (q : Fin 128) : rowOf128 b (ix2 (0 : Fin 1) q) = b (ix1 q) := by
  unfold rowOf128
  refine shapeCast_apply b _ (ix2 (0 : Fin 1) q) (ix1 q) ?_
  rw [Shape.rowMajor_val_one, Shape.rowMajor_val_two]
  show q.val = (0 : Nat) * 128 + q.val
  omega

/-! ## The first dense layer (with the rectifier)

The grid has 25 points; point t reads rows 2000 t … 2000 t + 1999 of the 50000 × 384 feature matrix, the whole weight
matrix and the whole bias row, and writes rows 2000 t … 2000 t + 1999 of the 50000 × 128 result. -/

/-- The block index of each window at each point: the row-tile windows are at block (t, 0), the whole-array windows at
    block (0, 0). Decided over the 25 points. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of the first layer's tile is the reference's entry, once the tile's row of features, the weights' column
    and the bias's entry are the reference's operands at that entry: both sides are
    max (∑ k, features * weights + bias) 0. -/
theorem dense0_point (xb : Vec Ideal S2000x384 .f32) (wb : Vec Ideal S384x128 .f32) (bb : Vec Ideal S1x128 .f32)
    (x0 : CF Ideal S50000x128) (x1 x2 : CI Ideal S600000) (x5 : CF Ideal S384x128) (x6 : CF Ideal S128)
    (i : S50000x128.Idx) (p : Fin 2000) (q : Fin 128)
    (hx : ∀ k : Fin 384, xb (ix2 p k) = val_main_v38 (F := Ideal) x0 x1 x2 (lidx_main_v39 i k))
    (hw : ∀ k : Fin 384, wb (ix2 k q) = x5 (ridx_main_v39 i k))
    (hb : bb (ix2 (0 : Fin 1) q) = x6 (idx_main_v40 (idx_main_v41 i))) :
    k0_pay1 (F := Ideal) xb wb bb (ix2 p q) = val_main_v43 (F := Ideal) x0 x1 x2 x5 x6 i := by
  refine (k0_pay1_apply xb wb bb p q).trans ?_
  rw [val_main_v43_apply, val_main_v42_apply, val_main_v39_apply, val_main_v41_apply, val_main_v40_apply,
    val_main_call1_v0_apply, val_main_call1_cst_apply]
  simp only [hx, hw, hb]
  exact (congrArg (max _) Ideal.ofBits_zero_f32).symm

/-- What point t writes back is block t of the reference's rectified dense layer: a block's coordinate is its index
    times its size plus the coordinate inside the block, so the tile's row p is row 2000 t + p of the features and of
    the result, and the weights and the bias are read whole. -/
theorem flushed0_eq (c : Dev nD) (x0 : CF Ideal S50000x128) (x1 x2 : CI Ideal S600000) (x5 : CF Ideal S384x128) (x6 : CF Ideal S128)
    (h38 : V c main_v38 = val_main_v38 (F := Ideal) x0 x1 x2) (h5 : V c main_arg5 = x5) (h39 : V c main_v39 = rowOf128 x6) (t : Fin cfg0.N) :
    (dat0 V c).flushed 3 t = ((cfg0.win 3).blk t).view.read (Elt Ideal) (val_main_v43 (F := Ideal) x0 x1 x2 x5 x6) := by
  show (cfg0.win 3).cut (grid0.coords t) ((dat0 V c).after 3 t) = _
  rw [after0_3, out0_3_eq]
  obtain ⟨e00, e01, e10, e11, e20, e21, e30, e31⟩ := idx_facts0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = val_main_v43 (F := Ideal) x0 x1 x2 x5 x6 (((cfg0.win 3).blk t).view.emb (ix2 p q))
  refine dense0_point (iblk0 V c 0 t) (iblk0 V c 1 t) (iblk0 V c 2 t) x0 x1 x2 x5 x6 (((cfg0.win 3).blk t).view.emb (ix2 p q)) p q ?_ ?_ ?_
  · intro k
    show V c main_v38 (((cfg0.win 0).blk t).view.emb (ix2 p k)) = _
    rw [h38]
    refine congrArg _ (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 384 + 1 * k.val = k.val; omega
  · intro k
    show V c main_arg5 (((cfg0.win 1).blk t).view.emb (ix2 k q)) = _
    rw [h5]
    refine congrArg _ (funext fun a => Fin.ext ?_)
    match a with
    | ⟨0, _⟩ => show win0_1.index t (0 : Fin 2) * 384 + 1 * k.val = k.val; omega
    | ⟨1, _⟩ => show win0_1.index t (1 : Fin 2) * 128 + 1 * q.val = win0_3.index t (1 : Fin 2) * 128 + 1 * q.val; omega
  · show V c main_v39 (((cfg0.win 2).blk t).view.emb (ix2 (0 : Fin 1) q)) = _
    rw [h39]
    have hemb : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 128 + 1 * q.val = q.val; omega
    rw [hemb, rowOf128_apply]
    refine congrArg _ (funext fun a => Fin.ext ?_)
    match a with
    | ⟨0, _⟩ => show q.val = win0_3.index t (1 : Fin 2) * 128 + 1 * q.val; omega

/-- An entry of the result is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v40).slice (win0_3.rect t)).set ↔ _
  rw [View.set_slice_whole, Rect.mem_set_unit]
  exact Iff.rfl

/-- The 25 row tiles cover the result: row r is in the block of point r / 2000, which is written back. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 2000 < grid0.N := Nat.lt_of_lt_of_eq (by omega) N_0.symm
  obtain ⟨-, -, -, -, -, -, e30, e31⟩ := idx_facts0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    have e : win0_3.index ⟨(i 0).val / 2000, ht⟩ (0 : Fin 2) = (i 0).val / 2000 := e30
    omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    omega

/-- After the first region the result array holds the reference's rectified dense layer. -/
theorem arr0_eq (c : Dev nD) (x0 : CF Ideal S50000x128) (x1 x2 : CI Ideal S600000) (x5 : CF Ideal S384x128) (x6 : CF Ideal S128)
    (h38 : V c main_v38 = val_main_v38 (F := Ideal) x0 x1 x2) (h5 : V c main_arg5 = x5) (h39 : V c main_v39 = rowOf128 x6) :
    (dat0 V c).arrAt 3 cfg0.N = val_main_v43 (F := Ideal) x0 x1 x2 x5 x6 :=
  (dat0 V c).arrAt_eq_of_cover 3 (val_main_v43 (F := Ideal) x0 x1 x2 x5 x6)
    (fun t _ => flushed0_eq V c x0 x1 x2 x5 x6 h38 h5 h39 t) cover0

/-! ## The second dense layer (no rectifier)

The same tiling: point t reads rows 2000 t … 2000 t + 1999 of the second 50000 × 384 feature matrix, the second weight
matrix and bias row whole, and writes rows 2000 t … 2000 t + 1999 of the 50000 × 128 result. -/

/-- The block index of each window at each point, decided over the 25 points. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the second layer's tile is the reference's entry: both sides are ∑ k, features * weights + bias. -/
theorem dense1_point (xb : Vec Ideal S2000x384 .f32) (wb : Vec Ideal S384x128 .f32) (bb : Vec Ideal S1x128 .f32)
    (x0 : CF Ideal S50000x128) (x1 x2 : CI Ideal S600000) (x5 : CF Ideal S384x128) (x6 : CF Ideal S128)
    (x7 : CF Ideal S384x128) (x8 : CF Ideal S128)
    (i : S50000x128.Idx) (p : Fin 2000) (q : Fin 128)
    (hx : ∀ k : Fin 384, xb (ix2 p k) = val_main_v72 (F := Ideal) x0 x1 x2 x5 x6 (lidx_main_v73 i k))
    (hw : ∀ k : Fin 384, wb (ix2 k q) = x7 (ridx_main_v73 i k))
    (hb : bb (ix2 (0 : Fin 1) q) = x8 (idx_main_v74 (idx_main_v75 i))) :
    k1_pay1 (F := Ideal) xb wb bb (ix2 p q) = val_main_v76 (F := Ideal) x0 x1 x2 x5 x6 x7 x8 i := by
  refine (k1_pay1_apply xb wb bb p q).trans ?_
  rw [val_main_v76_apply, val_main_v73_apply, val_main_v75_apply, val_main_v74_apply]
  simp only [hx, hw, hb]
  rfl

/-- What point t writes back is block t of the reference's second dense layer. -/
theorem flushed1_eq (c : Dev nD) (x0 : CF Ideal S50000x128) (x1 x2 : CI Ideal S600000) (x5 : CF Ideal S384x128) (x6 : CF Ideal S128)
    (x7 : CF Ideal S384x128) (x8 : CF Ideal S128)
    (h69 : V c main_v69 = val_main_v72 (F := Ideal) x0 x1 x2 x5 x6) (h7 : V c main_arg7 = x7) (h70 : V c main_v70 = rowOf128 x8) (t : Fin cfg1.N) :
    (dat1 V c).flushed 3 t = ((cfg1.win 3).blk t).view.read (Elt Ideal) (val_main_v76 (F := Ideal) x0 x1 x2 x5 x6 x7 x8) := by
  show (cfg1.win 3).cut (grid1.coords t) ((dat1 V c).after 3 t) = _
  rw [after1_3, out1_3_eq]
  obtain ⟨e00, e01, e10, e11, e20, e21, e30, e31⟩ := idx_facts1 t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (ix2 p q)
    = val_main_v76 (F := Ideal) x0 x1 x2 x5 x6 x7 x8 (((cfg1.win 3).blk t).view.emb (ix2 p q))
  refine dense1_point (iblk1 V c 0 t) (iblk1 V c 1 t) (iblk1 V c 2 t) x0 x1 x2 x5 x6 x7 x8 (((cfg1.win 3).blk t).view.emb (ix2 p q)) p q ?_ ?_ ?_
  · intro k
    show V c main_v69 (((cfg1.win 0).blk t).view.emb (ix2 p k)) = _
    rw [h69]
    refine congrArg _ (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 384 + 1 * k.val = k.val; omega
  · intro k
    show V c main_arg7 (((cfg1.win 1).blk t).view.emb (ix2 k q)) = _
    rw [h7]
    refine congrArg _ (funext fun a => Fin.ext ?_)
    match a with
    | ⟨0, _⟩ => show win1_1.index t (0 : Fin 2) * 384 + 1 * k.val = k.val; omega
    | ⟨1, _⟩ => show win1_1.index t (1 : Fin 2) * 128 + 1 * q.val = win1_3.index t (1 : Fin 2) * 128 + 1 * q.val; omega
  · show V c main_v70 (((cfg1.win 2).blk t).view.emb (ix2 (0 : Fin 1) q)) = _
    rw [h70]
    have hemb : ((cfg1.win 2).blk t).view.emb (ix2 (0 : Fin 1) q) = ix2 (0 : Fin 1) q := by
      funext a; apply Fin.ext
      match a with
      | ⟨0, _⟩ => show win1_2.index t (0 : Fin 2) * 1 + 1 * 0 = 0; omega
      | ⟨1, _⟩ => show win1_2.index t (1 : Fin 2) * 128 + 1 * q.val = q.val; omega
    rw [hemb, rowOf128_apply]
    refine congrArg _ (funext fun a => Fin.ext ?_)
    match a with
    | ⟨0, _⟩ => show q.val = win1_3.index t (1 : Fin 2) * 128 + 1 * q.val; omega

/-- An entry of the result is in point t's block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v71).slice (win1_3.rect t)).set ↔ _
  rw [View.set_slice_whole, Rect.mem_set_unit]
  exact Iff.rfl

/-- The 25 row tiles cover the result: row r is in the block of point r / 2000, which is written back. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 2000 < grid1.N := Nat.lt_of_lt_of_eq (by omega) N_1.symm
  obtain ⟨-, -, -, -, -, -, e30, e31⟩ := idx_facts1 ⟨(i 0).val / 2000, ht⟩
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    have e : win1_3.index ⟨(i 0).val / 2000, ht⟩ (0 : Fin 2) = (i 0).val / 2000 := e30
    omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    omega

/-- After the second region the result array holds the reference's second dense layer. -/
theorem arr1_eq (c : Dev nD) (x0 : CF Ideal S50000x128) (x1 x2 : CI Ideal S600000) (x5 : CF Ideal S384x128) (x6 : CF Ideal S128)
    (x7 : CF Ideal S384x128) (x8 : CF Ideal S128)
    (h69 : V c main_v69 = val_main_v72 (F := Ideal) x0 x1 x2 x5 x6) (h7 : V c main_arg7 = x7) (h70 : V c main_v70 = rowOf128 x8) :
    (dat1 V c).arrAt 3 cfg1.N = val_main_v76 (F := Ideal) x0 x1 x2 x5 x6 x7 x8 :=
  (dat1 V c).arrAt_eq_of_cover 3 (val_main_v76 (F := Ideal) x0 x1 x2 x5 x6 x7 x8)
    (fun t _ => flushed1_eq V c x0 x1 x2 x5 x6 x7 x8 h69 h7 h70 t) cover1

end Cert.KernelIdeal.Hand

end
-- ==== Proof.KI.PoolPay.lean ====
/-
  The pooling and classifying step's three payloads read at an index over the extended reals, and the algebra
  that turns their composition over the 25 row tiles into a mean pool followed by an affine map.

  The step keeps, per graph b and feature d, a running sum. It starts from zero; each tile of 2000 rows adds
  the sum over the tile's rows p of indicator(p, b) * x(p, d) (a product contracting the row axis of both operands
  into a zero accumulator); after the last tile the result at (b, j) is the sum over the 128 features k of
  (running sum (b, k) / max (count b) 1) * w(k, j), plus the sum over the 32 permutation features k of
  perm(b, k) * w(128 + k, j), plus the bias at j. Over the extended reals the format changes are the identity
  and addition is a commutative monoid, so: a running sum started at zero is the sum of its terms; the sum of
  25 tile sums of 2000 rows each is the sum over all 50000 rows; a term weighted by an indicator is the term where
  the indicator holds and zero elsewhere (0 * x = 0 and 1 * x = x, no distributivity); and a sum over 160 joined
  columns splits as the first 128 plus the last 32.
-/
import proofs.«405254_j42863773614471_1_alg».proof.Proof.Gen.KernelIdeal.Skeleton
import Idealize.ShloMosaic.Lib.Pipeline.Value
import Idealize.ShloMosaic.Lib.ValueIdx
import Idealize.ShloMosaic.Lib.ValueIdxCoords
import Idealize.ShloMosaic.PureOps.Ideal.Laws
import Mathlib.Algebra.BigOperators.Fin
import Mathlib.Logic.Equiv.Fin.Basic

set_option synthInstance.maxSize 4096

noncomputable section

namespace Cert.KernelIdeal.Hand

open Cert.KernelIdeal Cert.KernelIdeal.Gen Idealize.ShloMosaic Idealize.ShloMosaic.ValueIdx Idealize.SL.Sem
open scoped BigOperators

/-! ## The reset value and one tile's step -/

/-- The zero splat the scratch is reset to. -/
theorem k2_pay1_eq : k2_pay1 (F := Ideal) = fun _ => (0 : EReal) := by
  funext i
  unfold k2_pay1
  rw [shapeCast_self]
  show Ideal.ofBits .f32 0x00000000#32 = 0
  exact Ideal.ofBits_zero_f32

theorem lhs_pay2_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
theorem lhs_pay2_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_pay2_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
theorem rhs_pay2_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- One tile's step: the carried sums plus, per graph and feature, the tile's rows weighted by the indicator. -/
theorem k2_pay2_apply (oh : Vec Ideal S2000x64 .f32) (x : Vec Ideal S2000x128 .f32) (acc : Vec Ideal S64x128 .f32)
    (b : Fin 64) (d : Fin 128) :
    k2_pay2 (F := Ideal) oh x acc (ix2 b d) = acc (ix2 b d) + ∑ p : Fin 2000, oh (ix2 p b) * x (ix2 p d) := by
  unfold k2_pay2
  rw [shapeCast_self, shapeCast_self, shapeCast_self]
  rw [ValueIdx.addf_apply]
  simp only [matmul]
  rw [Ideal.matmul_constant_zero_apply, ← Equiv.sum_comp (ValueIdx.contrEquiv1 dot_S2000x64_S2000x128_S64x128_0_0_1_1_n_n 2000 rfl rfl).symm]
  refine congrArg (acc (ix2 b d) + ·) (Finset.sum_congr rfl fun k _ => ?_)
  have hk := ValueIdx.contrEquiv1_symm_val dot_S2000x64_S2000x128_S64x128_0_0_1_1_n_n 2000 rfl rfl k
  have el : dot_S2000x64_S2000x128_S64x128_0_0_1_1_n_n.lhsIdx (ix2 b d) ((ValueIdx.contrEquiv1 dot_S2000x64_S2000x128_S64x128_0_0_1_1_n_n 2000 rfl rfl).symm k) = ix2 k b := funext fun a => Fin.ext (by
    match a with
    | ⟨0, _⟩ => exact (lhs_pay2_0 _ _).trans hk
    | ⟨1, _⟩ => exact lhs_pay2_1 _ _)
  have er : dot_S2000x64_S2000x128_S64x128_0_0_1_1_n_n.rhsIdx (ix2 b d) ((ValueIdx.contrEquiv1 dot_S2000x64_S2000x128_S64x128_0_0_1_1_n_n 2000 rfl rfl).symm k) = ix2 k d := funext fun a => Fin.ext (by
    match a with
    | ⟨0, _⟩ => exact (rhs_pay2_0 _ _).trans hk
    | ⟨1, _⟩ => exact rhs_pay2_1 _ _)
  rw [el, er]
  rfl

/-! ## The last point's output -/

theorem lhs_pay3a_0 (i : S64x2.Idx) (q : dot_S64x128_S128x2_S64x2_1_0_0_1_n_n.contr.Idx) :
    (dot_S64x128_S128x2_S64x2_1_0_0_1_n_n.lhsIdx i q 0).val = (i 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl
theorem lhs_pay3a_1 (i : S64x2.Idx) (q : dot_S64x128_S128x2_S64x2_1_0_0_1_n_n.contr.Idx) :
    (dot_S64x128_S128x2_S64x2_1_0_0_1_n_n.lhsIdx i q 1).val = (q ⟨0, by decide⟩).val :=
  dot_S64x128_S128x2_S64x2_1_0_0_1_n_n.lhsIdx_val_of_single rfl i q
theorem rhs_pay3a_0 (i : S64x2.Idx) (q : dot_S64x128_S128x2_S64x2_1_0_0_1_n_n.contr.Idx) :
    (dot_S64x128_S128x2_S64x2_1_0_0_1_n_n.rhsIdx i q 0).val = (q ⟨0, by decide⟩).val :=
  dot_S64x128_S128x2_S64x2_1_0_0_1_n_n.rhsIdx_val_of_single rfl i q
theorem rhs_pay3a_1 (i : S64x2.Idx) (q : dot_S64x128_S128x2_S64x2_1_0_0_1_n_n.contr.Idx) :
    (dot_S64x128_S128x2_S64x2_1_0_0_1_n_n.rhsIdx i q 1).val = (i 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

/-- The pooled rows against the first 128 rows of the classifier's weights, into a zero accumulator. -/
theorem matmul_pay3a (l : FVec Ideal S64x128 .bf16) (r : FVec Ideal S128x2 .bf16) (b : Fin 64) (j : Fin 2) :
    FloatOps.matmul dot_S64x128_S128x2_S64x2_1_0_0_1_n_n none l r (constant S64x2 .f32 0x00000000#32) (ix2 b j)
      = ∑ k : Fin 128, l (ix2 b k) * r (ix2 k j) := by
  rw [Ideal.matmul_constant_zero_apply, ← Equiv.sum_comp (ValueIdx.contrEquiv1 dot_S64x128_S128x2_S64x2_1_0_0_1_n_n 128 rfl rfl).symm]
  refine Finset.sum_congr rfl fun k _ => ?_
  have hk := ValueIdx.contrEquiv1_symm_val dot_S64x128_S128x2_S64x2_1_0_0_1_n_n 128 rfl rfl k
  have el : dot_S64x128_S128x2_S64x2_1_0_0_1_n_n.lhsIdx (ix2 b j) ((ValueIdx.contrEquiv1 dot_S64x128_S128x2_S64x2_1_0_0_1_n_n 128 rfl rfl).symm k) = ix2 b k := funext fun a => Fin.ext (by
    match a with
    | ⟨0, _⟩ => exact lhs_pay3a_0 _ _
    | ⟨1, _⟩ => exact (lhs_pay3a_1 _ _).trans hk)
  have er : dot_S64x128_S128x2_S64x2_1_0_0_1_n_n.rhsIdx (ix2 b j) ((ValueIdx.contrEquiv1 dot_S64x128_S128x2_S64x2_1_0_0_1_n_n 128 rfl rfl).symm k) = ix2 k j := funext fun a => Fin.ext (by
    match a with
    | ⟨0, _⟩ => exact (rhs_pay3a_0 _ _).trans hk
    | ⟨1, _⟩ => exact rhs_pay3a_1 _ _)
  rw [el, er]

theorem lhs_pay3b_0 (i : S64x2.Idx) (q : dot_S64x32_S32x2_S64x2_1_0_0_1_n_n.contr.Idx) :
    (dot_S64x32_S32x2_S64x2_1_0_0_1_n_n.lhsIdx i q 0).val = (i 0).val := by
  unfold DotDims.lhsIdx
  rw [dif_neg (show ¬(0 : Fin S64x32.rank) ∈ dot_S64x32_S32x2_S64x2_1_0_0_1_n_n.lhsBatch by decide), dif_pos (show (0 : Fin S64x32.rank) ∈ dot_S64x32_S32x2_S64x2_1_0_0_1_n_n.lhsNonContracting by decide)]
  rfl
theorem lhs_pay3b_1 (i : S64x2.Idx) (q : dot_S64x32_S32x2_S64x2_1_0_0_1_n_n.contr.Idx) :
    (dot_S64x32_S32x2_S64x2_1_0_0_1_n_n.lhsIdx i q 1).val = (q ⟨0, by decide⟩).val :=
  dot_S64x32_S32x2_S64x2_1_0_0_1_n_n.lhsIdx_val_of_single rfl i q
theorem rhs_pay3b_0 (i : S64x2.Idx) (q : dot_S64x32_S32x2_S64x2_1_0_0_1_n_n.contr.Idx) :
    (dot_S64x32_S32x2_S64x2_1_0_0_1_n_n.rhsIdx i q 0).val = (q ⟨0, by decide⟩).val :=
  dot_S64x32_S32x2_S64x2_1_0_0_1_n_n.rhsIdx_val_of_single rfl i q
theorem rhs_pay3b_1 (i : S64x2.Idx) (q : dot_S64x32_S32x2_S64x2_1_0_0_1_n_n.contr.Idx) :
    (dot_S64x32_S32x2_S64x2_1_0_0_1_n_n.rhsIdx i q 1).val = (i 1).val := by
  unfold DotDims.rhsIdx
  rw [dif_neg (show ¬(1 : Fin S32x2.rank) ∈ dot_S64x32_S32x2_S64x2_1_0_0_1_n_n.rhsBatch by decide), dif_pos (show (1 : Fin S32x2.rank) ∈ dot_S64x32_S32x2_S64x2_1_0_0_1_n_n.rhsNonContracting by decide)]
  rfl

/-- The permutation features against the last 32 rows of the classifier's weights, into a zero accumulator. -/
theorem matmul_pay3b (l : FVec Ideal S64x32 .bf16) (r : FVec Ideal S32x2 .bf16) (b : Fin 64) (j : Fin 2) :
    FloatOps.matmul dot_S64x32_S32x2_S64x2_1_0_0_1_n_n none l r (constant S64x2 .f32 0x00000000#32) (ix2 b j)
      = ∑ k : Fin 32, l (ix2 b k) * r (ix2 k j) := by
  rw [Ideal.matmul_constant_zero_apply, ← Equiv.sum_comp (ValueIdx.contrEquiv1 dot_S64x32_S32x2_S64x2_1_0_0_1_n_n 32 rfl rfl).symm]
  refine Finset.sum_congr rfl fun k _ => ?_
  have hk := ValueIdx.contrEquiv1_symm_val dot_S64x32_S32x2_S64x2_1_0_0_1_n_n 32 rfl rfl k
  have el : dot_S64x32_S32x2_S64x2_1_0_0_1_n_n.lhsIdx (ix2 b j) ((ValueIdx.contrEquiv1 dot_S64x32_S32x2_S64x2_1_0_0_1_n_n 32 rfl rfl).symm k) = ix2 b k := funext fun a => Fin.ext (by
    match a with
    | ⟨0, _⟩ => exact lhs_pay3b_0 _ _
    | ⟨1, _⟩ => exact (lhs_pay3b_1 _ _).trans hk)
  have er : dot_S64x32_S32x2_S64x2_1_0_0_1_n_n.rhsIdx (ix2 b j) ((ValueIdx.contrEquiv1 dot_S64x32_S32x2_S64x2_1_0_0_1_n_n 32 rfl rfl).symm k) = ix2 k j := funext fun a => Fin.ext (by
    match a with
    | ⟨0, _⟩ => exact (rhs_pay3b_0 _ _).trans hk
    | ⟨1, _⟩ => exact rhs_pay3b_1 _ _)
  rw [el, er]

/-- The last point's output: the mean-pooled row (the sums over the count clamped below at one) against the weights'
    first 128 rows, plus the permutation features against their last 32 rows, plus the bias. -/
theorem k2_pay3_apply (acc : Vec Ideal S64x128 .f32) (cnt : Vec Ideal S64x1 .f32) (wc : Vec Ideal S160x2 .f32)
    (perm : Vec Ideal S64x32 .f32) (bc : Vec Ideal S1x2 .f32) (b : Fin 64) (j : Fin 2) :
    k2_pay3 (F := Ideal) acc cnt wc perm bc (ix2 b j)
      = (∑ k : Fin 128, Ideal.div (acc (ix2 b k)) (max (cnt (ix2 b (0 : Fin 1))) (Ideal.ofBits .f32 0x3F800000#32))
            * wc (ix2 (Fin.castAdd 32 k : Fin 160) j))
        + (∑ k : Fin 32, perm (ix2 b k) * wc (ix2 (Fin.natAdd 128 k : Fin 160) j))
        + bc (ix2 (0 : Fin 1) j) := by
  unfold k2_pay3
  rw [shapeCast_self, shapeCast_self, ValueIdx.addf_apply, ValueIdx.addf_apply]
  simp only [matmul]
  rw [matmul_pay3a, matmul_pay3b]
  rw [broadcastTo_apply bc broadcasts_S1x2_S64x2 (ix2 b j) (ix2 (0 : Fin 1) j) (fun a => match a with
    | ⟨0, _⟩ => by show 0 = if (1 : Nat) = 1 then 0 else _; rw [if_pos rfl]
    | ⟨1, _⟩ => by show j.val = if (2 : Nat) = 1 then 0 else j.val; rw [if_neg (by decide)])]
  congr 1
  congr 1
  · refine Finset.sum_congr rfl fun k _ => ?_
    rw [ValueIdx.truncf_apply, ValueIdx.truncf_apply, ValueIdx.divf_apply]
    rw [broadcastTo_apply _ broadcasts_S64x1_S64x128 (ix2 b k) (ix2 b (0 : Fin 1)) (fun a => match a with
      | ⟨0, _⟩ => by show b.val = if (64 : Nat) = 1 then 0 else b.val; rw [if_neg (by decide)]
      | ⟨1, _⟩ => by show 0 = if (1 : Nat) = 1 then 0 else _; rw [if_pos rfl])]
    rw [extractStridedSlice_apply ![0, 0] wc slices_S160x2_o0_0_S128x2 (ix2 k j) (ix2 (Fin.castAdd 32 k : Fin 160) j) (fun a => match a with
      | ⟨0, _⟩ => by show k.val = 0 + k.val; omega
      | ⟨1, _⟩ => by show j.val = 0 + j.val; omega)]
    rfl
  · refine Finset.sum_congr rfl fun k _ => ?_
    rw [ValueIdx.truncf_apply, ValueIdx.truncf_apply]
    rw [extractStridedSlice_apply ![128, 0] wc slices_S160x2_o128_0_S32x2 (ix2 k j) (ix2 (Fin.natAdd 128 k : Fin 160) j) (fun a => match a with
      | ⟨0, _⟩ => by show 128 + k.val = 128 + k.val; rfl
      | ⟨1, _⟩ => by show j.val = 0 + j.val; omega)]

/-! ## The algebra on the extended reals

Addition there is a commutative monoid, so sums re-associate and re-index freely; products meet only `0 * x = 0`
and `1 * x = x`. Nothing below distributes a product over a sum. -/

/-- A running value that starts at the first term added to zero, and at each later point adds that point's term, is
    after point `n` the sum of the terms up to `n`. -/
theorem fold_eq_sum {M : Type*} [AddCommMonoid M] {N : Nat} (a : (n : Nat) → n < N → M) (s : Fin N → M)
    (h0 : ∀ h : 0 < N, a 0 h = 0 + s ⟨0, h⟩)
    (hs : ∀ (n : Nat) (h : n + 1 < N), a (n + 1) h = a n (Nat.lt_of_succ_lt h) + s ⟨n + 1, h⟩) :
    ∀ (n : Nat) (h : n < N), a n h = ∑ t : Fin (n + 1), s ⟨t.val, Nat.lt_of_lt_of_le t.isLt h⟩
  | 0, h => by
    rw [h0 h, zero_add, Fin.sum_univ_one]
    rfl
  | n + 1, h => by
    rw [hs n h, fold_eq_sum a s h0 hs n (Nat.lt_of_succ_lt h)]
    exact (Fin.sum_univ_castSucc (fun t : Fin (n + 1 + 1) => s ⟨t.val, Nat.lt_of_lt_of_le t.isLt h⟩)).symm

/-- Summing each tile's partial sum over the 25 tiles of 2000 rows is the sum over all 50000 rows. -/
theorem sum_tiles {M : Type*} [AddCommMonoid M] (f : Fin 50000 → M) (g : Fin 25 → Fin 2000 → M)
    (h : ∀ (t : Fin 25) (p : Fin 2000),
      g t p = f ⟨2000 * t.val + p.val, by have := t.isLt; have := p.isLt; omega⟩) :
    ∑ t : Fin 25, ∑ p : Fin 2000, g t p = ∑ n : Fin 50000, f n := by
  rw [← Fintype.sum_prod_type', ← Equiv.sum_comp (finProdFinEquiv (m := 25) (n := 2000)) f]
  refine Finset.sum_congr rfl fun x _ => ?_
  rw [h]
  refine congrArg f (Fin.ext ?_)
  show 2000 * x.1.val + x.2.val = x.2.val + 2000 * x.1.val
  omega

/-- A term weighted by an indicator is the term where the indicator holds and zero elsewhere. -/
theorem indicator_mul (c : Prop) [Decidable c] (x : EReal) :
    (if c then (1 : EReal) else 0) * x = if c then x else 0 := by
  by_cases hc : c
  · rw [if_pos hc, if_pos hc, one_mul]
  · rw [if_neg hc, if_neg hc, zero_mul]

/-- The indicator-weighted sum over all rows is the sum over the rows where the indicator holds. -/
theorem sum_indicator_mul {ι : Type*} [Fintype ι] (P : ι → Prop) [DecidablePred P] (oh x : ι → EReal)
    (hoh : ∀ n, oh n = if P n then 1 else 0) :
    ∑ n, oh n * x n = ∑ n ∈ Finset.univ.filter P, x n := by
  rw [Finset.sum_filter]
  exact Finset.sum_congr rfl fun n _ => by rw [hoh, indicator_mul]

/-- A sum over the 160 joined columns splits into the first 128 and the last 32. -/
theorem sum_join {M : Type*} [AddCommMonoid M] (f : Fin 160 → M) :
    ∑ k : Fin 160, f k = ∑ k : Fin 128, f (Fin.castAdd 32 k) + ∑ k : Fin 32, f (Fin.natAdd 128 k) :=
  Fin.sum_univ_add (a := 128) (b := 32) f

end Cert.KernelIdeal.Hand

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.KI.Val2.lean ====
/-
  The value of the pooling and classifying region: its result array is the reference's result, over the extended
  reals.

  The region runs 25 row tiles. Its carried 64 x 128 sums start at zero and each tile adds, at (graph b, feature d),
  the sum over the tile's 2000 rows p of indicator(p, b) * x(p, d); after the last tile the output at (b, j) is
  the sum over the features k of (sums(b, k) / max (count b) 1) * w(k, j), plus the sum over the permutation features
  k of perm(b, k) * w(128 + k, j), plus bias(j). The reference adds each node's features into its graph's row by an
  accumulating scatter from zero, divides by the same clamped counts, joins the permutation features on, multiplies by
  the weights and adds the bias.

  The two agree because: the indicator at (node, graph) is one exactly where the node's graph number, read signed, is
  the graph's, so the indicator-weighted sum over all nodes is the sum over the graph's nodes, which is what the
  scatter reads at that row; the running sum over the tiles is the sum of the tiles' sums and the tiles partition the
  50000 nodes; the counts on both sides are one and the same scatter of ones into zeros; a product against the 160
  joined columns splits at the join into the 128 pooled columns and the 32 permutation columns; and the one block of
  the output window, index (0, 0), written back after the last tile only, is the whole result array.
-/
import proofs.«405254_j42863773614471_1_alg».proof.Proof.KI.Reg2
import proofs.«405254_j42863773614471_1_alg».proof.Proof.KI.Chain
import proofs.«405254_j42863773614471_1_alg».proof.Proof.KI.PoolPay
import proofs.«405254_j42863773614471_1_alg».proof.Proof.RefRead
import proofs.«405254_j42863773614471_1_alg».proof.Proof.LibScatterSum
import Idealize.ShloMosaic.Lib.Pipeline.Value
import Idealize.ShloMosaic.Lib.ValueIdx
import Idealize.ShloMosaic.Lib.ValueIdxCoords
import Idealize.ShloMosaic.Lib.IdealHost
import Idealize.ShloMosaic.PureOps.Ideal.Laws

set_option synthInstance.maxSize 4096

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

/-! ## The host's indicator matrix, counts and bias row read at an index -/

/-- A graph number below 64 read signed from its 32-bit word is the number itself. -/
theorem toInt_ofNat_lt64 (k : Nat) (hk : k < 64) : (BitVec.ofNat 32 k).toInt = (k : Int) := by
  rw [BitVec.toInt_eq_toNat_of_lt (by rw [BitVec.toNat_ofNat]; omega), BitVec.toNat_ofNat]
  omega

/-- The indicator word of "this 32-bit word is graph b" as an extended real. -/
theorem cmpi_eq_cast (x : BitVec 32) (b : Fin 64) :
    (((IntOp.cmpi .eq x (BitVec.ofNat 32 b.val)).toNat : ℝ) : EReal)
      = if x.toInt = (b.val : Int) then (1 : EReal) else 0 := by
  by_cases h : x = BitVec.ofNat 32 b.val
  · rw [if_pos (by rw [h]; exact toInt_ofNat_lt64 b.val b.isLt)]
    subst h
    simp [IntOp.cmpi]
  · rw [if_neg (fun hi => h (BitVec.eq_of_toInt_eq (hi.trans (toInt_ofNat_lt64 b.val b.isLt).symm)))]
    simp [IntOp.cmpi, h]

/-- The one-hot matrix at (node, graph): one where the node's graph number, read signed, is the graph's. -/
theorem onehot_apply (gid : CI Ideal S50000) (n : Fin 50000) (b : Fin 64) :
    onehot (F := Ideal) gid (ix2 n b) = if (gid (ix1 n)).toInt = (b.val : Int) then (1 : EReal) else 0 := by
  have hA : (broadcastInDim S50000x64 ![0, 1] Facts₀.bcast_S50000x1_S50000x64_0_1
      (broadcastInDim S50000x1 ![0] Facts₀.bcast_S50000_S50000x1_0 gid) : CI Ideal S50000x64) (ix2 n b) = gid (ix1 n) := by
    rw [broadcastInDim_apply _ Facts₀.bcast_S50000x1_S50000x64_0_1 _ (ix2 n b) (ix2 n (0 : Fin 1)) (fun a => match a with
      | ⟨0, _⟩ => by show n.val = if (50000 : Nat) = 1 then 0 else n.val; rw [if_neg (by decide)]
      | ⟨1, _⟩ => by show 0 = if (1 : Nat) = 1 then 0 else _; rw [if_pos rfl])]
    exact broadcastInDim_apply _ Facts₀.bcast_S50000_S50000x1_0 gid (ix2 n (0 : Fin 1)) (ix1 n) (fun a => match a with
      | ⟨0, _⟩ => by show n.val = if (50000 : Nat) = 1 then 0 else n.val; rw [if_neg (by decide)])
  have hB : (broadcastInDim S50000x64 ![0, 1] Facts₀.bcast_S1x64_S50000x64_0_1
      (broadcastInDim S1x64 ![1] Facts₀.bcast_S64_S1x64_1 (iotaInDim S64 32 0)) : CI Ideal S50000x64) (ix2 n b)
        = BitVec.ofNat 32 b.val := by
    rw [broadcastInDim_apply _ Facts₀.bcast_S1x64_S50000x64_0_1 _ (ix2 n b) (ix2 (0 : Fin 1) b) (fun a => match a with
      | ⟨0, _⟩ => by show 0 = if (1 : Nat) = 1 then 0 else _; rw [if_pos rfl]
      | ⟨1, _⟩ => by show b.val = if (64 : Nat) = 1 then 0 else b.val; rw [if_neg (by decide)])]
    rw [broadcastInDim_apply _ Facts₀.bcast_S64_S1x64_1 _ (ix2 (0 : Fin 1) b) (ix1 b) (fun a => match a with
      | ⟨0, _⟩ => by show b.val = if (64 : Nat) = 1 then 0 else b.val; rw [if_neg (by decide)])]
    rfl
  unfold onehot
  show (((IntOp.cmpi .eq _ _).toNat : ℝ) : EReal) = _
  rw [hA, hB]
  exact cmpi_eq_cast _ b

/-- The bias as a one-row matrix reads the bias. -/
theorem rowOf2_apply (x : CF Ideal S2) (j : Fin 2) : rowOf2 (F := Ideal) x (ix2 (0 : Fin 1) j) = x (ix1 j) := by
  unfold rowOf2
  exact shapeCast_apply x _ (ix2 (0 : Fin 1) j) (ix1 j) (by
    rw [Shape.rowMajor_val_two, Shape.rowMajor_val_one]; show j.val = 0 * 2 + j.val; omega)

/-! ## The reference's last operations read at an index -/

section RefSide
open Cert.ReferenceIdeal.ReadP

variable (x0 : CF Ideal S50000x128) (x1 x2 : CI Ideal S600000) (x3 : CI Ideal S50000) (x4 : CF Ideal S64x32)
  (x5 : CF Ideal S384x128) (x6 : CF Ideal S128) (x7 : CF Ideal S384x128) (x8 : CF Ideal S128)
  (x9 : CF Ideal S160x2) (x10 : CF Ideal S2)

/-- The reference's graph numbers as a column read the graph numbers. -/
theorem ref_v78_apply (n : Fin 50000) : val_main_v78 (F := Ideal) x3 (ix2 n (0 : Fin 1)) = x3 (ix1 n) := by
  rw [val_main_v78_apply]
  exact congrArg x3 (funext fun a => match a with | ⟨0, _⟩ => rfl)

/-- The reference's pooled sum at (graph, feature): the features of the graph's nodes, summed. -/
theorem ref_v79_apply (b : Fin 64) (k : Fin 128) :
    val_main_v79 (F := Ideal) x0 x1 x2 x3 x5 x6 x7 x8 (ix2 b k)
      = ∑ n ∈ Finset.univ.filter (fun n : Fin 50000 => (x3 (ix1 n)).toInt = (b.val : Int)),
          val_main_v76 (F := Ideal) x0 x1 x2 x5 x6 x7 x8 (ix2 n k) := by
  unfold val_main_v79
  show Ideal.hostScatterAdd Cert.ReferenceIdeal.scatter_S64x128_S50000x1_S50000x128_1_0_0_1 _ _ _ (ix2 b k) = _
  rw [ScatterSum.scatterAdd_rows_apply _ rfl rfl rfl rfl, val_main_v77_apply, val_main_cst_15_apply]
  show Ideal.ofBits .f32 0x00000000#32 + _ = _
  rw [Ideal.ofBits_zero_f32, zero_add]
  exact Finset.sum_congr (Finset.filter_congr fun n _ => by rw [ref_v78_apply]) fun _ _ => rfl

/-- The reference's divisor at (graph, feature): the graph's node count clamped below at one. -/
theorem ref_v87_apply (b : Fin 64) (k : Fin 128) :
    val_main_v87 (F := Ideal) x3 (ix2 b k)
      = max (val_main_v83 (F := Ideal) x3 (ix1 b)) (Ideal.ofBits .f32 0x3F800000#32) := by
  rw [val_main_v87_apply, val_main_v86_apply, val_main_v85_apply, val_main_v84_apply, val_main_cst_18_apply]
  show max (val_main_v83 (F := Ideal) x3 _) _ = _
  exact congrArg (fun i => max (val_main_v83 (F := Ideal) x3 i) (Ideal.ofBits .f32 0x3F800000#32))
    (funext fun a => match a with | ⟨0, _⟩ => rfl)

/-- The graphs' node counts as a column read the reference's counts: the same scatter of ones into zeros. -/
theorem cntCol_apply (b : Fin 64) :
    cntCol (F := Ideal) x3 (ix2 b (0 : Fin 1)) = val_main_v83 (F := Ideal) x3 (ix1 b) := by
  unfold cntCol
  rw [shapeCast_apply _ _ (ix2 b (0 : Fin 1)) (ix1 b) (by
    rw [Shape.rowMajor_val_two, Shape.rowMajor_val_one]; show b.val = b.val * 1 + 0; omega)]
  rfl

/-- The reference's result at (graph, class): the mean-pooled features against the weights' first 128 rows, plus the
    permutation features against their last 32 rows, plus the bias. -/
theorem ref_apply (b : Fin 64) (j : Fin 2) :
    val_main_v93 (F := Ideal) x0 x1 x2 x3 x4 x5 x6 x7 x8 x9 x10 (ix2 b j)
      = (∑ k : Fin 128, Ideal.div
            (∑ n ∈ Finset.univ.filter (fun n : Fin 50000 => (x3 (ix1 n)).toInt = (b.val : Int)),
                val_main_v76 (F := Ideal) x0 x1 x2 x5 x6 x7 x8 (ix2 n k))
            (max (val_main_v83 (F := Ideal) x3 (ix1 b)) (Ideal.ofBits .f32 0x3F800000#32))
          * x9 (ix2 (Fin.castAdd 32 k : Fin 160) j))
        + (∑ k : Fin 32, x4 (ix2 b k) * x9 (ix2 (Fin.natAdd 128 k : Fin 160) j))
        + x10 (ix1 j) := by
  rw [val_main_v93_apply]
  show val_main_v90 (F := Ideal) x0 x1 x2 x3 x4 x5 x6 x7 x8 x9 (ix2 b j) + val_main_v92 (F := Ideal) x10 (ix2 b j) = _
  rw [val_main_v90_apply, val_main_v92_apply, val_main_v91_apply, sum_join]
  refine congrArg₂ (· + ·) (congrArg₂ (· + ·) (Finset.sum_congr rfl fun k _ => ?_) (Finset.sum_congr rfl fun k _ => ?_)) ?_
  · have e1 : val_main_v89 (F := Ideal) x0 x1 x2 x3 x4 x5 x6 x7 x8 (lidx_main_v90 (ix2 b j) (Fin.castAdd 32 k))
        = val_main_v88 (F := Ideal) x0 x1 x2 x3 x5 x6 x7 x8 (ix2 b k) := by
      unfold val_main_v89
      exact concatenate_pair_apply_left (t := Cert.ReferenceIdeal.S64x160) (s₁ := Cert.ReferenceIdeal.S64x128) (s₂ := Cert.ReferenceIdeal.S64x32) 1 _ _ _ (lidx_main_v90 (ix2 b j) (Fin.castAdd 32 k)) rfl (ix2 b k) (fun a => match a with
        | ⟨0, _⟩ => rfl
        | ⟨1, _⟩ => rfl)
    have e2 : ridx_main_v90 (ix2 b j) (Fin.castAdd 32 k) = ix2 (Fin.castAdd 32 k : Fin 160) j :=
      funext fun a => match a with
        | ⟨0, _⟩ => rfl
        | ⟨1, _⟩ => rfl
    rw [e1, e2, val_main_v88_apply, ref_v79_apply, ref_v87_apply]
    rfl
  · have e1 : val_main_v89 (F := Ideal) x0 x1 x2 x3 x4 x5 x6 x7 x8 (lidx_main_v90 (ix2 b j) (Fin.natAdd 128 k))
        = x4 (ix2 b k) := by
      unfold val_main_v89
      exact concatenate_pair_apply_right (t := Cert.ReferenceIdeal.S64x160) (s₁ := Cert.ReferenceIdeal.S64x128) (s₂ := Cert.ReferenceIdeal.S64x32) 1 _ _ _ (lidx_main_v90 (ix2 b j) (Fin.natAdd 128 k)) rfl rfl (ix2 b k) (fun a ha => match a, ha with
        | ⟨0, _⟩, _ => rfl
        | ⟨1, _⟩, ha => (ha (Fin.ext rfl)).elim) (by show k.val + 128 = 128 + k.val; omega)
    have e2 : ridx_main_v90 (ix2 b j) (Fin.natAdd 128 k) = ix2 (Fin.natAdd 128 k : Fin 160) j :=
      funext fun a => match a with
        | ⟨0, _⟩ => rfl
        | ⟨1, _⟩ => rfl
    rw [e1, e2]
  · exact congrArg x10 (funext fun a => match a with | ⟨0, _⟩ => rfl)

end RefSide

/-! ## The windows' blocks read at an index -/

section Blocks
variable {F : FTy → Type} [FloatOps F]
variable (V : (c : Dev nD) → (b : Ref sig .tc) → Buf (Elt F) ((c : Thread nD τ).loc b))

/-- The row tiles' block index at point t is (t, 0). -/
theorem index2_0 : ∀ t : Fin grid2.N, win2_0.index t 0 = t.val ∧ win2_0.index t 1 = 0 := by decide +kernel
theorem index2_1 : ∀ t : Fin grid2.N, win2_1.index t 0 = t.val ∧ win2_1.index t 1 = 0 := by decide +kernel

/-- The indicator tile at point t reads rows 2000 t + p of the indicator matrix. -/
theorem iblk2_0_apply (c : Dev nD) (t : Fin cfg2.N) (p : Fin 2000) (b : Fin 64) :
    (iblk2 V c 0 t : Vec F S2000x64 .f32) (ix2 p b)
      = (V c main_v78 : Vec F S50000x64 .f32)
          (ix2 (⟨2000 * t.val + p.val, by have := t.isLt; have h : cfg2.N = 25 := N_2; have := p.isLt; omega⟩ : Fin 50000) b) := by
  have hi := index2_0 t
  unfold iblk2
  rw [View.read_apply]
  show V c main_v78 _ = V c main_v78 _
  congr 1
  funext a
  apply Fin.ext
  match a with
  | ⟨0, _⟩ => show win2_0.index t 0 * 2000 + 1 * p.val = 2000 * t.val + p.val; rw [hi.1]; omega
  | ⟨1, _⟩ => show win2_0.index t 1 * 64 + 1 * b.val = b.val; rw [hi.2]; omega

/-- The feature tile at point t reads rows 2000 t + p of the features. -/
theorem iblk2_1_apply (c : Dev nD) (t : Fin cfg2.N) (p : Fin 2000) (d : Fin 128) :
    (iblk2 V c 1 t : Vec F S2000x128 .f32) (ix2 p d)
      = (V c main_v71 : Vec F S50000x128 .f32)
          (ix2 (⟨2000 * t.val + p.val, by have := t.isLt; have h : cfg2.N = 25 := N_2; have := p.isLt; omega⟩ : Fin 50000) d) := by
  have hi := index2_1 t
  unfold iblk2
  rw [View.read_apply]
  show V c main_v71 _ = V c main_v71 _
  congr 1
  funext a
  apply Fin.ext
  match a with
  | ⟨0, _⟩ => show win2_1.index t 0 * 2000 + 1 * p.val = 2000 * t.val + p.val; rw [hi.1]; omega
  | ⟨1, _⟩ => show win2_1.index t 1 * 128 + 1 * d.val = d.val; rw [hi.2]; omega

/-- The windows that do not move read block (0, 0) at every point. -/
theorem index2_2 : ∀ t : Fin grid2.N, win2_2.index t 0 = 0 ∧ win2_2.index t 1 = 0 := by decide +kernel
theorem index2_3 : ∀ t : Fin grid2.N, win2_3.index t 0 = 0 ∧ win2_3.index t 1 = 0 := by decide +kernel
theorem index2_4 : ∀ t : Fin grid2.N, win2_4.index t 0 = 0 ∧ win2_4.index t 1 = 0 := by decide +kernel
theorem index2_5 : ∀ t : Fin grid2.N, win2_5.index t 0 = 0 ∧ win2_5.index t 1 = 0 := by decide +kernel

/-- The permutation features' block is the whole array. -/
theorem iblk2_2_eq (c : Dev nD) (t : Fin cfg2.N) : (iblk2 V c 2 t : Vec F S64x32 .f32) = V c main_arg4 := by
  have hi := index2_2 t
  funext i
  unfold iblk2
  rw [View.read_apply]
  show V c main_arg4 _ = V c main_arg4 _
  congr 1
  funext a
  apply Fin.ext
  match a with
  | ⟨0, _⟩ => show win2_2.index t 0 * 64 + 1 * (i 0).val = (i 0).val; rw [hi.1]; omega
  | ⟨1, _⟩ => show win2_2.index t 1 * 32 + 1 * (i 1).val = (i 1).val; rw [hi.2]; omega

/-- The counts' block is the whole column. -/
theorem iblk2_3_eq (c : Dev nD) (t : Fin cfg2.N) : (iblk2 V c 3 t : Vec F S64x1 .f32) = V c main_v83 := by
  have hi := index2_3 t
  funext i
  unfold iblk2
  rw [View.read_apply]
  show V c main_v83 _ = V c main_v83 _
  congr 1
  funext a
  apply Fin.ext
  match a with
  | ⟨0, _⟩ => show win2_3.index t 0 * 64 + 1 * (i 0).val = (i 0).val; rw [hi.1]; omega
  | ⟨1, _⟩ => show win2_3.index t 1 * 1 + 1 * (i 1).val = (i 1).val; rw [hi.2]; omega

/-- The classifier weights' block is the whole matrix. -/
theorem iblk2_4_eq (c : Dev nD) (t : Fin cfg2.N) : (iblk2 V c 4 t : Vec F S160x2 .f32) = V c main_arg9 := by
  have hi := index2_4 t
  funext i
  unfold iblk2
  rw [View.read_apply]
  show V c main_arg9 _ = V c main_arg9 _
  congr 1
  funext a
  apply Fin.ext
  match a with
  | ⟨0, _⟩ => show win2_4.index t 0 * 160 + 1 * (i 0).val = (i 0).val; rw [hi.1]; omega
  | ⟨1, _⟩ => show win2_4.index t 1 * 2 + 1 * (i 1).val = (i 1).val; rw [hi.2]; omega

/-- The bias row's block is the whole row. -/
theorem iblk2_5_eq (c : Dev nD) (t : Fin cfg2.N) : (iblk2 V c 5 t : Vec F S1x2 .f32) = V c main_v84 := by
  have hi := index2_5 t
  funext i
  unfold iblk2
  rw [View.read_apply]
  show V c main_v84 _ = V c main_v84 _
  congr 1
  funext a
  apply Fin.ext
  match a with
  | ⟨0, _⟩ => show win2_5.index t 0 * 1 + 1 * (i 0).val = (i 0).val; rw [hi.1]; omega
  | ⟨1, _⟩ => show win2_5.index t 1 * 2 + 1 * (i 1).val = (i 1).val; rw [hi.2]; omega

end Blocks

/-! ## The value after the last point -/

section Core
open Cert.ReferenceIdeal.ReadP

variable (W : (c : Dev nD) → (b : Ref sig .tc) → Buf (Elt Ideal) ((c : Thread nD τ).loc b))
variable (x0 : CF Ideal S50000x128) (x1 x2 : CI Ideal S600000) (x3 : CI Ideal S50000) (x4 : CF Ideal S64x32)
  (x5 : CF Ideal S384x128) (x6 : CF Ideal S128) (x7 : CF Ideal S384x128) (x8 : CF Ideal S128)
  (x9 : CF Ideal S160x2) (x10 : CF Ideal S2)

/-- One tile's partial sum at (graph, feature): the tile's rows weighted by the indicator column. -/
def tileSum (oh : Vec Ideal S2000x64 .f32) (x : Vec Ideal S2000x128 .f32) (b : Fin 64) (d : Fin 128) : EReal :=
  ∑ p : Fin 2000, oh (ix2 p b) * x (ix2 p d)

/-- The carried sums after the last tile, at (graph, feature): the features of the graph's nodes, summed. The running
    sum over the tiles is the sum of the tiles' sums; those tile the 50000 rows; and a row weighted by its indicator is
    the row on the graph's nodes and zero elsewhere. -/
theorem acc_value (c : Dev nD)
    (outs : (n : ℕ) → n < cfg2.N → Vec Ideal S64x2 .f32 × Vec Ideal S64x128 .f32)
    (hz : ∀ h : 0 < cfg2.N, (outs 0 h).2 = k2_pay2 (iblk2 W c 0 ⟨0, h⟩) (iblk2 W c 1 ⟨0, h⟩) (k2_pay1 (F := Ideal)))
    (hs : ∀ (n : ℕ) (h : n + 1 < cfg2.N),
      (outs (n + 1) h).2 = k2_pay2 (iblk2 W c 0 ⟨n + 1, h⟩) (iblk2 W c 1 ⟨n + 1, h⟩) (outs n (Nat.lt_of_succ_lt h)).2)
    (h78 : W c main_v78 = onehot x3) (h71 : W c main_v71 = val_main_v76 (F := Ideal) x0 x1 x2 x5 x6 x7 x8)
    (h24 : 24 < cfg2.N) (b : Fin 64) (d : Fin 128) :
    (outs 24 h24).2 (ix2 b d)
      = ∑ n ∈ Finset.univ.filter (fun n : Fin 50000 => (x3 (ix1 n)).toInt = (b.val : Int)),
          val_main_v76 (F := Ideal) x0 x1 x2 x5 x6 x7 x8 (ix2 n d) := by
  have hfold := fold_eq_sum (M := EReal) (N := cfg2.N) (fun n h => (outs n h).2 (ix2 b d))
    (fun t => tileSum (iblk2 W c 0 t) (iblk2 W c 1 t) b d)
    (fun h => by
      show (outs 0 h).2 (ix2 b d) = _
      rw [hz h]
      refine (k2_pay2_apply _ _ _ b d).trans ?_
      rw [k2_pay1_eq]
      rfl)
    (fun n h => by
      show (outs (n + 1) h).2 (ix2 b d) = _
      rw [hs n h]
      exact k2_pay2_apply _ _ _ b d)
    24 h24
  refine hfold.trans ?_
  unfold tileSum
  rw [← sum_indicator_mul (fun n : Fin 50000 => (x3 (ix1 n)).toInt = (b.val : Int))
    (fun n => onehot (F := Ideal) x3 (ix2 n b)) (fun n => val_main_v76 (F := Ideal) x0 x1 x2 x5 x6 x7 x8 (ix2 n d))
    (fun n => onehot_apply x3 n b)]
  refine sum_tiles (fun n => onehot (F := Ideal) x3 (ix2 n b) * val_main_v76 (F := Ideal) x0 x1 x2 x5 x6 x7 x8 (ix2 n d)) _ (fun t p => ?_)
  rw [iblk2_0_apply, iblk2_1_apply, h78, h71]

/-- The output after the last point is the reference's result. -/
theorem pool_value (c : Dev nD)
    (outs : (n : ℕ) → n < cfg2.N → Vec Ideal S64x2 .f32 × Vec Ideal S64x128 .f32)
    (hz : ∀ h : 0 < cfg2.N, (outs 0 h).2 = k2_pay2 (iblk2 W c 0 ⟨0, h⟩) (iblk2 W c 1 ⟨0, h⟩) (k2_pay1 (F := Ideal)))
    (hs : ∀ (n : ℕ) (h : n + 1 < cfg2.N),
      (outs (n + 1) h).2 = k2_pay2 (iblk2 W c 0 ⟨n + 1, h⟩) (iblk2 W c 1 ⟨n + 1, h⟩) (outs n (Nat.lt_of_succ_lt h)).2)
    (hl : ∀ h : 24 < cfg2.N, (outs 24 h).1
      = k2_pay3 (outs 24 h).2 (iblk2 W c 3 ⟨24, h⟩) (iblk2 W c 4 ⟨24, h⟩) (iblk2 W c 2 ⟨24, h⟩) (iblk2 W c 5 ⟨24, h⟩))
    (h78 : W c main_v78 = onehot x3) (h71 : W c main_v71 = val_main_v76 (F := Ideal) x0 x1 x2 x5 x6 x7 x8)
    (h4 : W c main_arg4 = x4) (h83 : W c main_v83 = cntCol x3) (h9 : W c main_arg9 = x9)
    (h84 : W c main_v84 = rowOf2 x10) (h24 : 24 < cfg2.N) :
    (outs 24 h24).1 = val_main_v93 (F := Ideal) x0 x1 x2 x3 x4 x5 x6 x7 x8 x9 x10 := by
  funext i
  obtain ⟨b, j, rfl⟩ : ∃ (b : Fin 64) (j : Fin 2), i = ix2 b j := ⟨i 0, i 1, eq_ix2 i⟩
  rw [ref_apply, hl h24]
  refine (k2_pay3_apply _ _ _ _ _ b j).trans ?_
  rw [iblk2_3_eq, iblk2_4_eq, iblk2_2_eq, iblk2_5_eq, h83, h9, h4, h84, cntCol_apply, rowOf2_apply]
  refine congrArg₂ (· + ·) (congrArg₂ (· + ·) (Finset.sum_congr rfl fun k _ => ?_) rfl) rfl
  rw [acc_value W x0 x1 x2 x3 x5 x6 x7 x8 c outs hz hs h78 h71 h24 b k]

end Core

/-! ## From the output window's one block to the array -/

section Final
variable {F : FTy → Type} [FloatOps F]

/-- The output window's block index is (0, 0) at every point, and its block is the whole [64, 2] array. -/
theorem index2_6 : ∀ t : Fin grid2.N, win2_6.index t 0 = 0 ∧ win2_6.index t 1 = 0 := by decide +kernel
theorem extent2_6 : ∀ t : Fin grid2.N, win2_6.size 0 = 64 ∧ win2_6.size 1 = 2
    ∧ win2_6.xsize (grid2.coords t) 0 = 64 ∧ win2_6.xsize (grid2.coords t) 1 = 2 := by decide +kernel

/-- For any proof data whose output window holds, after the body at each point, the first component of `outs` there:
    the one write-back, at the last point, writes the whole array, so the array ends at what the last point left. -/
theorem arr2_of {c : Dev nD} (dat : Dat τ (Elt F) Unit ℕ (UR sig nD τ) ℕ cfg2 c)
    (outs : (n : ℕ) → n < cfg2.N → Vec F S64x2 .f32 × Vec F S64x128 .f32)
    (hafter : ∀ t : Fin cfg2.N, dat.after 6 t = (outs t.val t.isLt).1) (h24 : 24 < cfg2.N) :
    dat.arrAt 6 cfg2.N = (outs 24 h24).1 := by
  have hN : cfg2.N = 25 := N_2
  refine dat.arrAt_eq_of_cover 6 (outs 24 h24).1 (fun t hf => ?_) (fun i => ⟨⟨24, h24⟩, (flush2_6 _).mpr rfl, ?_⟩)
  · have h3 : t.val = 24 := by have := (flush2_6 t).mp hf; have := t.isLt; omega
    obtain rfl : t = ⟨24, h24⟩ := Fin.ext h3
    show (cfg2.win 6).cut (grid2.coords ⟨24, h24⟩) (dat.after 6 ⟨24, h24⟩) = _
    rw [hafter]
    have hi := index2_6 ⟨24, h24⟩
    have hz' : (fun a => win2_6.index ⟨24, h24⟩ a * main_v85.ty.shape.size a) = fun _ => 0 := funext fun a => by
      match a with
      | ⟨0, _⟩ => show win2_6.index ⟨24, h24⟩ 0 * 64 = 0; rw [hi.1]
      | ⟨1, _⟩ => show win2_6.index ⟨24, h24⟩ 1 * 2 = 0; rw [hi.2]
    exact (Memref.read_access_unit_zero (Elt F) main_v85 hz' (fun a => by rw [congrFun hz' a]; simp) (outs 24 h24).1).symm
  · show i ∈ ((View.whole main_v85).slice (win2_6.rect ⟨24, h24⟩)).set
    rw [View.set_slice_whole, Rect.mem_set_unit]
    intro a
    have h0 : (i 0 : Nat) < 64 := (i 0).isLt
    have h1 : (i 1 : Nat) < 2 := (i 1).isLt
    have hi := index2_6 ⟨24, h24⟩
    have he := extent2_6 ⟨24, h24⟩
    match a with
    | ⟨0, _⟩ =>
      show win2_6.index ⟨24, h24⟩ 0 * win2_6.size 0 ≤ (i 0 : Nat)
        ∧ (i 0 : Nat) < win2_6.index ⟨24, h24⟩ 0 * win2_6.size 0 + win2_6.xsize (grid2.coords ⟨24, h24⟩) 0
      rw [hi.1, he.2.2.1]; omega
    | ⟨1, _⟩ =>
      show win2_6.index ⟨24, h24⟩ 1 * win2_6.size 1 ≤ (i 1 : Nat)
        ∧ (i 1 : Nat) < win2_6.index ⟨24, h24⟩ 1 * win2_6.size 1 + win2_6.xsize (grid2.coords ⟨24, h24⟩) 1
      rw [hi.2, he.2.2.2]; omega

end Final

/-! ## The region's result array -/

section Main
open Cert.ReferenceIdeal.ReadP

variable (V : (c : Dev nD) → (b : Ref sig .tc) → Buf (Elt Ideal) ((c : Thread nD τ).loc b))

/-- The pooling and classifying region's result array is the reference's result, when the region finds the indicator
    matrix, the second layer's features, the permutation features, the counts, the classifier's weights and the bias
    row in its input arrays. -/
theorem arr2_eq (c : Dev nD) (x0 : CF Ideal S50000x128) (x1 x2 : CI Ideal S600000) (x3 : CI Ideal S50000)
    (x4 : CF Ideal S64x32) (x5 : CF Ideal S384x128) (x6 : CF Ideal S128) (x7 : CF Ideal S384x128) (x8 : CF Ideal S128)
    (x9 : CF Ideal S160x2) (x10 : CF Ideal S2)
    (h78 : V c main_v78 = onehot x3) (h71 : V c main_v71 = val_main_v76 (F := Ideal) x0 x1 x2 x5 x6 x7 x8)
    (h4 : V c main_arg4 = x4) (h83 : V c main_v83 = cntCol x3) (h9 : V c main_arg9 = x9)
    (h84 : V c main_v84 = rowOf2 x10) :
    (dat2 V c).arrAt 6 cfg2.N = val_main_v93 (F := Ideal) x0 x1 x2 x3 x4 x5 x6 x7 x8 x9 x10 := by
  have h24 : 24 < cfg2.N := by rw [show cfg2.N = 25 from N_2]; decide
  exact (arr2_of (dat2 V c) (outsAt2 V c) (after2_6 V c) h24).trans
    (pool_value V x0 x1 x2 x3 x4 x5 x6 x7 x8 x9 x10 c (outsAt2 V c) (scratch_zero V c) (scratch_succ V c)
      (out_last V c) h78 h71 h4 h83 h9 h84 h24)

end Main

end Cert.KernelIdeal.Hand

end
-- ==== Proof.KI.Value.lean ====
/-
  The idealized kernel's result as the reference's own stage function of the arguments.

  Walking @main's boundaries once: the first feature stack is the reference's; the first dense layer with its
  rectifier, written back tile by tile, is the reference's rectified affine map of that stack; the second feature
  stack is the same function of that layer's output; the second dense layer is the reference's affine map; and
  the pooled, normalised and classified result of the last region is the reference's result. Every step is an
  equation between whole arrays; the arithmetic sits in the modules that read the tiles.
-/
import proofs.«405254_j42863773614471_1_alg».proof.Proof.KI.Run
import proofs.«405254_j42863773614471_1_alg».proof.Proof.KI.HostVals
import proofs.«405254_j42863773614471_1_alg».proof.Proof.RefLink
import proofs.«405254_j42863773614471_1_alg».proof.Proof.KI.Val01
import proofs.«405254_j42863773614471_1_alg».proof.Proof.KI.Val2

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.ReadP (val_main_v38 val_main_v43 val_main_v72 val_main_v76 val_main_v93)

variable (m : (ℓ : Loc nD τ sig) → Buf (Elt Ideal) ℓ) (ρ : Dev nD → PrngReg)

/-- The first feature stack, as region 0 finds it, is the reference's. -/
theorem v38_eq (c : Dev nD) : V3 m ρ c main_v38 = val_main_v38 (F := Ideal) (m ((c : Thread nD τ).loc main_arg0)) (m ((c : Thread nD τ).loc main_arg1)) (m ((c : Thread nD τ).loc main_arg2)) :=
  (hostA_v38 (W0 m ρ c)).trans (link_v38 _ _ _)

/-- The bias row region 0 finds. -/
theorem v39_eq (c : Dev nD) : V3 m ρ c main_v39 = rowOf128 (m ((c : Thread nD τ).loc main_arg6)) := hostA_v39 (W0 m ρ c)

/-- The normalising column, at region 0's entry. -/
theorem v9_eq (c : Dev nD) : W3 m ρ c (Proc.devRef .tc main_v9) = normCol (m ((c : Thread nD τ).loc main_arg2)) := hostA_v9 (W0 m ρ c)

/-- Region 0 leaves the reference's rectified first layer. -/
theorem v40_eq (c : Dev nD) : W4 m ρ c (Proc.devRef .tc main_v40)
    = val_main_v43 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  (W4_arr m ρ c 3).trans (arr0_eq (V3 m ρ) c _ _ _ _ _ (v38_eq m ρ c) (W3_main_arg5 m ρ c) (v39_eq m ρ c))

/-- The second feature stack, as region 1 finds it, is the reference's. -/
theorem v69_eq (c : Dev nD) : V5 m ρ c main_v69
    = val_main_v72 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  have h := hostB_v69 (W4 m ρ c)
  rw [(W4_of_ne m ρ c main_v9 (by decide)).trans (v9_eq m ρ c), W4_main_arg1 m ρ c, W4_main_arg2 m ρ c, v40_eq m ρ c] at h
  exact h.trans (link_v72 _ _ _ _ _)

/-- The bias row region 1 finds. -/
theorem v70_eq (c : Dev nD) : V5 m ρ c main_v70 = rowOf128 (m ((c : Thread nD τ).loc main_arg8)) := by
  have h := hostB_v70 (W4 m ρ c)
  rw [W4_main_arg8 m ρ c] at h
  exact h

/-- Region 1 leaves the reference's second layer. -/
theorem v71_eq (c : Dev nD) : W6 m ρ c (Proc.devRef .tc main_v71)
    = val_main_v76 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) :=
  (W6_arr m ρ c 3).trans (arr1_eq (V5 m ρ) c _ _ _ _ _ _ _ (v69_eq m ρ c) (W5_main_arg7 m ρ c) (v70_eq m ρ c))

/-- The membership table region 2 finds. -/
theorem v78_eq (c : Dev nD) : V7 m ρ c main_v78 = onehot (m ((c : Thread nD τ).loc main_arg3)) := by
  have h := hostC_v78 (W6 m ρ c)
  rw [W6_main_arg3 m ρ c] at h
  exact h

/-- The counts' column region 2 finds. -/
theorem v83_eq (c : Dev nD) : V7 m ρ c main_v83 = cntCol (m ((c : Thread nD τ).loc main_arg3)) := by
  have h := hostC_v83 (W6 m ρ c)
  rw [W6_main_arg3 m ρ c] at h
  exact h

/-- The classifier's bias row region 2 finds. -/
theorem v84_eq (c : Dev nD) : V7 m ρ c main_v84 = rowOf2 (m ((c : Thread nD τ).loc main_arg10)) := by
  have h := hostC_v84 (W6 m ρ c)
  rw [W6_main_arg10 m ρ c] at h
  exact h

/-- The second layer's output reaches region 2 untouched by the host lines between. -/
theorem v71_at7 (c : Dev nD) : V7 m ρ c main_v71
    = val_main_v76 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) :=
  (StableHlo.after_of_writes_sub hostOps2 _ hostOps2_writes (r := main_v71) (by decide)).trans (v71_eq m ρ c)

/-- THE RESULT: the last boundary holds, in the result buffer, the reference's result of the launch arguments. -/
theorem result_eq (c : Dev nD) : W8 m ρ c (Proc.devRef .tc main_v85)
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 6).trans (arr2_eq (V7 m ρ) c _ _ _ _ _ _ _ _ _ _ _ (v78_eq m ρ c) (v71_at7 m ρ c) (W7_main_arg4 m ρ c)
    (v83_eq m ρ c) (W7_main_arg9 m ρ c) (v84_eq m ρ c))

end Cert.KernelIdeal.Hand

end
-- ==== Proof.RefStages.lean ====
/-
  The reference program is one line of operations in static single assignment: every operation writes one buffer of
  its own and no buffer is written twice. So each buffer ends at its operation's function of what its operands end
  at, and, read stage by stage from the arguments, at its stage value: that function of the operands' stage values, a
  function of the arguments the operation depends on. One lemma per operation, in program order, each from the line's
  stage equation, its operands' lemmas and the unfolding of the one stage value; the last is the program's result as
  a function of the eleven arguments. A buffer no operation writes, an argument among them, keeps what it held.
-/
import proofs.«405254_j42863773614471_1_alg».proof.Proof.RefOps
import proofs.«405254_j42863773614471_1_alg».proof.Proof.RefRead
import proofs.«405254_j42863773614471_1_alg».proof.Proof.LibSsa
import proofs.«405254_j42863773614471_1_alg».proof.Proof.LibNary3

set_option maxRecDepth 8192

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Three literal operands: the result, written by the `k`-th operation and by none after it, ends at the function of
    what the three operands end at, each operand written by no operation from the `k`-th on. -/
theorem ssa_nary3 {τ : Topo} {sig : RefSig} {Val : EltTy → Type} {ops : List (HloOp τ sig Val)} {W : List (Ref sig .tc)}
    (hW : WritesAre ops W) (F0 : Valuation τ sig Val) (k : ℕ) {x a b y : Ref sig .tc}
    {f : ((j : Fin 3) → ((![x, a, b] : Fin 3 → Ref sig .tc) j).ty.Contents Val) → y.ty.Contents Val} {hxs hy}
    (hk : ops[k]? = some (nary ![x, a, b] y f hxs hy)) (hx' : x ∉ W.drop k) (ha' : a ∉ W.drop k) (hb' : b ∉ W.drop k)
    (hy' : y ∉ W.drop (k + 1)) :
    after ops F0 (Proc.devRef .tc y)
      = f (Fin.cons (after ops F0 (Proc.devRef .tc x)) (Fin.cons (after ops F0 (Proc.devRef .tc a))
          (Fin.cons (after ops F0 (Proc.devRef .tc b)) (fun i => i.elim0)))) := by
  rw [after_eq_result hW F0 k hk hy', after_eq_take hW F0 k hx', after_eq_take hW F0 k ha', after_eq_take hW F0 k hb']
  exact nary3_result f hxs hy _

/-- The references the line's operations write, in order. -/
abbrev W : List (Ref sig .tc) :=
  [main_cst, main_v0, main_cst_0, main_v1, main_v2, main_v3, main_cst_1, main_v4, main_v5, main_cst_2, main_call0_v0, main_call0_v1, main_v6, main_v7, main_cst_3, main_v8, main_v9, main_v10, main_v11, main_c, main_v12, main_v13, main_c_4, main_v14, main_v15, main_v16, main_v17, main_v18, main_cst_5, main_v19, main_v20, main_v21, main_v22, main_v23, main_v24, main_v25, main_c_6, main_v26, main_v27, main_c_7, main_v28, main_v29, main_v30, main_v31, main_v32, main_cst_8, main_v33, main_v34, main_v35, main_v36, main_v37, main_v38, main_v39, main_v40, main_v41, main_v42, main_call1_cst, main_call1_v0, main_v43, main_v44, main_v45, main_c_9, main_v46, main_v47, main_c_10, main_v48, main_v49, main_v50, main_v51, main_v52, main_cst_11, main_v53, main_v54, main_v55, main_v56, main_v57, main_v58, main_v59, main_c_12, main_v60, main_v61, main_c_13, main_v62, main_v63, main_v64, main_v65, main_v66, main_cst_14, main_v67, main_v68, main_v69, main_v70, main_v71, main_v72, main_v73, main_v74, main_v75, main_v76, main_cst_15, main_v77, main_v78, main_v79, main_cst_16, main_v80, main_cst_17, main_v81, main_v82, main_v83, main_cst_18, main_v84, main_v85, main_v86, main_v87, main_v88, main_v89, main_v90, main_v91, main_v92, main_v93]

/-- Every operation of the line writes the one reference listed for it. -/
theorem writes : WritesAre (ops (F := F)) W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))))

/-- A reference the line never writes holds at the end what it held at the start. -/
theorem keep (X : Valuation τ sig (Elt F)) (r : Ref sig .tc) (h : r ∉ W) :
    after (ops (F := F)) X (Proc.devRef .tc r) = X (Proc.devRef .tc r) :=
  after_keep writes X h

/-! ## The arguments keep their contents -/

theorem keep_arg0 (X : Valuation τ sig (Elt F)) :
    after (ops (F := F)) X (Proc.devRef .tc main_arg0) = X (Proc.devRef .tc main_arg0) :=
  keep X main_arg0 (by decide)

theorem keep_arg1 (X : Valuation τ sig (Elt F)) :
    after (ops (F := F)) X (Proc.devRef .tc main_arg1) = X (Proc.devRef .tc main_arg1) :=
  keep X main_arg1 (by decide)

theorem keep_arg2 (X : Valuation τ sig (Elt F)) :
    after (ops (F := F)) X (Proc.devRef .tc main_arg2) = X (Proc.devRef .tc main_arg2) :=
  keep X main_arg2 (by decide)

theorem keep_arg3 (X : Valuation τ sig (Elt F)) :
    after (ops (F := F)) X (Proc.devRef .tc main_arg3) = X (Proc.devRef .tc main_arg3) :=
  keep X main_arg3 (by decide)

theorem keep_arg4 (X : Valuation τ sig (Elt F)) :
    after (ops (F := F)) X (Proc.devRef .tc main_arg4) = X (Proc.devRef .tc main_arg4) :=
  keep X main_arg4 (by decide)

theorem keep_arg5 (X : Valuation τ sig (Elt F)) :
    after (ops (F := F)) X (Proc.devRef .tc main_arg5) = X (Proc.devRef .tc main_arg5) :=
  keep X main_arg5 (by decide)

theorem keep_arg6 (X : Valuation τ sig (Elt F)) :
    after (ops (F := F)) X (Proc.devRef .tc main_arg6) = X (Proc.devRef .tc main_arg6) :=
  keep X main_arg6 (by decide)

theorem keep_arg7 (X : Valuation τ sig (Elt F)) :
    after (ops (F := F)) X (Proc.devRef .tc main_arg7) = X (Proc.devRef .tc main_arg7) :=
  keep X main_arg7 (by decide)

theorem keep_arg8 (X : Valuation τ sig (Elt F)) :
    after (ops (F := F)) X (Proc.devRef .tc main_arg8) = X (Proc.devRef .tc main_arg8) :=
  keep X main_arg8 (by decide)

theorem keep_arg9 (X : Valuation τ sig (Elt F)) :
    after (ops (F := F)) X (Proc.devRef .tc main_arg9) = X (Proc.devRef .tc main_arg9) :=
  keep X main_arg9 (by decide)

theorem keep_arg10 (X : Valuation τ sig (Elt F)) :
    after (ops (F := F)) X (Proc.devRef .tc main_arg10) = X (Proc.devRef .tc main_arg10) :=
  keep X main_arg10 (by decide)

/-! ## The stages, in program order -/

theorem stage_cst (X : Valuation τ sig (Elt F)) :
    after (ops (F := F)) X (Proc.devRef .tc main_cst) = val_main_cst (F := F) :=
  (ssa_nullary writes X 0 rfl (by decide)).trans rfl

theorem stage_v0 (X : Valuation τ sig (Elt F)) :
    after (ops (F := F)) X (Proc.devRef .tc main_v0) = val_main_v0 (F := F) :=
  (ssa_unary writes X 1 rfl (by decide) (by decide)).trans (by rw [stage_cst X]; rfl)

theorem stage_cst_0 (X : Valuation τ sig (Elt F)) :
    after (ops (F := F)) X (Proc.devRef .tc main_cst_0) = val_main_cst_0 (F := F) :=
  (ssa_nullary writes X 2 rfl (by decide)).trans rfl

theorem stage_v1 (X : Valuation τ sig (Elt F)) :
    after (ops (F := F)) X (Proc.devRef .tc main_v1) = val_main_v1 (F := F) :=
  (ssa_unary writes X 3 rfl (by decide) (by decide)).trans (by rw [stage_cst_0 X]; rfl)

theorem stage_v2 (X : Valuation τ sig (Elt F)) :
    after (ops (F := F)) X (Proc.devRef .tc main_v2) = val_main_v2 (F := F) (X (Proc.devRef .tc main_arg2)) :=
  (ssa_unary writes X 4 rfl (by decide) (by decide)).trans (by rw [keep_arg2 X]; rfl)

theorem stage_v3 (X : Valuation τ sig (Elt F)) :
    after (ops (F := F)) X (Proc.devRef .tc main_v3) = val_main_v3 (F := F) (X (Proc.devRef .tc main_arg2)) :=
  (ssa_ternary writes X 5 rfl (by decide) (by decide) (by decide) (by decide)).trans (by rw [stage_v1 X, stage_v2 X, stage_v0 X]; rfl)

theorem stage_cst_1 (X : Valuation τ sig (Elt F)) :
    after (ops (F := F)) X (Proc.devRef .tc main_cst_1) = val_main_cst_1 (F := F) :=
  (ssa_nullary writes X 6 rfl (by decide)).trans rfl

theorem stage_v4 (X : Valuation τ sig (Elt F)) :
    after (ops (F := F)) X (Proc.devRef .tc main_v4) = val_main_v4 (F := F) :=
  (ssa_unary writes X 7 rfl (by decide) (by decide)).trans (by rw [stage_cst_1 X]; rfl)

theorem stage_v5 (X : Valuation τ sig (Elt F)) :
    after (ops (F := F)) X (Proc.devRef .tc main_v5) = val_main_v5 (F := F) (X (Proc.devRef .tc main_arg2)) :=
  (ssa_binary writes X 8 rfl (by decide) (by decide) (by decide)).trans (by rw [stage_v3 X, stage_v4 X]; rfl)

theorem stage_cst_2 (X : Valuation τ sig (Elt F)) :
    after (ops (F := F)) X (Proc.devRef .tc main_cst_2) = val_main_cst_2 (F := F) :=
  (ssa_nullary writes X 9 rfl (by decide)).trans rfl

theorem stage_call0_v0 (X : Valuation τ sig (Elt F)) :
    after (ops (F := F)) X (Proc.devRef .tc main_call0_v0) = val_main_call0_v0 (F := F) :=
  (ssa_unary writes X 10 rfl (by decide) (by decide)).trans (by rw [stage_cst_2 X]; rfl)

theorem stage_call0_v1 (X : Valuation τ sig (Elt F)) :
    after (ops (F := F)) X (Proc.devRef .tc main_call0_v1) = val_main_call0_v1 (F := F) :=
  (ssa_unary writes X 11 rfl (by decide) (by decide)).trans (by rw [stage_call0_v0 X]; rfl)

theorem stage_v6 (X : Valuation τ sig (Elt F)) :
    after (ops (F := F)) X (Proc.devRef .tc main_v6) = val_main_v6 (F := F) (X (Proc.devRef .tc main_arg2)) :=
  (ssa_ternary writes X 12 rfl (by decide) (by decide) (by decide) (by decide)).trans (by rw [stage_v5 X, stage_call0_v1 X, stage_v3 X]; rfl)

theorem stage_v7 (X : Valuation τ sig (Elt F)) :
    after (ops (F := F)) X (Proc.devRef .tc main_v7) = val_main_v7 (F := F) (X (Proc.devRef .tc main_arg2)) :=
  (ssa_unary writes X 13 rfl (by decide) (by decide)).trans (by rw [stage_v6 X]; rfl)

theorem stage_cst_3 (X : Valuation τ sig (Elt F)) :
    after (ops (F := F)) X (Proc.devRef .tc main_cst_3) = val_main_cst_3 (F := F) :=
  (ssa_nullary writes X 14 rfl (by decide)).trans rfl

theorem stage_v8 (X : Valuation τ sig (Elt F)) :
    after (ops (F := F)) X (Proc.devRef .tc main_v8) = val_main_v8 (F := F) :=
  (ssa_unary writes X 15 rfl (by decide) (by decide)).trans (by rw [stage_cst_3 X]; rfl)

theorem stage_v9 (X : Valuation τ sig (Elt F)) :
    after (ops (F := F)) X (Proc.devRef .tc main_v9) = val_main_v9 (F := F) (X (Proc.devRef .tc main_arg2)) :=
  (ssa_binary writes X 16 rfl (by decide) (by decide) (by decide)).trans (by rw [stage_v7 X, stage_v8 X]; rfl)

theorem stage_v10 (X : Valuation τ sig (Elt F)) :
    after (ops (F := F)) X (Proc.devRef .tc main_v10) = val_main_v10 (F := F) (X (Proc.devRef .tc main_arg2)) :=
  (ssa_unary writes X 17 rfl (by decide) (by decide)).trans (by rw [stage_v9 X]; rfl)

theorem stage_v11 (X : Valuation τ sig (Elt F)) :
    after (ops (F := F)) X (Proc.devRef .tc main_v11) = val_main_v11 (F := F) (X (Proc.devRef .tc main_arg0)) (X (Proc.devRef .tc main_arg2)) :=
  (ssa_binary writes X 18 rfl (by decide) (by decide) (by decide)).trans (by rw [keep_arg0 X, stage_v10 X]; rfl)

theorem stage_c (X : Valuation τ sig (Elt F)) :
    after (ops (F := F)) X (Proc.devRef .tc main_c) = val_main_c (F := F) :=
  (ssa_nullary writes X 19 rfl (by decide)).trans rfl

theorem stage_v12 (X : Valuation τ sig (Elt F)) :
    after (ops (F := F)) X (Proc.devRef .tc main_v12) = val_main_v12 (F := F) :=
  (ssa_unary writes X 20 rfl (by decide) (by decide)).trans (by rw [stage_c X]; rfl)

theorem stage_v13 (X : Valuation τ sig (Elt F)) :
    after (ops (F := F)) X (Proc.devRef .tc main_v13) = val_main_v13 (F := F) (X (Proc.devRef .tc main_arg1)) :=
  (ssa_binary writes X 21 rfl (by decide) (by decide) (by decide)).trans (by rw [keep_arg1 X, stage_v12 X]; rfl)

theorem stage_c_4 (X : Valuation τ sig (Elt F)) :
    after (ops (F := F)) X (Proc.devRef .tc main_c_4) = val_main_c_4 (F := F) :=
  (ssa_nullary writes X 22 rfl (by decide)).trans rfl

theorem stage_v14 (X : Valuation τ sig (Elt F)) :
    after (ops (F := F)) X (Proc.devRef .tc main_v14) = val_main_v14 (F := F) :=
  (ssa_unary writes X 23 rfl (by decide) (by decide)).trans (by rw [stage_c_4 X]; rfl)

theorem stage_v15 (X : Valuation τ sig (Elt F)) :
    after (ops (F := F)) X (Proc.devRef .tc main_v15) = val_main_v15 (F := F) (X (Proc.devRef .tc main_arg1)) :=
  (ssa_binary writes X 24 rfl (by decide) (by decide) (by decide)).trans (by rw [keep_arg1 X, stage_v14 X]; rfl)

theorem stage_v16 (X : Valuation τ sig (Elt F)) :
    after (ops (F := F)) X (Proc.devRef .tc main_v16) = val_main_v16 (F := F) (X (Proc.devRef .tc main_arg1)) :=
  (ssa_ternary writes X 25 rfl (by decide) (by decide) (by decide) (by decide)).trans (by rw [stage_v13 X, stage_v15 X, keep_arg1 X]; rfl)

theorem stage_v17 (X : Valuation τ sig (Elt F)) :
    after (ops (F := F)) X (Proc.devRef .tc main_v17) = val_main_v17 (F := F) (X (Proc.devRef .tc main_arg1)) :=
  (ssa_unary writes X 26 rfl (by decide) (by decide)).trans (by rw [stage_v16 X]; rfl)

theorem stage_v18 (X : Valuation τ sig (Elt F)) :
    after (ops (F := F)) X (Proc.devRef .tc main_v18) = val_main_v18 (F := F) (X (Proc.devRef .tc main_arg0)) (X (Proc.devRef .tc main_arg1)) (X (Proc.devRef .tc main_arg2)) :=
  (ssa_binary writes X 27 rfl (by decide) (by decide) (by decide)).trans (by rw [stage_v11 X, stage_v17 X]; rfl)

theorem stage_cst_5 (X : Valuation τ sig (Elt F)) :
    after (ops (F := F)) X (Proc.devRef .tc main_cst_5) = val_main_cst_5 (F := F) :=
  (ssa_nullary writes X 28 rfl (by decide)).trans rfl

theorem stage_v19 (X : Valuation τ sig (Elt F)) :
    after (ops (F := F)) X (Proc.devRef .tc main_v19) = val_main_v19 (F := F) :=
  (ssa_unary writes X 29 rfl (by decide) (by decide)).trans (by rw [stage_cst_5 X]; rfl)

theorem stage_v20 (X : Valuation τ sig (Elt F)) :
    after (ops (F := F)) X (Proc.devRef .tc main_v20) = val_main_v20 (F := F) (X (Proc.devRef .tc main_arg2)) :=
  (ssa_unary writes X 30 rfl (by decide) (by decide)).trans (by rw [keep_arg2 X]; rfl)

theorem stage_v21 (X : Valuation τ sig (Elt F)) :
    after (ops (F := F)) X (Proc.devRef .tc main_v21) = val_main_v21 (F := F) (X (Proc.devRef .tc main_arg0)) (X (Proc.devRef .tc main_arg1)) (X (Proc.devRef .tc main_arg2)) :=
  (ssa_ternary writes X 31 rfl (by decide) (by decide) (by decide) (by decide)).trans (by rw [stage_v19 X, stage_v20 X, stage_v18 X]; rfl)

theorem stage_v22 (X : Valuation τ sig (Elt F)) :
    after (ops (F := F)) X (Proc.devRef .tc main_v22) = val_main_v22 (F := F) (X (Proc.devRef .tc main_arg2)) :=
  (ssa_unary writes X 32 rfl (by decide) (by decide)).trans (by rw [stage_v9 X]; rfl)

theorem stage_v23 (X : Valuation τ sig (Elt F)) :
    after (ops (F := F)) X (Proc.devRef .tc main_v23) = val_main_v23 (F := F) (X (Proc.devRef .tc main_arg0)) (X (Proc.devRef .tc main_arg1)) (X (Proc.devRef .tc main_arg2)) :=
  (ssa_binary writes X 33 rfl (by decide) (by decide) (by decide)).trans (by rw [stage_v21 X, stage_v22 X]; rfl)

theorem stage_v24 (X : Valuation τ sig (Elt F)) :
    after (ops (F := F)) X (Proc.devRef .tc main_v24) = val_main_v24 (F := F) (X (Proc.devRef .tc main_arg2)) :=
  (ssa_unary writes X 34 rfl (by decide) (by decide)).trans (by rw [stage_v9 X]; rfl)

theorem stage_v25 (X : Valuation τ sig (Elt F)) :
    after (ops (F := F)) X (Proc.devRef .tc main_v25) = val_main_v25 (F := F) (X (Proc.devRef .tc main_arg0)) (X (Proc.devRef .tc main_arg1)) (X (Proc.devRef .tc main_arg2)) :=
  (ssa_binary writes X 35 rfl (by decide) (by decide) (by decide)).trans (by rw [stage_v23 X, stage_v24 X]; rfl)

theorem stage_c_6 (X : Valuation τ sig (Elt F)) :
    after (ops (F := F)) X (Proc.devRef .tc main_c_6) = val_main_c_6 (F := F) :=
  (ssa_nullary writes X 36 rfl (by decide)).trans rfl

theorem stage_v26 (X : Valuation τ sig (Elt F)) :
    after (ops (F := F)) X (Proc.devRef .tc main_v26) = val_main_v26 (F := F) :=
  (ssa_unary writes X 37 rfl (by decide) (by decide)).trans (by rw [stage_c_6 X]; rfl)

theorem stage_v27 (X : Valuation τ sig (Elt F)) :
    after (ops (F := F)) X (Proc.devRef .tc main_v27) = val_main_v27 (F := F) (X (Proc.devRef .tc main_arg1)) :=
  (ssa_binary writes X 38 rfl (by decide) (by decide) (by decide)).trans (by rw [keep_arg1 X, stage_v26 X]; rfl)

theorem stage_c_7 (X : Valuation τ sig (Elt F)) :
    after (ops (F := F)) X (Proc.devRef .tc main_c_7) = val_main_c_7 (F := F) :=
  (ssa_nullary writes X 39 rfl (by decide)).trans rfl

theorem stage_v28 (X : Valuation τ sig (Elt F)) :
    after (ops (F := F)) X (Proc.devRef .tc main_v28) = val_main_v28 (F := F) :=
  (ssa_unary writes X 40 rfl (by decide) (by decide)).trans (by rw [stage_c_7 X]; rfl)

theorem stage_v29 (X : Valuation τ sig (Elt F)) :
    after (ops (F := F)) X (Proc.devRef .tc main_v29) = val_main_v29 (F := F) (X (Proc.devRef .tc main_arg1)) :=
  (ssa_binary writes X 41 rfl (by decide) (by decide) (by decide)).trans (by rw [keep_arg1 X, stage_v28 X]; rfl)

theorem stage_v30 (X : Valuation τ sig (Elt F)) :
    after (ops (F := F)) X (Proc.devRef .tc main_v30) = val_main_v30 (F := F) (X (Proc.devRef .tc main_arg1)) :=
  (ssa_ternary writes X 42 rfl (by decide) (by decide) (by decide) (by decide)).trans (by rw [stage_v27 X, stage_v29 X, keep_arg1 X]; rfl)

theorem stage_v31 (X : Valuation τ sig (Elt F)) :
    after (ops (F := F)) X (Proc.devRef .tc main_v31) = val_main_v31 (F := F) (X (Proc.devRef .tc main_arg1)) :=
  (ssa_unary writes X 43 rfl (by decide) (by decide)).trans (by rw [stage_v30 X]; rfl)

theorem stage_v32 (X : Valuation τ sig (Elt F)) :
    after (ops (F := F)) X (Proc.devRef .tc main_v32) = val_main_v32 (F := F) (X (Proc.devRef .tc main_arg0)) (X (Proc.devRef .tc main_arg1)) (X (Proc.devRef .tc main_arg2)) :=
  (ssa_binary writes X 44 rfl (by decide) (by decide) (by decide)).trans (by rw [stage_v25 X, stage_v31 X]; rfl)

theorem stage_cst_8 (X : Valuation τ sig (Elt F)) :
    after (ops (F := F)) X (Proc.devRef .tc main_cst_8) = val_main_cst_8 (F := F) :=
  (ssa_nullary writes X 45 rfl (by decide)).trans rfl

theorem stage_v33 (X : Valuation τ sig (Elt F)) :
    after (ops (F := F)) X (Proc.devRef .tc main_v33) = val_main_v33 (F := F) :=
  (ssa_unary writes X 46 rfl (by decide) (by decide)).trans (by rw [stage_cst_8 X]; rfl)

theorem stage_v34 (X : Valuation τ sig (Elt F)) :
    after (ops (F := F)) X (Proc.devRef .tc main_v34) = val_main_v34 (F := F) (X (Proc.devRef .tc main_arg2)) :=
  (ssa_unary writes X 47 rfl (by decide) (by decide)).trans (by rw [keep_arg2 X]; rfl)

theorem stage_v35 (X : Valuation τ sig (Elt F)) :
    after (ops (F := F)) X (Proc.devRef .tc main_v35) = val_main_v35 (F := F) (X (Proc.devRef .tc main_arg0)) (X (Proc.devRef .tc main_arg1)) (X (Proc.devRef .tc main_arg2)) :=
  (ssa_ternary writes X 48 rfl (by decide) (by decide) (by decide) (by decide)).trans (by rw [stage_v33 X, stage_v34 X, stage_v32 X]; rfl)

theorem stage_v36 (X : Valuation τ sig (Elt F)) :
    after (ops (F := F)) X (Proc.devRef .tc main_v36) = val_main_v36 (F := F) (X (Proc.devRef .tc main_arg2)) :=
  (ssa_unary writes X 49 rfl (by decide) (by decide)).trans (by rw [stage_v9 X]; rfl)

theorem stage_v37 (X : Valuation τ sig (Elt F)) :
    after (ops (F := F)) X (Proc.devRef .tc main_v37) = val_main_v37 (F := F) (X (Proc.devRef .tc main_arg0)) (X (Proc.devRef .tc main_arg1)) (X (Proc.devRef .tc main_arg2)) :=
  (ssa_binary writes X 50 rfl (by decide) (by decide) (by decide)).trans (by rw [stage_v35 X, stage_v36 X]; rfl)

theorem stage_v38 (X : Valuation τ sig (Elt F)) :
    after (ops (F := F)) X (Proc.devRef .tc main_v38) = val_main_v38 (F := F) (X (Proc.devRef .tc main_arg0)) (X (Proc.devRef .tc main_arg1)) (X (Proc.devRef .tc main_arg2)) :=
  (ssa_nary3 writes X 51 rfl (by decide) (by decide) (by decide) (by decide)).trans (by rw [keep_arg0 X, stage_v23 X, stage_v37 X]; rfl)

theorem stage_v39 (X : Valuation τ sig (Elt F)) :
    after (ops (F := F)) X (Proc.devRef .tc main_v39) = val_main_v39 (F := F) (X (Proc.devRef .tc main_arg0)) (X (Proc.devRef .tc main_arg1)) (X (Proc.devRef .tc main_arg2)) (X (Proc.devRef .tc main_arg5)) :=
  (ssa_binary writes X 52 rfl (by decide) (by decide) (by decide)).trans (by rw [stage_v38 X, keep_arg5 X]; rfl)

theorem stage_v40 (X : Valuation τ sig (Elt F)) :
    after (ops (F := F)) X (Proc.devRef .tc main_v40) = val_main_v40 (F := F) (X (Proc.devRef .tc main_arg6)) :=
  (ssa_unary writes X 53 rfl (by decide) (by decide)).trans (by rw [keep_arg6 X]; rfl)

theorem stage_v41 (X : Valuation τ sig (Elt F)) :
    after (ops (F := F)) X (Proc.devRef .tc main_v41) = val_main_v41 (F := F) (X (Proc.devRef .tc main_arg6)) :=
  (ssa_unary writes X 54 rfl (by decide) (by decide)).trans (by rw [stage_v40 X]; rfl)

theorem stage_v42 (X : Valuation τ sig (Elt F)) :
    after (ops (F := F)) X (Proc.devRef .tc main_v42) = val_main_v42 (F := F) (X (Proc.devRef .tc main_arg0)) (X (Proc.devRef .tc main_arg1)) (X (Proc.devRef .tc main_arg2)) (X (Proc.devRef .tc main_arg5)) (X (Proc.devRef .tc main_arg6)) :=
  (ssa_binary writes X 55 rfl (by decide) (by decide) (by decide)).trans (by rw [stage_v39 X, stage_v41 X]; rfl)

theorem stage_call1_cst (X : Valuation τ sig (Elt F)) :
    after (ops (F := F)) X (Proc.devRef .tc main_call1_cst) = val_main_call1_cst (F := F) :=
  (ssa_nullary writes X 56 rfl (by decide)).trans rfl

theorem stage_call1_v0 (X : Valuation τ sig (Elt F)) :
    after (ops (F := F)) X (Proc.devRef .tc main_call1_v0) = val_main_call1_v0 (F := F) :=
  (ssa_unary writes X 57 rfl (by decide) (by decide)).trans (by rw [stage_call1_cst X]; rfl)

theorem stage_v43 (X : Valuation τ sig (Elt F)) :
    after (ops (F := F)) X (Proc.devRef .tc main_v43) = val_main_v43 (F := F) (X (Proc.devRef .tc main_arg0)) (X (Proc.devRef .tc main_arg1)) (X (Proc.devRef .tc main_arg2)) (X (Proc.devRef .tc main_arg5)) (X (Proc.devRef .tc main_arg6)) :=
  (ssa_binary writes X 58 rfl (by decide) (by decide) (by decide)).trans (by rw [stage_v42 X, stage_call1_v0 X]; rfl)

theorem stage_v44 (X : Valuation τ sig (Elt F)) :
    after (ops (F := F)) X (Proc.devRef .tc main_v44) = val_main_v44 (F := F) (X (Proc.devRef .tc main_arg2)) :=
  (ssa_unary writes X 59 rfl (by decide) (by decide)).trans (by rw [stage_v9 X]; rfl)

theorem stage_v45 (X : Valuation τ sig (Elt F)) :
    after (ops (F := F)) X (Proc.devRef .tc main_v45) = val_main_v45 (F := F) (X (Proc.devRef .tc main_arg0)) (X (Proc.devRef .tc main_arg1)) (X (Proc.devRef .tc main_arg2)) (X (Proc.devRef .tc main_arg5)) (X (Proc.devRef .tc main_arg6)) :=
  (ssa_binary writes X 60 rfl (by decide) (by decide) (by decide)).trans (by rw [stage_v43 X, stage_v44 X]; rfl)

theorem stage_c_9 (X : Valuation τ sig (Elt F)) :
    after (ops (F := F)) X (Proc.devRef .tc main_c_9) = val_main_c_9 (F := F) :=
  (ssa_nullary writes X 61 rfl (by decide)).trans rfl

theorem stage_v46 (X : Valuation τ sig (Elt F)) :
    after (ops (F := F)) X (Proc.devRef .tc main_v46) = val_main_v46 (F := F) :=
  (ssa_unary writes X 62 rfl (by decide) (by decide)).trans (by rw [stage_c_9 X]; rfl)

theorem stage_v47 (X : Valuation τ sig (Elt F)) :
    after (ops (F := F)) X (Proc.devRef .tc main_v47) = val_main_v47 (F := F) (X (Proc.devRef .tc main_arg1)) :=
  (ssa_binary writes X 63 rfl (by decide) (by decide) (by decide)).trans (by rw [keep_arg1 X, stage_v46 X]; rfl)

theorem stage_c_10 (X : Valuation τ sig (Elt F)) :
    after (ops (F := F)) X (Proc.devRef .tc main_c_10) = val_main_c_10 (F := F) :=
  (ssa_nullary writes X 64 rfl (by decide)).trans rfl

theorem stage_v48 (X : Valuation τ sig (Elt F)) :
    after (ops (F := F)) X (Proc.devRef .tc main_v48) = val_main_v48 (F := F) :=
  (ssa_unary writes X 65 rfl (by decide) (by decide)).trans (by rw [stage_c_10 X]; rfl)

theorem stage_v49 (X : Valuation τ sig (Elt F)) :
    after (ops (F := F)) X (Proc.devRef .tc main_v49) = val_main_v49 (F := F) (X (Proc.devRef .tc main_arg1)) :=
  (ssa_binary writes X 66 rfl (by decide) (by decide) (by decide)).trans (by rw [keep_arg1 X, stage_v48 X]; rfl)

theorem stage_v50 (X : Valuation τ sig (Elt F)) :
    after (ops (F := F)) X (Proc.devRef .tc main_v50) = val_main_v50 (F := F) (X (Proc.devRef .tc main_arg1)) :=
  (ssa_ternary writes X 67 rfl (by decide) (by decide) (by decide) (by decide)).trans (by rw [stage_v47 X, stage_v49 X, keep_arg1 X]; rfl)

theorem stage_v51 (X : Valuation τ sig (Elt F)) :
    after (ops (F := F)) X (Proc.devRef .tc main_v51) = val_main_v51 (F := F) (X (Proc.devRef .tc main_arg1)) :=
  (ssa_unary writes X 68 rfl (by decide) (by decide)).trans (by rw [stage_v50 X]; rfl)

theorem stage_v52 (X : Valuation τ sig (Elt F)) :
    after (ops (F := F)) X (Proc.devRef .tc main_v52) = val_main_v52 (F := F) (X (Proc.devRef .tc main_arg0)) (X (Proc.devRef .tc main_arg1)) (X (Proc.devRef .tc main_arg2)) (X (Proc.devRef .tc main_arg5)) (X (Proc.devRef .tc main_arg6)) :=
  (ssa_binary writes X 69 rfl (by decide) (by decide) (by decide)).trans (by rw [stage_v45 X, stage_v51 X]; rfl)

theorem stage_cst_11 (X : Valuation τ sig (Elt F)) :
    after (ops (F := F)) X (Proc.devRef .tc main_cst_11) = val_main_cst_11 (F := F) :=
  (ssa_nullary writes X 70 rfl (by decide)).trans rfl

theorem stage_v53 (X : Valuation τ sig (Elt F)) :
    after (ops (F := F)) X (Proc.devRef .tc main_v53) = val_main_v53 (F := F) :=
  (ssa_unary writes X 71 rfl (by decide) (by decide)).trans (by rw [stage_cst_11 X]; rfl)

theorem stage_v54 (X : Valuation τ sig (Elt F)) :
    after (ops (F := F)) X (Proc.devRef .tc main_v54) = val_main_v54 (F := F) (X (Proc.devRef .tc main_arg2)) :=
  (ssa_unary writes X 72 rfl (by decide) (by decide)).trans (by rw [keep_arg2 X]; rfl)

theorem stage_v55 (X : Valuation τ sig (Elt F)) :
    after (ops (F := F)) X (Proc.devRef .tc main_v55) = val_main_v55 (F := F) (X (Proc.devRef .tc main_arg0)) (X (Proc.devRef .tc main_arg1)) (X (Proc.devRef .tc main_arg2)) (X (Proc.devRef .tc main_arg5)) (X (Proc.devRef .tc main_arg6)) :=
  (ssa_ternary writes X 73 rfl (by decide) (by decide) (by decide) (by decide)).trans (by rw [stage_v53 X, stage_v54 X, stage_v52 X]; rfl)

theorem stage_v56 (X : Valuation τ sig (Elt F)) :
    after (ops (F := F)) X (Proc.devRef .tc main_v56) = val_main_v56 (F := F) (X (Proc.devRef .tc main_arg2)) :=
  (ssa_unary writes X 74 rfl (by decide) (by decide)).trans (by rw [stage_v9 X]; rfl)

theorem stage_v57 (X : Valuation τ sig (Elt F)) :
    after (ops (F := F)) X (Proc.devRef .tc main_v57) = val_main_v57 (F := F) (X (Proc.devRef .tc main_arg0)) (X (Proc.devRef .tc main_arg1)) (X (Proc.devRef .tc main_arg2)) (X (Proc.devRef .tc main_arg5)) (X (Proc.devRef .tc main_arg6)) :=
  (ssa_binary writes X 75 rfl (by decide) (by decide) (by decide)).trans (by rw [stage_v55 X, stage_v56 X]; rfl)

theorem stage_v58 (X : Valuation τ sig (Elt F)) :
    after (ops (F := F)) X (Proc.devRef .tc main_v58) = val_main_v58 (F := F) (X (Proc.devRef .tc main_arg2)) :=
  (ssa_unary writes X 76 rfl (by decide) (by decide)).trans (by rw [stage_v9 X]; rfl)

theorem stage_v59 (X : Valuation τ sig (Elt F)) :
    after (ops (F := F)) X (Proc.devRef .tc main_v59) = val_main_v59 (F := F) (X (Proc.devRef .tc main_arg0)) (X (Proc.devRef .tc main_arg1)) (X (Proc.devRef .tc main_arg2)) (X (Proc.devRef .tc main_arg5)) (X (Proc.devRef .tc main_arg6)) :=
  (ssa_binary writes X 77 rfl (by decide) (by decide) (by decide)).trans (by rw [stage_v57 X, stage_v58 X]; rfl)

theorem stage_c_12 (X : Valuation τ sig (Elt F)) :
    after (ops (F := F)) X (Proc.devRef .tc main_c_12) = val_main_c_12 (F := F) :=
  (ssa_nullary writes X 78 rfl (by decide)).trans rfl

theorem stage_v60 (X : Valuation τ sig (Elt F)) :
    after (ops (F := F)) X (Proc.devRef .tc main_v60) = val_main_v60 (F := F) :=
  (ssa_unary writes X 79 rfl (by decide) (by decide)).trans (by rw [stage_c_12 X]; rfl)

theorem stage_v61 (X : Valuation τ sig (Elt F)) :
    after (ops (F := F)) X (Proc.devRef .tc main_v61) = val_main_v61 (F := F) (X (Proc.devRef .tc main_arg1)) :=
  (ssa_binary writes X 80 rfl (by decide) (by decide) (by decide)).trans (by rw [keep_arg1 X, stage_v60 X]; rfl)

theorem stage_c_13 (X : Valuation τ sig (Elt F)) :
    after (ops (F := F)) X (Proc.devRef .tc main_c_13) = val_main_c_13 (F := F) :=
  (ssa_nullary writes X 81 rfl (by decide)).trans rfl

theorem stage_v62 (X : Valuation τ sig (Elt F)) :
    after (ops (F := F)) X (Proc.devRef .tc main_v62) = val_main_v62 (F := F) :=
  (ssa_unary writes X 82 rfl (by decide) (by decide)).trans (by rw [stage_c_13 X]; rfl)

theorem stage_v63 (X : Valuation τ sig (Elt F)) :
    after (ops (F := F)) X (Proc.devRef .tc main_v63) = val_main_v63 (F := F) (X (Proc.devRef .tc main_arg1)) :=
  (ssa_binary writes X 83 rfl (by decide) (by decide) (by decide)).trans (by rw [keep_arg1 X, stage_v62 X]; rfl)

theorem stage_v64 (X : Valuation τ sig (Elt F)) :
    after (ops (F := F)) X (Proc.devRef .tc main_v64) = val_main_v64 (F := F) (X (Proc.devRef .tc main_arg1)) :=
  (ssa_ternary writes X 84 rfl (by decide) (by decide) (by decide) (by decide)).trans (by rw [stage_v61 X, stage_v63 X, keep_arg1 X]; rfl)

theorem stage_v65 (X : Valuation τ sig (Elt F)) :
    after (ops (F := F)) X (Proc.devRef .tc main_v65) = val_main_v65 (F := F) (X (Proc.devRef .tc main_arg1)) :=
  (ssa_unary writes X 85 rfl (by decide) (by decide)).trans (by rw [stage_v64 X]; rfl)

theorem stage_v66 (X : Valuation τ sig (Elt F)) :
    after (ops (F := F)) X (Proc.devRef .tc main_v66) = val_main_v66 (F := F) (X (Proc.devRef .tc main_arg0)) (X (Proc.devRef .tc main_arg1)) (X (Proc.devRef .tc main_arg2)) (X (Proc.devRef .tc main_arg5)) (X (Proc.devRef .tc main_arg6)) :=
  (ssa_binary writes X 86 rfl (by decide) (by decide) (by decide)).trans (by rw [stage_v59 X, stage_v65 X]; rfl)

theorem stage_cst_14 (X : Valuation τ sig (Elt F)) :
    after (ops (F := F)) X (Proc.devRef .tc main_cst_14) = val_main_cst_14 (F := F) :=
  (ssa_nullary writes X 87 rfl (by decide)).trans rfl

theorem stage_v67 (X : Valuation τ sig (Elt F)) :
    after (ops (F := F)) X (Proc.devRef .tc main_v67) = val_main_v67 (F := F) :=
  (ssa_unary writes X 88 rfl (by decide) (by decide)).trans (by rw [stage_cst_14 X]; rfl)

theorem stage_v68 (X : Valuation τ sig (Elt F)) :
    after (ops (F := F)) X (Proc.devRef .tc main_v68) = val_main_v68 (F := F) (X (Proc.devRef .tc main_arg2)) :=
  (ssa_unary writes X 89 rfl (by decide) (by decide)).trans (by rw [keep_arg2 X]; rfl)

theorem stage_v69 (X : Valuation τ sig (Elt F)) :
    after (ops (F := F)) X (Proc.devRef .tc main_v69) = val_main_v69 (F := F) (X (Proc.devRef .tc main_arg0)) (X (Proc.devRef .tc main_arg1)) (X (Proc.devRef .tc main_arg2)) (X (Proc.devRef .tc main_arg5)) (X (Proc.devRef .tc main_arg6)) :=
  (ssa_ternary writes X 90 rfl (by decide) (by decide) (by decide) (by decide)).trans (by rw [stage_v67 X, stage_v68 X, stage_v66 X]; rfl)

theorem stage_v70 (X : Valuation τ sig (Elt F)) :
    after (ops (F := F)) X (Proc.devRef .tc main_v70) = val_main_v70 (F := F) (X (Proc.devRef .tc main_arg2)) :=
  (ssa_unary writes X 91 rfl (by decide) (by decide)).trans (by rw [stage_v9 X]; rfl)

theorem stage_v71 (X : Valuation τ sig (Elt F)) :
    after (ops (F := F)) X (Proc.devRef .tc main_v71) = val_main_v71 (F := F) (X (Proc.devRef .tc main_arg0)) (X (Proc.devRef .tc main_arg1)) (X (Proc.devRef .tc main_arg2)) (X (Proc.devRef .tc main_arg5)) (X (Proc.devRef .tc main_arg6)) :=
  (ssa_binary writes X 92 rfl (by decide) (by decide) (by decide)).trans (by rw [stage_v69 X, stage_v70 X]; rfl)

theorem stage_v72 (X : Valuation τ sig (Elt F)) :
    after (ops (F := F)) X (Proc.devRef .tc main_v72) = val_main_v72 (F := F) (X (Proc.devRef .tc main_arg0)) (X (Proc.devRef .tc main_arg1)) (X (Proc.devRef .tc main_arg2)) (X (Proc.devRef .tc main_arg5)) (X (Proc.devRef .tc main_arg6)) :=
  (ssa_nary3 writes X 93 rfl (by decide) (by decide) (by decide) (by decide)).trans (by rw [stage_v43 X, stage_v57 X, stage_v71 X]; rfl)

theorem stage_v73 (X : Valuation τ sig (Elt F)) :
    after (ops (F := F)) X (Proc.devRef .tc main_v73) = val_main_v73 (F := F) (X (Proc.devRef .tc main_arg0)) (X (Proc.devRef .tc main_arg1)) (X (Proc.devRef .tc main_arg2)) (X (Proc.devRef .tc main_arg5)) (X (Proc.devRef .tc main_arg6)) (X (Proc.devRef .tc main_arg7)) :=
  (ssa_binary writes X 94 rfl (by decide) (by decide) (by decide)).trans (by rw [stage_v72 X, keep_arg7 X]; rfl)

theorem stage_v74 (X : Valuation τ sig (Elt F)) :
    after (ops (F := F)) X (Proc.devRef .tc main_v74) = val_main_v74 (F := F) (X (Proc.devRef .tc main_arg8)) :=
  (ssa_unary writes X 95 rfl (by decide) (by decide)).trans (by rw [keep_arg8 X]; rfl)

theorem stage_v75 (X : Valuation τ sig (Elt F)) :
    after (ops (F := F)) X (Proc.devRef .tc main_v75) = val_main_v75 (F := F) (X (Proc.devRef .tc main_arg8)) :=
  (ssa_unary writes X 96 rfl (by decide) (by decide)).trans (by rw [stage_v74 X]; rfl)

theorem stage_v76 (X : Valuation τ sig (Elt F)) :
    after (ops (F := F)) X (Proc.devRef .tc main_v76) = val_main_v76 (F := F) (X (Proc.devRef .tc main_arg0)) (X (Proc.devRef .tc main_arg1)) (X (Proc.devRef .tc main_arg2)) (X (Proc.devRef .tc main_arg5)) (X (Proc.devRef .tc main_arg6)) (X (Proc.devRef .tc main_arg7)) (X (Proc.devRef .tc main_arg8)) :=
  (ssa_binary writes X 97 rfl (by decide) (by decide) (by decide)).trans (by rw [stage_v73 X, stage_v75 X]; rfl)

theorem stage_cst_15 (X : Valuation τ sig (Elt F)) :
    after (ops (F := F)) X (Proc.devRef .tc main_cst_15) = val_main_cst_15 (F := F) :=
  (ssa_nullary writes X 98 rfl (by decide)).trans rfl

theorem stage_v77 (X : Valuation τ sig (Elt F)) :
    after (ops (F := F)) X (Proc.devRef .tc main_v77) = val_main_v77 (F := F) :=
  (ssa_unary writes X 99 rfl (by decide) (by decide)).trans (by rw [stage_cst_15 X]; rfl)

theorem stage_v78 (X : Valuation τ sig (Elt F)) :
    after (ops (F := F)) X (Proc.devRef .tc main_v78) = val_main_v78 (F := F) (X (Proc.devRef .tc main_arg3)) :=
  (ssa_unary writes X 100 rfl (by decide) (by decide)).trans (by rw [keep_arg3 X]; rfl)

theorem stage_v79 (X : Valuation τ sig (Elt F)) :
    after (ops (F := F)) X (Proc.devRef .tc main_v79) = val_main_v79 (F := F) (X (Proc.devRef .tc main_arg0)) (X (Proc.devRef .tc main_arg1)) (X (Proc.devRef .tc main_arg2)) (X (Proc.devRef .tc main_arg3)) (X (Proc.devRef .tc main_arg5)) (X (Proc.devRef .tc main_arg6)) (X (Proc.devRef .tc main_arg7)) (X (Proc.devRef .tc main_arg8)) :=
  (ssa_ternary writes X 101 rfl (by decide) (by decide) (by decide) (by decide)).trans (by rw [stage_v77 X, stage_v78 X, stage_v76 X]; rfl)

theorem stage_cst_16 (X : Valuation τ sig (Elt F)) :
    after (ops (F := F)) X (Proc.devRef .tc main_cst_16) = val_main_cst_16 (F := F) :=
  (ssa_nullary writes X 102 rfl (by decide)).trans rfl

theorem stage_v80 (X : Valuation τ sig (Elt F)) :
    after (ops (F := F)) X (Proc.devRef .tc main_v80) = val_main_v80 (F := F) :=
  (ssa_unary writes X 103 rfl (by decide) (by decide)).trans (by rw [stage_cst_16 X]; rfl)

theorem stage_cst_17 (X : Valuation τ sig (Elt F)) :
    after (ops (F := F)) X (Proc.devRef .tc main_cst_17) = val_main_cst_17 (F := F) :=
  (ssa_nullary writes X 104 rfl (by decide)).trans rfl

theorem stage_v81 (X : Valuation τ sig (Elt F)) :
    after (ops (F := F)) X (Proc.devRef .tc main_v81) = val_main_v81 (F := F) :=
  (ssa_unary writes X 105 rfl (by decide) (by decide)).trans (by rw [stage_cst_17 X]; rfl)

theorem stage_v82 (X : Valuation τ sig (Elt F)) :
    after (ops (F := F)) X (Proc.devRef .tc main_v82) = val_main_v82 (F := F) (X (Proc.devRef .tc main_arg3)) :=
  (ssa_unary writes X 106 rfl (by decide) (by decide)).trans (by rw [keep_arg3 X]; rfl)

theorem stage_v83 (X : Valuation τ sig (Elt F)) :
    after (ops (F := F)) X (Proc.devRef .tc main_v83) = val_main_v83 (F := F) (X (Proc.devRef .tc main_arg3)) :=
  (ssa_ternary writes X 107 rfl (by decide) (by decide) (by decide) (by decide)).trans (by rw [stage_v81 X, stage_v82 X, stage_v80 X]; rfl)

theorem stage_cst_18 (X : Valuation τ sig (Elt F)) :
    after (ops (F := F)) X (Proc.devRef .tc main_cst_18) = val_main_cst_18 (F := F) :=
  (ssa_nullary writes X 108 rfl (by decide)).trans rfl

theorem stage_v84 (X : Valuation τ sig (Elt F)) :
    after (ops (F := F)) X (Proc.devRef .tc main_v84) = val_main_v84 (F := F) :=
  (ssa_unary writes X 109 rfl (by decide) (by decide)).trans (by rw [stage_cst_18 X]; rfl)

theorem stage_v85 (X : Valuation τ sig (Elt F)) :
    after (ops (F := F)) X (Proc.devRef .tc main_v85) = val_main_v85 (F := F) (X (Proc.devRef .tc main_arg3)) :=
  (ssa_binary writes X 110 rfl (by decide) (by decide) (by decide)).trans (by rw [stage_v83 X, stage_v84 X]; rfl)

theorem stage_v86 (X : Valuation τ sig (Elt F)) :
    after (ops (F := F)) X (Proc.devRef .tc main_v86) = val_main_v86 (F := F) (X (Proc.devRef .tc main_arg3)) :=
  (ssa_unary writes X 111 rfl (by decide) (by decide)).trans (by rw [stage_v85 X]; rfl)

theorem stage_v87 (X : Valuation τ sig (Elt F)) :
    after (ops (F := F)) X (Proc.devRef .tc main_v87) = val_main_v87 (F := F) (X (Proc.devRef .tc main_arg3)) :=
  (ssa_unary writes X 112 rfl (by decide) (by decide)).trans (by rw [stage_v86 X]; rfl)

theorem stage_v88 (X : Valuation τ sig (Elt F)) :
    after (ops (F := F)) X (Proc.devRef .tc main_v88) = val_main_v88 (F := F) (X (Proc.devRef .tc main_arg0)) (X (Proc.devRef .tc main_arg1)) (X (Proc.devRef .tc main_arg2)) (X (Proc.devRef .tc main_arg3)) (X (Proc.devRef .tc main_arg5)) (X (Proc.devRef .tc main_arg6)) (X (Proc.devRef .tc main_arg7)) (X (Proc.devRef .tc main_arg8)) :=
  (ssa_binary writes X 113 rfl (by decide) (by decide) (by decide)).trans (by rw [stage_v79 X, stage_v87 X]; rfl)

theorem stage_v89 (X : Valuation τ sig (Elt F)) :
    after (ops (F := F)) X (Proc.devRef .tc main_v89) = val_main_v89 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) :=
  (ssa_binary writes X 114 rfl (by decide) (by decide) (by decide)).trans (by rw [stage_v88 X, keep_arg4 X]; rfl)

theorem stage_v90 (X : Valuation τ sig (Elt F)) :
    after (ops (F := F)) X (Proc.devRef .tc main_v90) = val_main_v90 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) :=
  (ssa_binary writes X 115 rfl (by decide) (by decide) (by decide)).trans (by rw [stage_v89 X, keep_arg9 X]; rfl)

theorem stage_v91 (X : Valuation τ sig (Elt F)) :
    after (ops (F := F)) X (Proc.devRef .tc main_v91) = val_main_v91 (F := F) (X (Proc.devRef .tc main_arg10)) :=
  (ssa_unary writes X 116 rfl (by decide) (by decide)).trans (by rw [keep_arg10 X]; rfl)

theorem stage_v92 (X : Valuation τ sig (Elt F)) :
    after (ops (F := F)) X (Proc.devRef .tc main_v92) = val_main_v92 (F := F) (X (Proc.devRef .tc main_arg10)) :=
  (ssa_unary writes X 117 rfl (by decide) (by decide)).trans (by rw [stage_v91 X]; rfl)

theorem stage_v93 (X : Valuation τ sig (Elt F)) :
    after (ops (F := F)) X (Proc.devRef .tc main_v93) = val_main_v93 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) :=
  (ssa_binary writes X 118 rfl (by decide) (by decide) (by decide)).trans (by rw [stage_v90 X, stage_v92 X]; rfl)

/-! ## The result -/

/-- The program's result buffer ends at its stage value of the eleven arguments. -/
theorem after_v93 (X : Valuation τ sig (Elt F)) :
    after (ops (F := F)) X (Proc.devRef .tc main_v93) = val_main_v93 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) :=
  stage_v93 X

end Cert.ReferenceIdeal.ValueP
-- ==== Proof.RefRun.lean ====
/-
  The reference program's run. Its @main is one line of 119 host operations, each writing a buffer of its own. From any
  memory with zero counters, every weakly fair execution of the line terminates; the final contents of every buffer are
  the fold of the operations' results over the launch contents. Read stage by stage (a buffer written once holds at the
  end what its writer computed from what its operands hold at the end), the result buffer holds the last stage's value
  as a function of the eleven arguments' launch contents, and the arguments, written by no operation, are unchanged.
  The composed term of the whole line is never formed.
-/
import proofs.«405254_j42863773614471_1_alg».proof.Proof.RefStages

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 47600000 in
/-- On every device, for any float values, from any memory with zero counters: every weakly fair execution of
    @main terminates with the result buffer at the last stage's value of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
        = Cert.ReferenceIdeal.ReadP.val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v93).trans (after_v93 (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c))⟩)
    (run_seq scopedRefs_eq scopedSems_eq defs main (fun _ => ops) main_eq (fun _ => ops_sub) m ρ)

end Cert.ReferenceIdeal.ValueP

end
-- ==== Proof.lean ====
/-
  The certificate of the pooled graph classifier against its reference, over the extended reals.

  Both programs build, by the same host operations, the normalised two-hop feature stack [x | A x | A² x] of the node
  features, A the adjacency scatter-gather scaled on both sides by the clamped in-degree to the power −1/2. The kernel
  applies each dense layer tile by tile (2000 rows at a time; the first with a rectifier) where the reference applies
  one matrix product to the whole stack: row by row the same sum. The kernel pools by accumulating, tile by tile, the
  product of the transposed membership table with the node features, where the reference scatter-adds the rows by
  their graph id: for each graph the same sum over its nodes, a node whose id names no graph contributing to neither.
  Both divide by the clamped count; the kernel multiplies the pooled features and the permutation features by the two
  row bands of the classifier's matrix and adds, where the reference multiplies the joined row by the whole matrix:
  a sum over 160 columns split as 128 + 32. Sums on the extended reals re-associate freely; no step distributes a
  product over a sum, so nothing here asks the inputs to be finite.

  The frames: @main's run through its three pipelined regions, at any float family, hence at the word-level
  instance and at the ideal one; the reference's run is its line of host operations read stage by stage.
  The idealization rewrote nothing, so there is nothing to preserve.
-/
import proofs.«405254_j42863773614471_1_alg».proof.Defs
import proofs.«405254_j42863773614471_1_alg».proof.Proof.Gen.Kernel
import proofs.«405254_j42863773614471_1_alg».proof.Proof.Gen.KernelIdeal
import proofs.«405254_j42863773614471_1_alg».proof.Proof.Gen.ReferenceIdeal
import proofs.«405254_j42863773614471_1_alg».proof.Proof.Gen.Pre_finite_inputs
import proofs.«405254_j42863773614471_1_alg».proof.Proof.K.Run
import proofs.«405254_j42863773614471_1_alg».proof.Proof.KI.Run
import proofs.«405254_j42863773614471_1_alg».proof.Proof.KI.Value
import proofs.«405254_j42863773614471_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the reference's last stage of the launch arguments, which agree. -/
theorem algebraic : Cert.algebraic_KernelIdeal_ReferenceIdeal := by
  intro m ρ m' ρ' _ hagree
  refine ⟨fun c => Cert.ReferenceIdeal.ReadP.val_main_v93 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono (fun r h c =>
      ⟨(h c _ (Cert.KernelIdeal.Hand.mem_uc Cert.KernelIdeal.main_v85 (by decide))).trans (Cert.KernelIdeal.Hand.result_eq m ρ c),
       (h c _ (Cert.KernelIdeal.Hand.mem_uc Cert.KernelIdeal.main_arg0 (by decide))).trans (Cert.KernelIdeal.Hand.W8_main_arg0 m ρ c),
       (h c _ (Cert.KernelIdeal.Hand.mem_uc Cert.KernelIdeal.main_arg1 (by decide))).trans (Cert.KernelIdeal.Hand.W8_main_arg1 m ρ c),
       (h c _ (Cert.KernelIdeal.Hand.mem_uc Cert.KernelIdeal.main_arg2 (by decide))).trans (Cert.KernelIdeal.Hand.W8_main_arg2 m ρ c),
       (h c _ (Cert.KernelIdeal.Hand.mem_uc Cert.KernelIdeal.main_arg3 (by decide))).trans (Cert.KernelIdeal.Hand.W8_main_arg3 m ρ c),
       (h c _ (Cert.KernelIdeal.Hand.mem_uc Cert.KernelIdeal.main_arg4 (by decide))).trans (Cert.KernelIdeal.Hand.W8_main_arg4 m ρ c),
       (h c _ (Cert.KernelIdeal.Hand.mem_uc Cert.KernelIdeal.main_arg5 (by decide))).trans (Cert.KernelIdeal.Hand.W8_main_arg5 m ρ c),
       (h c _ (Cert.KernelIdeal.Hand.mem_uc Cert.KernelIdeal.main_arg6 (by decide))).trans (Cert.KernelIdeal.Hand.W8_main_arg6 m ρ c),
       (h c _ (Cert.KernelIdeal.Hand.mem_uc Cert.KernelIdeal.main_arg7 (by decide))).trans (Cert.KernelIdeal.Hand.W8_main_arg7 m ρ c),
       (h c _ (Cert.KernelIdeal.Hand.mem_uc Cert.KernelIdeal.main_arg8 (by decide))).trans (Cert.KernelIdeal.Hand.W8_main_arg8 m ρ c),
       (h c _ (Cert.KernelIdeal.Hand.mem_uc Cert.KernelIdeal.main_arg9 (by decide))).trans (Cert.KernelIdeal.Hand.W8_main_arg9 m ρ c),
       (h c _ (Cert.KernelIdeal.Hand.mem_uc Cert.KernelIdeal.main_arg10 (by decide))).trans (Cert.KernelIdeal.Hand.W8_main_arg10 m ρ c)⟩)
      (Cert.KernelIdeal.Hand.run_all m ρ)
  · refine (θ_run Cert.ReferenceIdeal.defs _ _).mono (fun r h c => ⟨(h c).1.trans ?_, (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
